-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v42)) (v3 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_v43) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S65536x4 : Shape := ⟨2, ![65536, 4]⟩
abbrev S65536 : Shape := ⟨1, ![65536]⟩
abbrev S19660 : Shape := ⟨1, ![19660]⟩
abbrev S65536x1 : Shape := ⟨2, ![65536, 1]⟩
abbrev S_ : Shape := ⟨0, ![]⟩

class Facts : Prop where
  slices_S65536x4_S65536x1_0_0 : S65536x4.Slices ![0, 0] S65536x1
  shapeCasts_S65536x1_S65536 : S65536x1.ShapeCasts S65536
  bcast_S_S65536 : S_.BroadcastsInDim S65536 (![] : Fin 0 → Fin S65536.rank)
  slices_S65536x4_S65536x1_0_1 : S65536x4.Slices ![0, 1] S65536x1
  slices_S65536x4_S65536x1_0_2 : S65536x4.Slices ![0, 2] S65536x1
  slices_S65536x4_S65536x1_0_3 : S65536x4.Slices ![0, 3] S65536x1
  bcast_S_S65536x64 : S_.BroadcastsInDim S65536x64 (![] : Fin 0 → Fin S65536x64.rank)
  reducesTo_S65536x64_S_d0_1 : S65536x64.ReducesTo [0, 1] S_
  h_S_ : 0 < S_.numel
  reducesTo_S65536_S_d0 : S65536.ReducesTo [0] S_

variable [Facts]

def fn_part1 {F : FTy → Type} [FloatOps F] (main_v14 : IVec S65536 32) (main_v18 : IVec S_ 1) (main_c_2 : IVec S_ 32) : IVec S_ 1 :=
  let main_v19 : IVec S65536 32 := broadcastInDim S65536 ![] bcast_S_S65536 main_c_2
  let main_v20 : IVec S65536 1 := cmpi .sge main_v14 main_v19
  let main_c_3 : IVec S_ 1 := constantI S_ 1 1#1
  let main_v21 : IVec S_ 1 := (fun x v => Host.reduce IntOp.andi x v reducesTo_S65536_S_d0 h_S_) main_v20 main_c_3
  let main_v22 : IVec S_ 1 := andi main_v18 main_v21
  let main_c_4 : IVec S_ 32 := constantI S_ 32 1048576#32
  let main_v23 : IVec S65536 32 := broadcastInDim S65536 ![] bcast_S_S65536 main_c_4
  let main_v24 : IVec S65536 1 := cmpi .slt main_v14 main_v23
  let main_c_5 : IVec S_ 1 := constantI S_ 1 1#1
  let main_v25 : IVec S_ 1 := (fun x v => Host.reduce IntOp.andi x v reducesTo_S65536_S_d0 h_S_) main_v24 main_c_5
  let main_v26 : IVec S_ 1 := andi main_v22 main_v25
  main_v26

def fn {F : FTy → Type} [FloatOps F] (main_arg0 : FVec F S65536x64 .f32) (main_arg1 : IVec S65536x4 32) (main_arg2 : IVec S65536 32) (main_arg3 : IVec S19660 32) : IVec S_ 1 :=
  let main_v0 : IVec S65536x1 32 := (extractStridedSlice S65536x1 ![0, 0] · slices_S65536x4_S65536x1_0_0) main_arg1
  let main_v1 : IVec S65536 32 := shapeCast S65536 main_v0 shapeCasts_S65536x1_S65536
  let main_c : IVec S_ 32 := constantI S_ 32 262144#32
  let main_v2 : IVec S65536 32 := broadcastInDim S65536 ![] bcast_S_S65536 main_c
  let main_v3 : IVec S65536 32 := muli main_v1 main_v2
  let main_v4 : IVec S65536x1 32 := (extractStridedSlice S65536x1 ![0, 1] · slices_S65536x4_S65536x1_0_1) main_arg1
  let main_v5 : IVec S65536 32 := shapeCast S65536 main_v4 shapeCasts_S65536x1_S65536
  let main_v6 : IVec S65536 32 := addi main_v3 main_v5
  let main_v7 : IVec S65536x1 32 := (extractStridedSlice S65536x1 ![0, 2] · slices_S65536x4_S65536x1_0_2) main_arg1
  let main_v8 : IVec S65536 32 := shapeCast S65536 main_v7 shapeCasts_S65536x1_S65536
  let main_c_0 : IVec S_ 32 := constantI S_ 32 512#32
  let main_v9 : IVec S65536 32 := broadcastInDim S65536 ![] bcast_S_S65536 main_c_0
  let main_v10 : IVec S65536 32 := muli main_v8 main_v9
  let main_v11 : IVec S65536 32 := addi main_v6 main_v10
  let main_v12 : IVec S65536x1 32 := (extractStridedSlice S65536x1 ![0, 3] · slices_S65536x4_S65536x1_0_3) main_arg1
  let main_v13 : IVec S65536 32 := shapeCast S65536 main_v12 shapeCasts_S65536x1_S65536
  let main_v14 : IVec S65536 32 := addi main_v11 main_v13
  let main_v15 : FVec F S65536x64 .f32 := Host.absf main_arg0
  let main_cst : FVec F S_ .f32 := constant S_ .f32 0x7F800000#32
  let main_v16 : FVec F S65536x64 .f32 := broadcastInDim S65536x64 ![] bcast_S_S65536x64 main_cst
  let main_v17 : IVec S65536x64 1 := cmpf .olt main_v15 main_v16
  let main_c_1 : IVec S_ 1 := constantI S_ 1 1#1
  let main_v18 : IVec S_ 1 := (fun x v => Host.reduce IntOp.andi x v reducesTo_S65536x64_S_d0_1 h_S_) main_v17 main_c_1
  let main_c_2 : IVec S_ 32 := constantI S_ 32 0#32
  fn_part1 (F := F) main_v14 main_v18 main_c_2
-- ==== Kernel.lean ====
abbrev S65536x64 : Shape := ⟨2, ![65536, 64]⟩
abbrev S65536x4 : Shape := ⟨2, ![65536, 4]⟩
abbrev S65536 : Shape := ⟨1, ![65536]⟩
abbrev S19660 : Shape := ⟨1, ![19660]⟩
abbrev S65536x1 : Shape := ⟨2, ![65536, 1]⟩
abbrev S_ : Shape := ⟨0, ![]⟩
abbrev S19660x1 : Shape := ⟨2, ![19660, 1]⟩
abbrev S19660x64 : Shape := ⟨2, ![19660, 64]⟩
abbrev S1048576x1x1 : Shape := ⟨3, ![1048576, 1, 1]⟩
abbrev S65536x1x1 : Shape := ⟨3, ![65536, 1, 1]⟩
abbrev S1x1x1 : Shape := ⟨3, ![1, 1, 1]⟩
abbrev S1 : Shape := ⟨1, ![1]⟩
abbrev S1048576x1x64 : Shape := ⟨3, ![1048576, 1, 64]⟩
abbrev S19660x1x64 : Shape := ⟨3, ![19660, 1, 64]⟩
abbrev S1x1x64 : Shape := ⟨3, ![1, 1, 64]⟩
abbrev S4x512x512 : Shape := ⟨3, ![4, 512, 512]⟩
abbrev S4x262144x64 : Shape := ⟨3, ![4, 262144, 64]⟩
abbrev S4x64x262144 : Shape := ⟨3, ![4, 64, 262144]⟩
abbrev S4x64x512x512 : Shape := ⟨4, ![4, 64, 512, 512]⟩

abbrev nBuf : Space → Nat
  | .hbm => 62
  | .vmem => 14
  | .smem => 2
  | _ => 0

abbrev bufTy : (tb : Table) → Fin (tcTables nBuf tb) → BufTy
  | .hbm, ⟨0, _⟩ => ⟨S65536x64, .f32⟩
  | .hbm, ⟨1, _⟩ => ⟨S65536x4, .i32⟩
  | .hbm, ⟨2, _⟩ => ⟨S65536, .i32⟩
  | .hbm, ⟨3, _⟩ => ⟨S19660, .i32⟩
  | .hbm, ⟨4, _⟩ => ⟨S65536x1, .i32⟩
  | .hbm, ⟨5, _⟩ => ⟨S65536, .i32⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536x1, .i32⟩
  | .hbm, ⟨10, _⟩ => ⟨S65536, .i32⟩
  | .hbm, ⟨11, _⟩ => ⟨S65536, .i32⟩
  | .hbm, ⟨12, _⟩ => ⟨S65536x1, .i32⟩
  | .hbm, ⟨13, _⟩ => ⟨S65536, .i32⟩
  | .hbm, ⟨14, _⟩ => ⟨S_, .i32⟩
  | .hbm, ⟨15, _⟩ => ⟨S65536, .i32⟩
  | .hbm, ⟨16, _⟩ => ⟨S65536, .i32⟩
  | .hbm, ⟨17, _⟩ => ⟨S65536, .i32⟩
  | .hbm, ⟨18, _⟩ => ⟨S65536x1, .i32⟩
  | .hbm, ⟨19, _⟩ => ⟨S65536, .i32⟩
  | .hbm, ⟨20, _⟩ => ⟨S_, .i32⟩
  | .hbm, ⟨21, _⟩ => ⟨S19660, .i32⟩
  | .hbm, ⟨22, _⟩ => ⟨S19660, .i1⟩
  | .hbm, ⟨23, _⟩ => ⟨S_, .i32⟩
  | .hbm, ⟨24, _⟩ => ⟨S19660, .i32⟩
  | .hbm, ⟨25, _⟩ => ⟨S19660, .i32⟩
  | .hbm, ⟨26, _⟩ => ⟨S19660, .i32⟩
  | .hbm, ⟨27, _⟩ => ⟨S19660x1, .i32⟩
  | .hbm, ⟨28, _⟩ => ⟨S_, .i32⟩
  | .hbm, ⟨29, _⟩ => ⟨S19660, .i32⟩
  | .hbm, ⟨30, _⟩ => ⟨S19660, .i1⟩
  | .hbm, ⟨31, _⟩ => ⟨S_, .i32⟩
  | .hbm, ⟨32, _⟩ => ⟨S19660, .i32⟩
  | .hbm, ⟨33, _⟩ => ⟨S19660, .i32⟩
  | .hbm, ⟨34, _⟩ => ⟨S19660, .i32⟩
  | .hbm, ⟨35, _⟩ => ⟨S19660x1, .i32⟩
  | .hbm, ⟨36, _⟩ => ⟨S19660x64, .f32⟩
  | .hbm, ⟨37, _⟩ => ⟨S65536, .f32⟩
  | .hbm, ⟨38, _⟩ => ⟨S_, .f32⟩
  | .hbm, ⟨39, _⟩ => ⟨S65536, .f32⟩
  | .hbm, ⟨40, _⟩ => ⟨S65536, .f32⟩
  | .hbm, ⟨41, _⟩ => ⟨S_, .f32⟩
  | .hbm, ⟨42, _⟩ => ⟨S1048576x1x1, .f32⟩
  | .hbm, ⟨43, _⟩ => ⟨S_, .f32⟩
  | .hbm, ⟨44, _⟩ => ⟨S1048576x1x1, .f32⟩
  | .hbm, ⟨45, _⟩ => ⟨S_, .i32⟩
  | .hbm, ⟨46, _⟩ => ⟨S1048576x1x1, .i32⟩
  | .hbm, ⟨47, _⟩ => ⟨S65536x1x1, .f32⟩
  | .hbm, ⟨48, _⟩ => ⟨S65536x1x1, .i32⟩
  | .hbm, ⟨49, _⟩ => ⟨S1048576x1x1, .f32⟩
  | .hbm, ⟨50, _⟩ => ⟨S1048576x1x1, .f32⟩
  | .hbm, ⟨51, _⟩ => ⟨S1048576x1x1, .i32⟩
  | .hbm, ⟨52, _⟩ => ⟨S_, .f32⟩
  | .hbm, ⟨53, _⟩ => ⟨S1048576x1x64, .f32⟩
  | .hbm, ⟨54, _⟩ => ⟨S19660x1x64, .f32⟩
  | .hbm, ⟨55, _⟩ => ⟨S1048576x1x64, .f32⟩
  | .hbm, ⟨56, _⟩ => ⟨S4x512x512, .f32⟩
  | .hbm, ⟨57, _⟩ => ⟨S4x512x512, .f32⟩
  | .hbm, ⟨58, _⟩ => ⟨S4x512x512, .i32⟩
  | .hbm, ⟨59, _⟩ => ⟨S4x262144x64, .f32⟩
  | .hbm, ⟨60, _⟩ => ⟨S4x64x262144, .f32⟩
  | .hbm, ⟨61, _⟩ => ⟨S4x64x512x512, .f32⟩
  | .local _ .vmem, ⟨0, _⟩ => ⟨S1x1x1, .f32⟩
  | .local _ .vmem, ⟨1, _⟩ => ⟨S1x1x1, .f32⟩
  | .local _ .vmem, ⟨2, _⟩ => ⟨S1x1x1, .i32⟩
  | .local _ .vmem, ⟨3, _⟩ => ⟨S1x1x1, .i32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .i32⟩
  | .local _ .vmem, ⟨9, _⟩ => ⟨S1x1x1, .i32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .smem, ⟨0, _⟩ => ⟨S65536, .i32⟩
  | .local _ .smem, ⟨1, _⟩ => ⟨S19660, .i32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_v22 : Ref sig .tc := ⟨.hbm, 29, rfl⟩
abbrev main_v23 : Ref sig .tc := ⟨.hbm, 30, rfl⟩
abbrev main_c_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_c_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37_0 : Ref sig .tc := ⟨.hbm, 49, rfl⟩
abbrev main_v37_1 : Ref sig .tc := ⟨.hbm, 50, rfl⟩
abbrev main_v37_2 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v14 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13

abbrev nD : Nat := 1
abbrev τ : Topo := Topo.v7x

variable {F : FTy → Type} [FloatOps F]

abbrev grid0 : Pipeline.Grid := ⟨1, ![65536], ![false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (k0_off1_inb : ∀ i : grid0.Coords, ∀ a, (k0_off1 i) a + S1.size a ≤ S65536.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S65536) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S65536.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S65536) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S65536.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S65536) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![19660], ![false]⟩

abbrev pre1 : Pipeline.Prefetch sig := ⟨1, ![main_v21.idx], fun | 0 => main_v21.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (k1_off1_inb : ∀ i : grid1.Coords, ∀ a, (k1_off1 i) a + S1.size a ≤ S19660.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S19660) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x1x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S65536x4_S65536x1_0_0 : S65536x4.Slices ![0, 0] S65536x1
  shapeCasts_S65536x1_S65536 : S65536x1.ShapeCasts S65536
  bcast_S_S65536 : S_.BroadcastsInDim S65536 (![] : Fin 0 → Fin S65536.rank)
  slices_S65536x4_S65536x1_0_1 : S65536x4.Slices ![0, 1] S65536x1
  slices_S65536x4_S65536x1_0_2 : S65536x4.Slices ![0, 2] S65536x1
  slices_S65536x4_S65536x1_0_3 : S65536x4.Slices ![0, 3] S65536x1
  bcast_S_S19660 : S_.BroadcastsInDim S19660 (![] : Fin 0 → Fin S19660.rank)
  bcast_S19660_S19660x1_0 : S19660.BroadcastsInDim S19660x1 (![0] : Fin 1 → Fin S19660x1.rank)
  bcast_S_S1048576x1x1 : S_.BroadcastsInDim S1048576x1x1 (![] : Fin 0 → Fin S1048576x1x1.rank)
  shapeCasts_S65536_S65536x1x1 : S65536.ShapeCasts S65536x1x1
  numel1_S1 : S1.numel = 1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  bcast_S_S1048576x1x64 : S_.BroadcastsInDim S1048576x1x64 (![] : Fin 0 → Fin S1048576x1x64.rank)
  shapeCasts_S19660x64_S19660x1x64 : S19660x64.ShapeCasts S19660x1x64
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  shapeCasts_S1048576x1x1_S4x512x512 : S1048576x1x1.ShapeCasts S4x512x512
  shapeCasts_S1048576x1x64_S4x262144x64 : S1048576x1x64.ShapeCasts S4x262144x64
  transposes_S4x262144x64_S4x64x262144_0_2_1 : S4x262144x64.Transposes [0, 2, 1] S4x64x262144
  shapeCasts_S4x64x262144_S4x64x512x512 : S4x64x262144.ShapeCasts S4x64x512x512
  gather_S65536_S19660x1_S19660_n_0_n_n_0_1_1_wf : GatherDims.WF S65536 S19660x1 S19660 [] [0] [] [0] [] 1 ![1]
  gather_S65536x64_S19660x1_S19660x64_1_0_n_n_0_1_164_wf : GatherDims.WF S65536x64 S19660x1 S19660x64 [1] [0] [] [0] [] 1 ![1, 64]
  hrank0 : 0 < grid0.rank
  k0_off1_inb : ∀ i : grid0.Coords, ∀ a, (k0_off1 i) a + S1.size a ≤ S65536.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1.size a ≤ S65536x1x1.size a
  hwx0_0 : ∀ i : grid0.Coords, EltTy.bits .f32 = 32 ∨ (Rect.block (s := S65536x1x1) S1x1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S65536x1x1.size a
  hwx0_1 : ∀ i : grid0.Coords, EltTy.bits .i32 = 32 ∨ (Rect.block (s := S65536x1x1) S1x1x1.size (cc0_transform_1 i) (hinb0_1 i)).WholeWords (EltTy.packing .i32)
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_5 k0_off1_inb numel1_S1 pf i = cc0_transform_5 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_6 k0_off1_inb numel1_S1 pf i = cc0_transform_6 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_7 k0_off1_inb numel1_S1 pf i = cc0_transform_7 k0_off1_inb numel1_S1 pf i'
  hrank1 : 0 < grid1.rank
  k1_off1_inb : ∀ i : grid1.Coords, ∀ a, (k1_off1 i) a + S1.size a ≤ S19660.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x64.size a ≤ S19660x1x64.size a
  hwx1_0 : ∀ i : grid1.Coords, EltTy.bits .f32 = 32 ∨ (Rect.block (s := S19660x1x64) S1x1x64.size (cc1_transform_0 i) (hinb1_0 i)).WholeWords (EltTy.packing .f32)
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_2 k1_off1_inb numel1_S1 pf i = cc1_transform_2 k1_off1_inb numel1_S1 pf i'

variable [Facts₀]

def gather_S65536_S19660x1_S19660_n_0_n_n_0_1_1 : GatherDims S65536 S19660x1 S19660 where
  offsetDims := []
  collapsedSliceDims := [0]
  operandBatchingDims := []
  startIndicesBatchingDims := []
  startIndexMap := [0]
  indexVectorDim := 1
  sliceSizes := ![1]
  wf := gather_S65536_S19660x1_S19660_n_0_n_n_0_1_1_wf
def gather_S65536x64_S19660x1_S19660x64_1_0_n_n_0_1_164 : GatherDims S65536x64 S19660x1 S19660x64 where
  offsetDims := [1]
  collapsedSliceDims := [0]
  operandBatchingDims := []
  startIndicesBatchingDims := []
  startIndexMap := [0]
  indexVectorDim := 1
  sliceSizes := ![1, 64]
  wf := gather_S65536x64_S19660x1_S19660x64_1_0_n_n_0_1_164_wf

abbrev spec0_0 : Pipeline.WinSpec sig grid0.rank :=
  Pipeline.WinSpec.ofSpec (Memref.whole main_v35) S1x1x1.size reads0_0 false false 2 stage0_0 sem0_0 nbuf0_0 hstage0_0

abbrev spec0_1 : Pipeline.WinSpec sig grid0.rank :=
  Pipeline.WinSpec.ofSpec (Memref.whole main_v36) S1x1x1.size reads0_1 false false 2 stage0_1 sem0_1 nbuf0_1 hstage0_1

abbrev spec0_2 : Pipeline.WinSpec sig grid0.rank :=
  Pipeline.WinSpec.ofSpec (Memref.whole main_v37_0) S1x1x1.size reads0_2 true false 2 stage0_2 sem0_2 nbuf0_2 hstage0_2

abbrev spec0_3 : Pipeline.WinSpec sig grid0.rank :=
  Pipeline.WinSpec.ofSpec (Memref.whole main_v37_1) S1x1x1.size reads0_3 true false 2 stage0_3 sem0_3 nbuf0_3 hstage0_3

abbrev spec0_4 : Pipeline.WinSpec sig grid0.rank :=
  Pipeline.WinSpec.ofSpec (Memref.whole main_v37_2) S1x1x1.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_5 k0_off1_inb numel1_S1 pf | 3 => cc0_transform_6 k0_off1_inb numel1_S1 pf | 4 => cc0_transform_7 k0_off1_inb numel1_S1 pf | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 pf | 3 => hreads0_3 pf | 4 => hreads0_4 pf | ⟨_ + 5, h⟩ => absurd h (Nat.not_lt.2 (Nat.le_add_left _ _))
def ok0 (pf : pre0.Contents (Elt F)) : Prop :=
  (∀ i : grid0.Coords, ∃ h : (∀ a, (cc0_transform_5 k0_off1_inb numel1_S1 pf i a + 1) * S1x1x1.size a ≤ S1048576x1x1.size a), EltTy.bits .f32 = 32 ∨ (Rect.block (s := S1048576x1x1) S1x1x1.size (cc0_transform_5 k0_off1_inb numel1_S1 pf i) h).WholeWords (EltTy.packing .f32)) ∧
  (∀ i : grid0.Coords, ∃ h : (∀ a, (cc0_transform_6 k0_off1_inb numel1_S1 pf i a + 1) * S1x1x1.size a ≤ S1048576x1x1.size a), EltTy.bits .f32 = 32 ∨ (Rect.block (s := S1048576x1x1) S1x1x1.size (cc0_transform_6 k0_off1_inb numel1_S1 pf i) h).WholeWords (EltTy.packing .f32)) ∧
  (∀ i : grid0.Coords, ∃ h : (∀ a, (cc0_transform_7 k0_off1_inb numel1_S1 pf i a + 1) * S1x1x1.size a ≤ S1048576x1x1.size a), EltTy.bits .i32 = 32 ∨ (Rect.block (s := S1048576x1x1) S1x1x1.size (cc0_transform_7 k0_off1_inb numel1_S1 pf i) h).WholeWords (EltTy.packing .i32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => fun i a => (hok.1 i).elim fun h _ => h a | 3 => fun i a => (hok.2.1 i).elim fun h _ => h a | 4 => fun i a => (hok.2.2 i).elim fun h _ => h a | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => fun i => (hok.1 i).elim fun _ h => h | 3 => fun i => (hok.2.1 i).elim fun _ h => h | 4 => fun i => (hok.2.2 i).elim fun _ h => h | ⟨_ + 5, h⟩ => absurd h (Nat.not_lt.2 (Nat.le_add_left _ _))
abbrev spec1_0 : Pipeline.WinSpec sig grid1.rank :=
  Pipeline.WinSpec.ofSpec (Memref.whole main_v39) S1x1x64.size reads1_0 false false 2 stage1_0 sem1_0 nbuf1_0 hstage1_0

abbrev spec1_1 : Pipeline.WinSpec sig grid1.rank :=
  Pipeline.WinSpec.ofSpec (Memref.whole main_v40) S1x1x64.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_0 | 1 => cc1_transform_2 k1_off1_inb numel1_S1 pf | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 pf | ⟨_ + 2, h⟩ => absurd h (Nat.not_lt.2 (Nat.le_add_left _ _))
def ok1 (pf : pre1.Contents (Elt F)) : Prop :=
  (∀ i : grid1.Coords, ∃ h : (∀ a, (cc1_transform_2 k1_off1_inb numel1_S1 pf i a + 1) * S1x1x64.size a ≤ S1048576x1x64.size a), EltTy.bits .f32 = 32 ∨ (Rect.block (s := S1048576x1x64) S1x1x64.size (cc1_transform_2 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => hinb1_0 | 1 => fun i a => (hok i).elim fun h _ => h a | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => hwx1_0 | 1 => fun i => (hok i).elim fun _ h => h | ⟨_ + 2, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S65536x64 : Shape := ⟨2, ![65536, 64]⟩
abbrev S65536x4 : Shape := ⟨2, ![65536, 4]⟩
abbrev S65536 : Shape := ⟨1, ![65536]⟩
abbrev S19660 : Shape := ⟨1, ![19660]⟩
abbrev S65536x1 : Shape := ⟨2, ![65536, 1]⟩
abbrev S_ : Shape := ⟨0, ![]⟩
abbrev S1048576 : Shape := ⟨1, ![1048576]⟩
abbrev S4x512x512 : Shape := ⟨3, ![4, 512, 512]⟩
abbrev S19660x1 : Shape := ⟨2, ![19660, 1]⟩
abbrev S19660x64 : Shape := ⟨2, ![19660, 64]⟩
abbrev S1048576x64 : Shape := ⟨2, ![1048576, 64]⟩
abbrev S4x262144x64 : Shape := ⟨3, ![4, 262144, 64]⟩
abbrev S4x64x262144 : Shape := ⟨3, ![4, 64, 262144]⟩
abbrev S4x64x512x512 : Shape := ⟨4, ![4, 64, 512, 512]⟩

abbrev nBuf : Space → Nat
  | .hbm => 95
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S65536x4, .i32⟩
  | .hbm, ⟨2, _⟩ => ⟨S65536, .i32⟩
  | .hbm, ⟨3, _⟩ => ⟨S19660, .i32⟩
  | .hbm, ⟨4, _⟩ => ⟨S65536x1, .i32⟩
  | .hbm, ⟨5, _⟩ => ⟨S65536, .i32⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536x1, .i32⟩
  | .hbm, ⟨10, _⟩ => ⟨S65536, .i32⟩
  | .hbm, ⟨11, _⟩ => ⟨S65536, .i32⟩
  | .hbm, ⟨12, _⟩ => ⟨S65536x1, .i32⟩
  | .hbm, ⟨13, _⟩ => ⟨S65536, .i32⟩
  | .hbm, ⟨14, _⟩ => ⟨S_, .i32⟩
  | .hbm, ⟨15, _⟩ => ⟨S65536, .i32⟩
  | .hbm, ⟨16, _⟩ => ⟨S65536, .i32⟩
  | .hbm, ⟨17, _⟩ => ⟨S65536, .i32⟩
  | .hbm, ⟨18, _⟩ => ⟨S65536x1, .i32⟩
  | .hbm, ⟨19, _⟩ => ⟨S65536, .i32⟩
  | .hbm, ⟨20, _⟩ => ⟨S65536, .i32⟩
  | .hbm, ⟨21, _⟩ => ⟨S_, .f32⟩
  | .hbm, ⟨22, _⟩ => ⟨S1048576, .f32⟩
  | .hbm, ⟨23, _⟩ => ⟨S_, .i32⟩
  | .hbm, ⟨24, _⟩ => ⟨S65536, .i32⟩
  | .hbm, ⟨25, _⟩ => ⟨S65536, .i1⟩
  | .hbm, ⟨26, _⟩ => ⟨S_, .i32⟩
  | .hbm, ⟨27, _⟩ => ⟨S65536, .i32⟩
  | .hbm, ⟨28, _⟩ => ⟨S65536, .i32⟩
  | .hbm, ⟨29, _⟩ => ⟨S65536, .i32⟩
  | .hbm, ⟨30, _⟩ => ⟨S65536x1, .i32⟩
  | .hbm, ⟨31, _⟩ => ⟨S_, .f32⟩
  | .hbm, ⟨32, _⟩ => ⟨S65536, .f32⟩
  | .hbm, ⟨33, _⟩ => ⟨S1048576, .f32⟩
  | .hbm, ⟨34, _⟩ => ⟨S4x512x512, .f32⟩
  | .hbm, ⟨35, _⟩ => ⟨S_, .i32⟩
  | .hbm, ⟨36, _⟩ => ⟨S1048576, .i32⟩
  | .hbm, ⟨37, _⟩ => ⟨S_, .i32⟩
  | .hbm, ⟨38, _⟩ => ⟨S65536, .i32⟩
  | .hbm, ⟨39, _⟩ => ⟨S65536, .i1⟩
  | .hbm, ⟨40, _⟩ => ⟨S_, .i32⟩
  | .hbm, ⟨41, _⟩ => ⟨S65536, .i32⟩
  | .hbm, ⟨42, _⟩ => ⟨S65536, .i32⟩
  | .hbm, ⟨43, _⟩ => ⟨S65536, .i32⟩
  | .hbm, ⟨44, _⟩ => ⟨S65536x1, .i32⟩
  | .hbm, ⟨45, _⟩ => ⟨S1048576, .i32⟩
  | .hbm, ⟨46, _⟩ => ⟨S4x512x512, .i32⟩
  | .hbm, ⟨47, _⟩ => ⟨S_, .f32⟩
  | .hbm, ⟨48, _⟩ => ⟨S1048576, .f32⟩
  | .hbm, ⟨49, _⟩ => ⟨S65536, .f32⟩
  | .hbm, ⟨50, _⟩ => ⟨S_, .f32⟩
  | .hbm, ⟨51, _⟩ => ⟨S65536, .f32⟩
  | .hbm, ⟨52, _⟩ => ⟨S65536, .f32⟩
  | .hbm, ⟨53, _⟩ => ⟨S_, .i32⟩
  | .hbm, ⟨54, _⟩ => ⟨S65536, .i32⟩
  | .hbm, ⟨55, _⟩ => ⟨S65536, .i1⟩
  | .hbm, ⟨56, _⟩ => ⟨S_, .i32⟩
  | .hbm, ⟨57, _⟩ => ⟨S65536, .i32⟩
  | .hbm, ⟨58, _⟩ => ⟨S65536, .i32⟩
  | .hbm, ⟨59, _⟩ => ⟨S65536, .i32⟩
  | .hbm, ⟨60, _⟩ => ⟨S65536x1, .i32⟩
  | .hbm, ⟨61, _⟩ => ⟨S1048576, .f32⟩
  | .hbm, ⟨62, _⟩ => ⟨S4x512x512, .f32⟩
  | .hbm, ⟨63, _⟩ => ⟨S_, .i32⟩
  | .hbm, ⟨64, _⟩ => ⟨S19660, .i32⟩
  | .hbm, ⟨65, _⟩ => ⟨S19660, .i1⟩
  | .hbm, ⟨66, _⟩ => ⟨S_, .i32⟩
  | .hbm, ⟨67, _⟩ => ⟨S19660, .i32⟩
  | .hbm, ⟨68, _⟩ => ⟨S19660, .i32⟩
  | .hbm, ⟨69, _⟩ => ⟨S19660, .i32⟩
  | .hbm, ⟨70, _⟩ => ⟨S19660x1, .i32⟩
  | .hbm, ⟨71, _⟩ => ⟨S19660, .i32⟩
  | .hbm, ⟨72, _⟩ => ⟨S_, .i32⟩
  | .hbm, ⟨73, _⟩ => ⟨S19660, .i32⟩
  | .hbm, ⟨74, _⟩ => ⟨S19660, .i1⟩
  | .hbm, ⟨75, _⟩ => ⟨S_, .i32⟩
  | .hbm, ⟨76, _⟩ => ⟨S19660, .i32⟩
  | .hbm, ⟨77, _⟩ => ⟨S19660, .i32⟩
  | .hbm, ⟨78, _⟩ => ⟨S19660, .i32⟩
  | .hbm, ⟨79, _⟩ => ⟨S19660x1, .i32⟩
  | .hbm, ⟨80, _⟩ => ⟨S19660x64, .f32⟩
  | .hbm, ⟨81, _⟩ => ⟨S_, .f32⟩
  | .hbm, ⟨82, _⟩ => ⟨S1048576x64, .f32⟩
  | .hbm, ⟨83, _⟩ => ⟨S_, .i32⟩
  | .hbm, ⟨84, _⟩ => ⟨S19660, .i32⟩
  | .hbm, ⟨85, _⟩ => ⟨S19660, .i1⟩
  | .hbm, ⟨86, _⟩ => ⟨S_, .i32⟩
  | .hbm, ⟨87, _⟩ => ⟨S19660, .i32⟩
  | .hbm, ⟨88, _⟩ => ⟨S19660, .i32⟩
  | .hbm, ⟨89, _⟩ => ⟨S19660, .i32⟩
  | .hbm, ⟨90, _⟩ => ⟨S19660x1, .i32⟩
  | .hbm, ⟨91, _⟩ => ⟨S1048576x64, .f32⟩
  | .hbm, ⟨92, _⟩ => ⟨S4x262144x64, .f32⟩
  | .hbm, ⟨93, _⟩ => ⟨S4x64x262144, .f32⟩
  | .hbm, ⟨94, _⟩ => ⟨S4x64x512x512, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_c_9 : Ref sig .tc := ⟨.hbm, 53, rfl⟩
abbrev main_v38 : Ref sig .tc := ⟨.hbm, 54, rfl⟩
abbrev main_v39 : Ref sig .tc := ⟨.hbm, 55, rfl⟩
abbrev main_c_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_c_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_13 : Ref sig .tc := ⟨.hbm, 72, rfl⟩
abbrev main_v53 : Ref sig .tc := ⟨.hbm, 73, rfl⟩
abbrev main_v54 : Ref sig .tc := ⟨.hbm, 74, rfl⟩
abbrev main_c_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_15 : Ref sig .tc := ⟨.hbm, 81, rfl⟩
abbrev main_v60 : Ref sig .tc := ⟨.hbm, 82, rfl⟩
abbrev main_c_16 : Ref sig .tc := ⟨.hbm, 83, rfl⟩
abbrev main_v61 : Ref sig .tc := ⟨.hbm, 84, rfl⟩
abbrev main_v62 : Ref sig .tc := ⟨.hbm, 85, rfl⟩
abbrev main_c_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]

class Facts₀ : Prop where
  slices_S65536x4_S65536x1_0_0 : S65536x4.Slices ![0, 0] S65536x1
  shapeCasts_S65536x1_S65536 : S65536x1.ShapeCasts S65536
  bcast_S_S65536 : S_.BroadcastsInDim S65536 (![] : Fin 0 → Fin S65536.rank)
  slices_S65536x4_S65536x1_0_1 : S65536x4.Slices ![0, 1] S65536x1
  slices_S65536x4_S65536x1_0_2 : S65536x4.Slices ![0, 2] S65536x1
  slices_S65536x4_S65536x1_0_3 : S65536x4.Slices ![0, 3] S65536x1
  bcast_S_S1048576 : S_.BroadcastsInDim S1048576 (![] : Fin 0 → Fin S1048576.rank)
  bcast_S65536_S65536x1_0 : S65536.BroadcastsInDim S65536x1 (![0] : Fin 1 → Fin S65536x1.rank)
  shapeCasts_S1048576_S4x512x512 : S1048576.ShapeCasts S4x512x512
  bcast_S_S19660 : S_.BroadcastsInDim S19660 (![] : Fin 0 → Fin S19660.rank)
  bcast_S19660_S19660x1_0 : S19660.BroadcastsInDim S19660x1 (![0] : Fin 1 → Fin S19660x1.rank)
  bcast_S_S1048576x64 : S_.BroadcastsInDim S1048576x64 (![] : Fin 0 → Fin S1048576x64.rank)
  shapeCasts_S1048576x64_S4x262144x64 : S1048576x64.ShapeCasts S4x262144x64
  transposes_S4x262144x64_S4x64x262144_0_2_1 : S4x262144x64.Transposes [0, 2, 1] S4x64x262144
  shapeCasts_S4x64x262144_S4x64x512x512 : S4x64x262144.ShapeCasts S4x64x512x512
  scatter_S1048576_S65536x1_S65536_n_0_0_1_wf : ScatterDims.WF S1048576 S65536x1 S65536 [] [0] [0] 1
  gather_S65536_S19660x1_S19660_n_0_n_n_0_1_1_wf : GatherDims.WF S65536 S19660x1 S19660 [] [0] [] [0] [] 1 ![1]
  gather_S65536x64_S19660x1_S19660x64_1_0_n_n_0_1_164_wf : GatherDims.WF S65536x64 S19660x1 S19660x64 [1] [0] [] [0] [] 1 ![1, 64]
  scatter_S1048576x64_S19660x1_S19660x64_1_0_0_1_wf : ScatterDims.WF S1048576x64 S19660x1 S19660x64 [1] [0] [0] 1

variable [Facts₀]

def scatter_S1048576_S65536x1_S65536_n_0_0_1 : ScatterDims S1048576 S65536x1 S65536 where
  updateWindowDims := []
  insertedWindowDims := [0]
  scatterDimsToOperandDims := [0]
  indexVectorDim := 1
  wf := scatter_S1048576_S65536x1_S65536_n_0_0_1_wf
def gather_S65536_S19660x1_S19660_n_0_n_n_0_1_1 : GatherDims S65536 S19660x1 S19660 where
  offsetDims := []
  collapsedSliceDims := [0]
  operandBatchingDims := []
  startIndicesBatchingDims := []
  startIndexMap := [0]
  indexVectorDim := 1
  sliceSizes := ![1]
  wf := gather_S65536_S19660x1_S19660_n_0_n_n_0_1_1_wf
def gather_S65536x64_S19660x1_S19660x64_1_0_n_n_0_1_164 : GatherDims S65536x64 S19660x1 S19660x64 where
  offsetDims := [1]
  collapsedSliceDims := [0]
  operandBatchingDims := []
  startIndicesBatchingDims := []
  startIndexMap := [0]
  indexVectorDim := 1
  sliceSizes := ![1, 64]
  wf := gather_S65536x64_S19660x1_S19660x64_1_0_n_n_0_1_164_wf
def scatter_S1048576x64_S19660x1_S19660x64_1_0_0_1 : ScatterDims S1048576x64 S19660x1 S19660x64 where
  updateWindowDims := [1]
  insertedWindowDims := [0]
  scatterDimsToOperandDims := [0]
  indexVectorDim := 1
  wf := scatter_S1048576x64_S19660x1_S19660x64_1_0_0_1_wf

class Facts : Prop extends Facts₀ where

variable [Facts]
-- ==== Proof.Scatter0.lean ====
/-
  The first scatter call, one grid point at a time. At point t the call reads one density value and one point count
  (the t-th entries of two length-65536 arrays, each staged as a 1×1×1 block) and leaves three 1×1×1 blocks to be
  written back at row flat[t] of three zero-filled arrays of 1048576 rows: the constant 1, the density value, and the
  point count. Nothing else is read or written; the table of row numbers is only read by the block index maps.
  Everything here is stated for ARBITRARY admissible contents `a` of the table and an arbitrary valuation `V` of the
  buffers at the call's entry.
-/
import proofs.«414779_j32066225832083_1_alg».proof.Proof.Gen.KernelIdeal.Launch
import proofs.«414779_j32066225832083_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scatter0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (a : (pcfg0 (F := F)).Adm)
variable (V : (c : Dev nD) → (b : Ref sig .tc) → Buf (Elt F) ((c : Thread nD τ).loc b))

/-- Window `w`'s block at point `t`, read off its array as the call finds it. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The one rectangle the body loads and stores through: the whole 1×1×1 block. -/
abbrev r1 : Rect S1x1x1 := Rect.unit (s := S1x1x1) ![0, 0, 0] S1x1x1.size inb_S1x1x1_S1x1x1_0_0_0

/-- The occupancy block after the body: the constant one. -/
def outOcc : Vec F S1x1x1 .f32 := View.canon [⟨r1, k0_pay1 (F := F)⟩]
/-- The density block after the body: the staged density value. -/
def outDen (x0 : Vec F S1x1x1 .f32) : Vec F S1x1x1 .f32 := View.canon [⟨r1, k0_pay2 (View.ld x0 r1)⟩]
/-- The point-count block after the body: the staged count. -/
def outPts (x1 : Vec F S1x1x1 .i32) : Vec F S1x1x1 .i32 := View.canon [⟨r1, k0_pay3 (F := F) (View.ld x1 r1)⟩]

/-- A single store through the whole block covers it. -/
theorem cover1 {e : EltTy} (p0 : Vec F S1x1x1 e) (y : S1x1x1.Idx) :
    ∃ pc ∈ ([⟨r1, p0⟩] : List (View.Piece (Elt F) S1x1x1 e)), y ∈ pc.1.set :=
  View.cover_of_tiled [⟨r1, p0⟩] S1x1x1.size (by rfl) y

set_option maxHeartbeats 1000000 in
/-- The body on whole staging buffers: the two inputs keep their contents, the three outputs end at `outOcc`,
    `outDen` of the density input and `outPts` of the count input; the table and the three zero arrays left in
    place are not touched. -/
theorem sound_kernel (c : Dev nD) (E : Set ℕ) (i : grid0.Coords)
    (arg1 : Memref sig .tc .smem S65536 .i32) (harg1 : arg1.IsWhole)
    (arg2 : Memref sig .tc .vmem S1x1x1 .f32) (harg2 : arg2.IsWhole) (arg3 : Memref sig .tc .vmem S1x1x1 .i32) (harg3 : arg3.IsWhole)
    (arg4 : Memref sig .tc .hbm S1048576x1x1 .f32) (harg4 : arg4.IsWhole) (arg5 : Memref sig .tc .hbm S1048576x1x1 .f32) (harg5 : arg5.IsWhole)
    (arg6 : Memref sig .tc .hbm S1048576x1x1 .i32) (harg6 : arg6.IsWhole)
    (arg7 : Memref sig .tc .vmem S1x1x1 .f32) (harg7 : arg7.IsWhole) (arg8 : Memref sig .tc .vmem S1x1x1 .f32) (harg8 : arg8.IsWhole)
    (arg9 : Memref sig .tc .vmem S1x1x1 .i32) (harg9 : arg9.IsWhole)
    (x0 : Vec F S1x1x1 .f32) (x1 : Vec F S1x1x1 .i32) (K : PUnit → sProp 𝕄) :
    iprop(owns (c : Thread nD τ) arg2 fullShare x0 ∗ owns (c : Thread nD τ) arg3 fullShare x1
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
            ∗ owns (c : Thread nD τ) arg7 fullShare (outOcc (F := F)) ∗ owns (c : Thread nD τ) arg8 fullShare (outDen x0)
            ∗ owns (c : Thread nD τ) arg9 fullShare (outPts x1)) -∗ K ⟨⟩))
      ⊢ wp frame (wpE (defs₀ (F := F)) Variants.none c none) E
          (cc0__meta_scatter_kernel i arg1 harg1 arg2 harg2 arg3 harg3 arg4 harg4 arg5 harg5 arg6 harg6 arg7 harg7 arg8 harg8 arg9 harg9) K := by
  simp only [cc0__meta_scatter_kernel_eq_skeleton]; unfold cc0__meta_scatter_kernel_skel
  unfold owns
  iintro ⟨⟨%f0, %hf0, H0⟩, ⟨%f1, %hf1, H1⟩, ⟨%d7, %f7, -, H7⟩, ⟨%d8, %f8, -, H8⟩, ⟨%d9, %f9, -, H9⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H7]
  · iexists _; isplitr
    swap; · iexact H7
    ipureintro
    exact View.read_writes_eq_canon _ _ _ (cover1 _)
  isplitl [H8]
  · iexists _; isplitr
    swap; · iexact H8
    ipureintro
    exact View.read_writes_eq_canon _ _ _ (cover1 _)
  · iexists _; isplitr
    swap; · iexact H9
    ipureintro
    exact View.read_writes_eq_canon _ _ _ (cover1 _)

/-! ## The proof data -/

/-- The call's proof data on core `c`: the five windowed arrays as the call finds them; after the body at point `t`
    the two inputs' buffers at their blocks and the three outputs' at the constant one, the density block and the
    count block; the invariant carries the scratch the call does not use, the generator register and the whole
    table (the body never reads it); nothing owed; full shares. -/
def dat (c : Dev nD) : Dat τ (Elt F) Unit ℕ (UR sig nD τ) ℕ (cfg0 a) c where
  A w := V c (Pipeline.arrRef spec0 w)
  after w t := match w with
    | ⟨0, _⟩ => iblk a V c 0 t
    | ⟨1, _⟩ => iblk a V c 1 t
    | ⟨2, _⟩ => outOcc (F := F)
    | ⟨3, _⟩ => outDen (iblk a V c 0 t)
    | ⟨4, _⟩ => outPts (iblk a V c 1 t)
  Φ _ := iprop(Pipeline.ΦA spec0 c ∗ Pipeline.prefHeld (Ix := Unit) (Name := ℕ) (U := UR sig nD τ) (Lvl := ℕ) pre0 c (fun _ => fullShare) a.1)
  q _ := fullShare
  owed _ := 0

theorem A_eq (c : Dev nD) (w : Fin (cfg0 a).W) : (dat a V c).A w = V c (Pipeline.arrRef spec0 w) := by
  dsimp only [dat]

theorem after_0 (c : Dev nD) (t : Fin (cfg0 a).N) : (dat a V c).after 0 t = iblk a V c 0 t := by dsimp only [dat]; rfl
theorem after_1 (c : Dev nD) (t : Fin (cfg0 a).N) : (dat a V c).after 1 t = iblk a V c 1 t := by dsimp only [dat]; rfl
theorem after_2 (c : Dev nD) (t : Fin (cfg0 a).N) : (dat a V c).after 2 t = outOcc (F := F) := by dsimp only [dat]; rfl
theorem after_3 (c : Dev nD) (t : Fin (cfg0 a).N) : (dat a V c).after 3 t = outDen (iblk a V c 0 t) := by dsimp only [dat]; rfl
theorem after_4 (c : Dev nD) (t : Fin (cfg0 a).N) : (dat a V c).after 4 t = outPts (iblk a V c 1 t) := by dsimp only [dat]; rfl

/-- The density input's current buffer holds its block at every point: the block index is the point itself, so the
    block is fetched afresh at every point. -/
theorem before_0 (c : Dev nD) (t : Fin (cfg0 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- The same for the point-count input. -/
theorem before_1 (c : Dev nD) (t : Fin (cfg0 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body obligation -/

/-- The current staging buffer of each window at point `t`. -/
abbrev st0 (t : Fin (cfg0 a).N) := spec0_0.stage ((cfg0 a).slots t 0)
abbrev st1 (t : Fin (cfg0 a).N) := spec0_1.stage ((cfg0 a).slots t 1)
abbrev st2 (t : Fin (cfg0 a).N) := spec0_2.stage ((cfg0 a).slots t 2)
abbrev st3 (t : Fin (cfg0 a).N) := spec0_3.stage ((cfg0 a).slots t 3)
abbrev st4 (t : Fin (cfg0 a).N) := spec0_4.stage ((cfg0 a).slots t 4)

/-- The body as the pipeline calls it at point `t`. -/
abbrev bodyAt (t : Fin (cfg0 a).N) : Prog (TpuEff nD τ sig (Elt F) Λ₀ .tc) PUnit :=
  cc0__meta_scatter_kernel (grid0.coords t) (Memref.whole main_v14) (Memref.isWhole_whole _)
    (st0 a t) (hstage0_0 (((cfg0 a).slots t 0).cast nbuf0_0)) (st1 a t) (hstage0_1 (((cfg0 a).slots t 1).cast nbuf0_1))
    (Memref.whole main_v32) (Memref.isWhole_whole _) (Memref.whole main_v33) (Memref.isWhole_whole _) (Memref.whole main_v34) (Memref.isWhole_whole _)
    (st2 a t) (hstage0_2 (((cfg0 a).slots t 2).cast nbuf0_2)) (st3 a t) (hstage0_3 (((cfg0 a).slots t 3).cast nbuf0_3))
    (st4 a t) (hstage0_4 (((cfg0 a).slots t 4).cast nbuf0_4))

def bodyPre (c : Dev nD) (t : Fin (cfg0 a).N) : sProp 𝕄 :=
  iprop((dat a V c).Φ t.castSucc ∗ (dat a V c).owesAt () t.castSucc
    ∗ (∃ d, owns (c : Thread nD τ) (st0 a t) fullShare ((dat a V c).before 0 t d))
    ∗ (∃ d, owns (c : Thread nD τ) (st1 a t) fullShare ((dat a V c).before 1 t d))
    ∗ (∃ d, owns (c : Thread nD τ) (st2 a t) fullShare ((dat a V c).before 2 t d))
    ∗ (∃ d, owns (c : Thread nD τ) (st3 a t) fullShare ((dat a V c).before 3 t d))
    ∗ (∃ d, owns (c : Thread nD τ) (st4 a t) fullShare ((dat a V c).before 4 t d)))

def bodyPost (c : Dev nD) (t : Fin (cfg0 a).N) : sProp 𝕄 :=
  iprop((dat a V c).Φ t.succ ∗ (dat a V c).owesAt () t.succ
    ∗ owns (c : Thread nD τ) (st0 a t) fullShare ((dat a V c).after 0 t)
    ∗ owns (c : Thread nD τ) (st1 a t) fullShare ((dat a V c).after 1 t)
    ∗ owns (c : Thread nD τ) (st2 a t) fullShare ((dat a V c).after 2 t)
    ∗ owns (c : Thread nD τ) (st3 a t) fullShare ((dat a V c).after 3 t)
    ∗ owns (c : Thread nD τ) (st4 a t) fullShare ((dat a V c).after 4 t))

/-- The body at any point: the inputs' buffers hold their blocks, so the body's triple applies; the invariant and the
    core's dues pass through unread. -/
theorem sound_body (c : Dev nD) (t : Fin (cfg0 a).N) :
    bodyPre a V c t ⊢ wp frame (wpE (defs₀ (F := F)) Variants.none c none) Set.univ (bodyAt a t) (fun _ => bodyPost a V c t) := by
  unfold bodyPre bodyPost bodyAt
  simp only [before_0, before_1]
  rw [show (dat a V c).Φ t.succ = (dat a V c).Φ t.castSucc from rfl,
    show (dat a V c).owesAt () t.succ = (dat a V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ _ _ _ _ _ _ _ _ (iblk a V c 0 t) (iblk a V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) a V c) (defs₀ (F := F)) Variants.none () Set.univ := fun t => by
  rw [bigSep_W0, bigSep_W0]
  exact sound_body a V c t

end

end Cert.KernelIdeal.Scatter0

end
-- ==== Proof.Scatter1.lean ====
/-
  The second scatter call, one grid point at a time. At point t the call reads one row of 64 features (row t of a
  19660×1×64 array, staged as a 1×1×64 block) and leaves that same row to be written back at row sel[t] of a
  zero-filled array of 1048576 rows. The table of row numbers is only read by the output's block index map.
  Everything here is stated for ARBITRARY admissible contents `a` of the table and an arbitrary valuation `V` of the
  buffers at the call's entry.
-/
import proofs.«414779_j32066225832083_1_alg».proof.Proof.Gen.KernelIdeal.Launch
import proofs.«414779_j32066225832083_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scatter1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (a : (pcfg1 (F := F)).Adm)
variable (V : (c : Dev nD) → (b : Ref sig .tc) → Buf (Elt F) ((c : Thread nD τ).loc b))

/-- Window `w`'s block at point `t`, read off its array as the call finds it. -/
def iblk (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The one rectangle the body loads and stores through: the whole 1×1×64 block. -/
abbrev r64 : Rect S1x1x64 := Rect.unit (s := S1x1x64) ![0, 0, 0] S1x1x64.size inb_S1x1x64_S1x1x64_0_0_0

/-- The output block after the body: the staged feature row. -/
def outRow (x0 : Vec F S1x1x64 .f32) : Vec F S1x1x64 .f32 := View.canon [⟨r64, k1_pay1 (View.ld x0 r64)⟩]

/-- A single store through the whole block covers it. -/
theorem cover64 (p0 : Vec F S1x1x64 .f32) (y : S1x1x64.Idx) :
    ∃ pc ∈ ([⟨r64, p0⟩] : List (View.Piece (Elt F) S1x1x64 .f32)), y ∈ pc.1.set :=
  View.cover_of_tiled [⟨r64, p0⟩] S1x1x64.size (by rfl) y

set_option maxHeartbeats 1000000 in
/-- The body on whole staging buffers: the input keeps its contents, the output ends at `outRow` of the input; the
    table and the zero array left in place are not touched. -/
theorem sound_kernel (c : Dev nD) (E : Set ℕ) (i : grid1.Coords)
    (arg1 : Memref sig .tc .smem S19660 .i32) (harg1 : arg1.IsWhole)
    (arg2 : Memref sig .tc .vmem S1x1x64 .f32) (harg2 : arg2.IsWhole)
    (arg3 : Memref sig .tc .hbm S1048576x1x64 .f32) (harg3 : arg3.IsWhole)
    (arg4 : Memref sig .tc .vmem S1x1x64 .f32) (harg4 : arg4.IsWhole)
    (x0 : Vec F S1x1x64 .f32) (K : PUnit → sProp 𝕄) :
    iprop(owns (c : Thread nD τ) arg2 fullShare x0 ∗ (∃ d, owns (c : Thread nD τ) arg4 fullShare d)
        ∗ (iprop(owns (c : Thread nD τ) arg2 fullShare x0 ∗ owns (c : Thread nD τ) arg4 fullShare (outRow x0)) -∗ K ⟨⟩))
      ⊢ wp frame (wpE (defs₀ (F := F)) Variants.none c none) E
          (cc1__feature_scatter_kernel i arg1 harg1 arg2 harg2 arg3 harg3 arg4 harg4) K := by
  simp only [cc1__feature_scatter_kernel_eq_skeleton]; unfold cc1__feature_scatter_kernel_skel
  unfold owns
  iintro ⟨⟨%f0, %hf0, H0⟩, ⟨%d4, %f4, -, H4⟩, Hk⟩
  subst hf0
  sl_exec
  sl_step
  iapply Hk
  isplitl [H0]
  · iexists f0; isplitr; · ipureintro; rfl
    iexact H0
  · iexists _; isplitr
    swap; · iexact H4
    ipureintro
    exact View.read_writes_eq_canon _ _ _ (cover64 _)

/-! ## The proof data -/

/-- The call's proof data on core `c`: the two windowed arrays as the call finds them; after the body at point `t`
    the input's buffer at its block and the output's at that same row; the invariant carries the scratch the call
    does not use, the generator register and the whole table; nothing owed; full shares. -/
def dat (c : Dev nD) : Dat τ (Elt F) Unit ℕ (UR sig nD τ) ℕ (cfg1 a) c where
  A w := V c (Pipeline.arrRef spec1 w)
  after w t := match w with
    | ⟨0, _⟩ => iblk a V c 0 t
    | ⟨1, _⟩ => outRow (iblk a V c 0 t)
  Φ _ := iprop(Pipeline.ΦA spec1 c ∗ Pipeline.prefHeld (Ix := Unit) (Name := ℕ) (U := UR sig nD τ) (Lvl := ℕ) pre1 c (fun _ => fullShare) a.1)
  q _ := fullShare
  owed _ := 0

theorem A_eq (c : Dev nD) (w : Fin (cfg1 a).W) : (dat a V c).A w = V c (Pipeline.arrRef spec1 w) := by
  dsimp only [dat]

theorem after_0 (c : Dev nD) (t : Fin (cfg1 a).N) : (dat a V c).after 0 t = iblk a V c 0 t := by dsimp only [dat]; rfl
theorem after_1 (c : Dev nD) (t : Fin (cfg1 a).N) : (dat a V c).after 1 t = outRow (iblk a V c 0 t) := by dsimp only [dat]; rfl

/-- The input's current buffer holds its block at every point: the block index is the point itself. -/
theorem before_0 (c : Dev nD) (t : Fin (cfg1 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-! ## The body obligation -/

abbrev st0 (t : Fin (cfg1 a).N) := spec1_0.stage ((cfg1 a).slots t 0)
abbrev st1 (t : Fin (cfg1 a).N) := spec1_1.stage ((cfg1 a).slots t 1)

/-- The body as the pipeline calls it at point `t`. -/
abbrev bodyAt (t : Fin (cfg1 a).N) : Prog (TpuEff nD τ sig (Elt F) Λ₀ .tc) PUnit :=
  cc1__feature_scatter_kernel (grid1.coords t) (Memref.whole main_v21) (Memref.isWhole_whole _)
    (st0 a t) (hstage1_0 (((cfg1 a).slots t 0).cast nbuf1_0))
    (Memref.whole main_v38) (Memref.isWhole_whole _)
    (st1 a t) (hstage1_1 (((cfg1 a).slots t 1).cast nbuf1_1))

def bodyPre (c : Dev nD) (t : Fin (cfg1 a).N) : sProp 𝕄 :=
  iprop((dat a V c).Φ t.castSucc ∗ (dat a V c).owesAt () t.castSucc
    ∗ (∃ d, owns (c : Thread nD τ) (st0 a t) fullShare ((dat a V c).before 0 t d))
    ∗ (∃ d, owns (c : Thread nD τ) (st1 a t) fullShare ((dat a V c).before 1 t d)))

def bodyPost (c : Dev nD) (t : Fin (cfg1 a).N) : sProp 𝕄 :=
  iprop((dat a V c).Φ t.succ ∗ (dat a V c).owesAt () t.succ
    ∗ owns (c : Thread nD τ) (st0 a t) fullShare ((dat a V c).after 0 t)
    ∗ owns (c : Thread nD τ) (st1 a t) fullShare ((dat a V c).after 1 t))

theorem sound_body (c : Dev nD) (t : Fin (cfg1 a).N) :
    bodyPre a V c t ⊢ wp frame (wpE (defs₀ (F := F)) Variants.none c none) Set.univ (bodyAt a t) (fun _ => bodyPost a V c t) := by
  unfold bodyPre bodyPost bodyAt
  simp only [before_0]
  rw [show (dat a V c).Φ t.succ = (dat a V c).Φ t.castSucc from rfl,
    show (dat a V c).owesAt () t.succ = (dat a V c).owesAt () t.castSucc from rfl,
    after_0, after_1]
  iintro ⟨HΦ, Ho, ⟨%d0, H0⟩, ⟨%d1, H1⟩⟩
  iapply (sound_kernel c Set.univ _ _ _ _ _ _ _ _ _ (iblk a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) a V c) (defs₀ (F := F)) Variants.none () Set.univ := fun t => by
  rw [bigSep_W1, bigSep_W1]
  exact sound_body a V c t

end

end Cert.KernelIdeal.Scatter1

end
-- ==== Proof.KRun.lean ====
/-
  The whole kernel program as a run. Its @main is: a stretch of host operations (the flat row numbers, the two
  gathers, the density values, three zero arrays), the first scatter call, a second stretch (one more zero array),
  the second scatter call, and a last stretch (reshapes and one transpose). The buffers' contents are followed through
  these five items as a fold from the launch memory; each scatter call changes only its output arrays, to what its
  write-backs leave. The run holds whenever the two tables of row numbers keep every table-indexed block inside its
  array (`Ok`); its post names the contents of EVERY buffer that outlives the calls.
-/
import proofs.«414779_j32066225832083_1_alg».proof.Proof.Scatter0
import proofs.«414779_j32066225832083_1_alg».proof.Proof.Scatter1
import proofs.«414779_j32066225832083_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents up to the first call, and the tables -/

/-- Core `c`'s buffers at launch. -/
abbrev W0 : Dev nD → Valuation τ sig (Elt F) := fun c b => m (c, b)
/-- After the first host stretch (the first call's entry). -/
abbrev W1 : Dev nD → Valuation τ sig (Elt F) := fun c => StableHlo.after hostOps0 (W0 m c)
/-- The same read at the TensorCore's references. -/
abbrev Vin0 : (c : Dev nD) → (b : Ref sig .tc) → Buf (Elt F) ((c : Thread nD τ).loc b) := fun c b => W1 m c b

/-- The first call's table: the flat row numbers, as the first host stretch leaves them (one device: device 0's). -/
def tbl0 : pre0.Contents (Elt F) := fun k => Vin0 m (0 : Dev nD) (pre0.ref k)
/-- The second call's table: the selected row numbers, computed by the same stretch. -/
def tbl1 : pre1.Contents (Elt F) := fun k => Vin0 m (0 : Dev nD) (pre1.ref k)

theorem Vin0_pre0 (c : Dev nD) (k : Fin 1) : Vin0 m c (pre0.ref k) = tbl0 m k := by
  obtain rfl : c = 0 := Subsingleton.elim _ _; rfl
theorem Vin0_pre1 (c : Dev nD) (k : Fin 1) : Vin0 m c (pre1.ref k) = tbl1 m k := by
  obtain rfl : c = 0 := Subsingleton.elim _ _; rfl

/-- Both tables keep every table-indexed block inside its array. -/
structure Ok : Prop where
  h0 : ok0 (F := F) (tbl0 m)
  h1 : ok1 (F := F) (tbl1 m)

variable (hO : Ok m)

abbrev a0 : (pcfg0 (F := F)).Adm := ⟨tbl0 m, hO.h0⟩
abbrev a1 : (pcfg1 (F := F)).Adm := ⟨tbl1 m, hO.h1⟩
/-- The tables as admissible contents, call by call. -/
abbrev adm : (p : Fin 2) → (pcfgs (F := F) p).Adm
  | ⟨0, _⟩ => a0 m hO
  | ⟨1, _⟩ => a1 m hO

/-! ## The fold through the two calls -/

/-- At the first call's exit: its arrays at what its write-backs leave, every other buffer as entered. -/
def W2 (c : Dev nD) : Valuation τ sig (Elt F) :=
  Pipeline.withArrays spec0 c (W1 m c) fun w => (Scatter0.dat (a0 m hO) (Vin0 m) c).arrAt w (cfg0 (a0 m hO)).N
theorem W2_arr (c : Dev nD) (w : Fin 5) :
    W2 m hO c (Proc.devRef .tc (Pipeline.arrRef spec0 w)) = (Scatter0.dat (a0 m hO) (Vin0 m) c).arrAt w (cfg0 (a0 m hO)).N := by
  unfold W2; exact Pipeline.withArrays_arr spec0 winFacts0.arr_inj c _ _ w
theorem W2_of_ne (c : Dev nD) (b : Ref sig .tc) (hb : ∀ w, Pipeline.arrRef spec0 w ≠ b) :
    W2 m hO c (Proc.devRef .tc b) = W1 m c (Proc.devRef .tc b) := by
  unfold W2; exact Pipeline.withArrays_of_ne spec0 c _ _ b hb
abbrev Vout0 : (c : Dev nD) → (b : Ref sig .tc) → Buf (Elt F) ((c : Thread nD τ).loc b) := fun c b => W2 m hO c b
theorem hF0 (c : Dev nD) (w : Fin 5) : (Scatter0.dat (a0 m hO) (Vin0 m) c).arrAt w (cfg0 (a0 m hO)).N = Vout0 m hO c (Pipeline.arrRef spec0 w) :=
  (W2_arr m hO c w).symm
theorem hrest0 (c : Dev nD) : ∀ b, b ∉ Finset.univ.image (Pipeline.arrRef spec0) → Vout0 m hO c b = Vin0 m c b :=
  fun b hb => W2_of_ne m hO c b fun w e => hb (Finset.mem_image.mpr ⟨w, Finset.mem_univ _, e⟩)

/-- After the second host stretch (the second call's entry). -/
abbrev W3 : Dev nD → Valuation τ sig (Elt F) := fun c => StableHlo.after hostOps1 (W2 m hO c)
abbrev Vin1 : (c : Dev nD) → (b : Ref sig .tc) → Buf (Elt F) ((c : Thread nD τ).loc b) := fun c b => W3 m hO c b

/-- At the second call's exit. -/
def W4 (c : Dev nD) : Valuation τ sig (Elt F) :=
  Pipeline.withArrays spec1 c (W3 m hO c) fun w => (Scatter1.dat (a1 m hO) (Vin1 m hO) c).arrAt w (cfg1 (a1 m hO)).N
theorem W4_arr (c : Dev nD) (w : Fin 2) :
    W4 m hO c (Proc.devRef .tc (Pipeline.arrRef spec1 w)) = (Scatter1.dat (a1 m hO) (Vin1 m hO) c).arrAt w (cfg1 (a1 m hO)).N := by
  unfold W4; exact Pipeline.withArrays_arr spec1 winFacts1.arr_inj c _ _ w
theorem W4_of_ne (c : Dev nD) (b : Ref sig .tc) (hb : ∀ w, Pipeline.arrRef spec1 w ≠ b) :
    W4 m hO c (Proc.devRef .tc b) = W3 m hO c (Proc.devRef .tc b) := by
  unfold W4; exact Pipeline.withArrays_of_ne spec1 c _ _ b hb
abbrev Vout1 : (c : Dev nD) → (b : Ref sig .tc) → Buf (Elt F) ((c : Thread nD τ).loc b) := fun c b => W4 m hO c b
theorem hF1 (c : Dev nD) (w : Fin 2) : (Scatter1.dat (a1 m hO) (Vin1 m hO) c).arrAt w (cfg1 (a1 m hO)).N = Vout1 m hO c (Pipeline.arrRef spec1 w) :=
  (W4_arr m hO c w).symm
theorem hrest1 (c : Dev nD) : ∀ b, b ∉ Finset.univ.image (Pipeline.arrRef spec1) → Vout1 m hO c b = Vin1 m hO c b :=
  fun b hb => W4_of_ne m hO c b fun w e => hb (Finset.mem_image.mpr ⟨w, Finset.mem_univ _, e⟩)

/-- After the last host stretch: the program's end. -/
abbrev W5 : Dev nD → Valuation τ sig (Elt F) := fun c => StableHlo.after hostOps2 (W4 m hO c)

/-- The second call's table is still what the first stretch computed: neither the first call nor the second stretch
    writes it. -/
theorem Vin1_pre1 (c : Dev nD) (k : Fin 1) : Vin1 m hO c (pre1.ref k) = tbl1 m k := by
  rw [← Vin0_pre1 m c k]
  show StableHlo.after hostOps1 (W2 m hO c) (Proc.devRef .tc (pre1.ref k)) = W1 m c (Proc.devRef .tc (pre1.ref k))
  rw [StableHlo.after_of_writes_sub hostOps1 _ hostOps1_writes (by fin_cases k; decide)]
  exact W2_of_ne m hO c _ (by fin_cases k; decide)

/-! ## The proof data family and the thread state -/

/-- Each call's proof data at its own entry contents and table. -/
def pdats : (p : Fin 2) → (c : Dev nD) → Dat τ (Elt F) Unit ℕ (UR sig nD τ) ℕ (Pipeline.pin (pcfgs (F := F)) (adm m hO) p) c
  | ⟨0, _⟩ => fun c => Scatter0.dat (a0 m hO) (Vin0 m) c
  | ⟨1, _⟩ => fun c => Scatter1.dat (a1 m hO) (Vin1 m hO) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every buffer that outlives the calls at the program's end contents. -/
abbrev Tₙ (c : Dev nD) : sProp 𝕄 := iprop(StableHlo.held (c : Thread nD τ) (Pipeline.ucRefs τ sig) (W5 m hO c) ∗ ∃ r, prngReg c r)

/-! ## The two calls as segments -/

set_option backward.isDefEq.respectTransparency.types false in
/-- The first call: entered from every outliving buffer at `W1`, left at `W2`. Its arrays and its table are split
    out of those buffers at entry; the table rides through the call inside the invariant and comes back whole. -/
def reg0 : Pipeline.RegionSeg (pcfgs (F := F)) (adm m hO) (pdats m hO) () defs₀ 𝒱₀ L lv 0 where
  win := winFacts0.to₀
  block_pos := block_pos0
  stage_whole := stage_whole0
  K := PEmpty
  osem k := k.elim
  ho := Pipeline.OwnSemFacts.none _
  hbody c := (Scatter0.body_obligation (a0 m hO) (Vin0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m hO c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl0 m))
  Z c := Pipeline.unscopedRestP (Ix := Unit) (Name := ℕ) (U := UR sig nD τ) (Lvl := ℕ) pre0 spec0 c (Vin0 m c)
  hentry c := by
    rw [Pipeline.ownSems0_none]
    have hsplit := Pipeline.arrays_of_unscopedBufs (p := 0) (pcfgs (F := F)) (adm m hO) (pdats m hO) winFacts0 arr_whole0 c
      ((pdats m hO 0 c).share_full fun _ => rfl) (Vin0 m c) fun _ => rfl
    have hs : (Pipeline.unscopedRest (Ix := Unit) (Name := ℕ) (U := UR sig nD τ) (Lvl := ℕ) (Pipeline.pin (pcfgs (F := F)) (adm m hO) 0).spec c (Vin0 m c) : sProp 𝕄)
        = iprop(Pipeline.prefHeld pre0 c (fun _ => fullShare) (tbl0 m) ∗ Pipeline.unscopedRestP pre0 spec0 c (Vin0 m c)) := by
      rw [← show (fun k => Vin0 m c (pre0.ref k)) = tbl0 m from funext (Vin0_pre0 m c)]
      exact Pipeline.unscopedRest_split preFacts0 c (Vin0 m c)
    rw [Pipeline.unscopedBufs_held, hs] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 0 c).Φ 0 = iprop(Pipeline.ΦA spec0 c ∗ Pipeline.prefHeld pre0 c (fun _ => fullShare) (tbl0 m)) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m hO 0 c).Φ (Fin.last _) = iprop(Pipeline.ΦA spec0 c ∗ Pipeline.prefHeld pre0 c (fun _ => fullShare) (tbl0 m)) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m hO) (Ix := Unit) (Name := ℕ) (U := UR sig nD τ) (Lvl := ℕ)
      winFacts0 arr_whole0 c (pdats m hO) ((pdats m hO 0 c).share_full fun _ => rfl)
      (Vin0 m c) (Vout0 m hO c) ((pdats m hO 0 c).arrAt · (cfg0 (a0 m hO)).N) (hF0 m hO c) (hrest0 m hO c)
    have hs : (Pipeline.unscopedRest (Ix := Unit) (Name := ℕ) (U := UR sig nD τ) (Lvl := ℕ) (Pipeline.pin (pcfgs (F := F)) (adm m hO) 0).spec c (Vin0 m c) : sProp 𝕄)
        = iprop(Pipeline.prefHeld pre0 c (fun _ => fullShare) (tbl0 m) ∗ Pipeline.unscopedRestP pre0 spec0 c (Vin0 m c)) := by
      rw [← show (fun k => Vin0 m c (pre0.ref k)) = tbl0 m from funext (Vin0_pre0 m c)]
      exact Pipeline.unscopedRest_split preFacts0 c (Vin0 m c)
    rw [Pipeline.unscopedBufs_held, hs] at hjoin
    iintro ⟨Ha, HO, ⟨HY, Ht⟩, Hrest⟩
    imodintro
    isplitl [Ha Hrest Ht]
    · iapply hjoin; isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- The second call: entered from every outliving buffer at `W3`, left at `W4`; its table rides through the call
    inside the invariant as the first call's does. -/
def reg1 : Pipeline.RegionSeg (pcfgs (F := F)) (adm m hO) (pdats m hO) () defs₀ 𝒱₀ L lv 1 where
  win := winFacts1.to₀
  block_pos := block_pos1
  stage_whole := stage_whole1
  K := PEmpty
  osem k := k.elim
  ho := Pipeline.OwnSemFacts.none _
  hbody c := (Scatter1.body_obligation (a1 m hO) (Vin1 m hO) c).loose
  hwaits := Pipeline.hwaits_of_owed_zero _ _ _ _ L lv 1 fun _ _ => rfl
  pre c := iprop(StableHlo.held (c : Thread nD τ) (Pipeline.ucRefs τ sig) (W3 m hO c) ∗ R c)
  post c := iprop(StableHlo.held (c : Thread nD τ) (Pipeline.ucRefs τ sig) (W4 m hO c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tbl1 m))
  Z c := Pipeline.unscopedRestP (Ix := Unit) (Name := ℕ) (U := UR sig nD τ) (Lvl := ℕ) pre1 spec1 c (Vin1 m hO c)
  hentry c := by
    rw [Pipeline.ownSems0_none]
    have hsplit := Pipeline.arrays_of_unscopedBufs (p := 1) (pcfgs (F := F)) (adm m hO) (pdats m hO) winFacts1 arr_whole1 c
      ((pdats m hO 1 c).share_full fun _ => rfl) (Vin1 m hO c) fun _ => rfl
    have hs : (Pipeline.unscopedRest (Ix := Unit) (Name := ℕ) (U := UR sig nD τ) (Lvl := ℕ) (Pipeline.pin (pcfgs (F := F)) (adm m hO) 1).spec c (Vin1 m hO c) : sProp 𝕄)
        = iprop(Pipeline.prefHeld pre1 c (fun _ => fullShare) (tbl1 m) ∗ Pipeline.unscopedRestP pre1 spec1 c (Vin1 m hO c)) := by
      rw [← show (fun k => Vin1 m hO c (pre1.ref k)) = tbl1 m from funext (Vin1_pre1 m hO c)]
      exact Pipeline.unscopedRest_split preFacts1 c (Vin1 m hO c)
    rw [Pipeline.unscopedBufs_held, hs] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 1 c).Φ 0 = iprop(Pipeline.ΦA spec1 c ∗ Pipeline.prefHeld pre1 c (fun _ => fullShare) (tbl1 m)) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m hO 1 c).Φ (Fin.last _) = iprop(Pipeline.ΦA spec1 c ∗ Pipeline.prefHeld pre1 c (fun _ => fullShare) (tbl1 m)) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m hO) (Ix := Unit) (Name := ℕ) (U := UR sig nD τ) (Lvl := ℕ)
      winFacts1 arr_whole1 c (pdats m hO) ((pdats m hO 1 c).share_full fun _ => rfl)
      (Vin1 m hO c) (Vout1 m hO c) ((pdats m hO 1 c).arrAt · (cfg1 (a1 m hO)).N) (hF1 m hO c) (hrest1 m hO c)
    have hs : (Pipeline.unscopedRest (Ix := Unit) (Name := ℕ) (U := UR sig nD τ) (Lvl := ℕ) (Pipeline.pin (pcfgs (F := F)) (adm m hO) 1).spec c (Vin1 m hO c) : sProp 𝕄)
        = iprop(Pipeline.prefHeld pre1 c (fun _ => fullShare) (tbl1 m) ∗ Pipeline.unscopedRestP pre1 spec1 c (Vin1 m hO c)) := by
      rw [← show (fun k => Vin1 m hO c (pre1.ref k)) = tbl1 m from funext (Vin1_pre1 m hO c)]
      exact Pipeline.unscopedRest_split preFacts1 c (Vin1 m hO c)
    rw [Pipeline.unscopedBufs_held, hs] at hjoin
    iintro ⟨Ha, HO, ⟨HY, Ht⟩, Hrest⟩
    imodintro
    isplitl [Ha Hrest Ht]
    · iapply hjoin; isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) (adm m hO) (pdats m hO) () defs₀ 𝒱₀ L lv) :=
  [ .host (hseg hostOps0 hostOps0_sub hostOps0_fresh (W0 m)),
    .region (reg0 m hO),
    .host (hseg hostOps1 hostOps1_sub hostOps1_fresh (W2 m hO)),
    .region (reg1 m hO),
    .host (hseg hostOps2 hostOps2_sub hostOps2_fresh (W4 m hO)) ]
theorem main_run (c : Dev nD) : main (F := F) c = Pipeline.Seg.run (segs m hO) := (main_chain c).trans (by chain_rfl)

set_option backward.isDefEq.respectTransparency.types false in
/-- THE RUN. When both tables keep their blocks inside the arrays, every weakly fair execution of @main from memory
    `m` with zero counters terminates, nothing faulting, and every buffer that outlives the calls ends at the fold's
    last contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m hO c b) :=
  Pipeline.θ_run_regions_kit (pcfgs (F := F)) (adm m hO) (pdats m hO) () (cellOf_inj (adm m hO)) emb₁ defs₀ 𝒱₀ L lv m ρ main (segs m hO)
    (fun c Q => by rw [main_run m hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hO)
    (hch := ⟨fun _ => .rfl, fun _ => .rfl, fun _ => .rfl, fun _ => .rfl, fun _ => .rfl, fun c => by
      show iprop(StableHlo.held (c : Thread nD τ) (Pipeline.ucRefs τ sig) (W5 m hO c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m hO c b)
    (hfin := fun c s' => by
      iintro ⟨⟨Hh, -⟩, HSI⟩
      unfold StableHlo.held
      imodintro
      iapply (pointsTo_read_all (Pipeline.ucRefs τ sig) (fun b => (((c : Thread nD τ)).1, b)) (W5 m hO c) s')
      isplitl [Hh] <;> iassumption)
    (hQ := fun s h => h)

end Cert.KernelIdeal.Run

end
-- ==== Proof.KHost.lean ====
import proofs.«414779_j32066225832083_1_alg».proof.Proof.Gen.KernelIdeal.Regions
import Idealize.ShloMosaic.Lib.StableHlo.Run

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]

/-! # What the three host stretches of the kernel program compute

The kernel program runs three stretches of plain array operations on the host side of its two
pipelined regions. Each buffer such a stretch writes holds, afterwards, a fixed composition of pure
array functions applied to the buffers the stretch reads. This file names those compositions and
proves, for an ARBITRARY valuation of the buffers before the stretch, that each written buffer ends
holding its composition and each unwritten buffer keeps its contents.

* The first stretch turns the four integer columns `(b, x, y, z)` of the voxel table into the flat
  cell number `b·262144 + x + y·512 + z` (`flatK`), wraps negative sample numbers around by the
  table's length 65536 (`selK`), looks the samples up in the flat numbers (`flatSelK`) and in the feature
  rows (`featSelK`), divides the integer counts by 32 as floats (`densK`), and fills three
  accumulators with zeros.
* The second stretch views the looked-up feature rows as a three-axis array and fills a fourth
  accumulator with zeros.
* The third stretch views the accumulators as `4 × 512 × 512` grids, the feature accumulator after
  exchanging its last two axes as a `4 × 64 × 512 × 512` grid. -/

/-- The contents of the TensorCore buffer `b` in the valuation `V`. -/
local notation:max V "⟦" b "⟧" => V (Proc.devRef Proc.tc b)

/-! ## The compositions, as functions of arrays -/

/-- The flat cell number of every voxel row: column 0 times 262144, plus column 1, plus column 2
    times 512, plus column 3 (all in 32-bit wrap-around arithmetic). -/
def flatK (a1 : IVec S65536x4 32) : IVec S65536 32 :=
  addi
    (addi
      (addi
        (muli
          (shapeCast _ (extractStridedSlice S65536x1 ![0, 0] a1 slices_S65536x4_S65536x1_0_0) shapeCasts_S65536x1_S65536)
          (broadcastInDim S65536 ![] bcast_S_S65536 (constantI S_ 32 262144#32)))
        (shapeCast _ (extractStridedSlice S65536x1 ![0, 1] a1 slices_S65536x4_S65536x1_0_1) shapeCasts_S65536x1_S65536))
      (muli
        (shapeCast _ (extractStridedSlice S65536x1 ![0, 2] a1 slices_S65536x4_S65536x1_0_2) shapeCasts_S65536x1_S65536)
        (broadcastInDim S65536 ![] bcast_S_S65536 (constantI S_ 32 512#32))))
    (shapeCast _ (extractStridedSlice S65536x1 ![0, 3] a1 slices_S65536x4_S65536x1_0_3) shapeCasts_S65536x1_S65536)

/-- The sample numbers made non-negative (a negative one has the table's length 65536 added), as a
    one-column index array. -/
def selK (a3 : IVec S19660 32) : IVec S19660x1 32 :=
  broadcastInDim S19660x1 ![0] bcast_S19660_S19660x1_0
    (select (cmpi .slt a3 (broadcastInDim S19660 ![] bcast_S_S19660 (constantI S_ 32 0#32)))
      (addi a3 (broadcastInDim S19660 ![] bcast_S_S19660 (constantI S_ 32 65536#32))) a3)

/-- The flat cell numbers of the sampled voxel rows. -/
def flatSelK (a1 : IVec S65536x4 32) (a3 : IVec S19660 32) : IVec S19660 32 :=
  Host.gather gather_S65536_S19660x1_S19660_n_0_n_n_0_1_1 (flatK a1) (selK a3)

/-- The feature rows of the sampled voxels. -/
def featSelK (a0 : FVec F S65536x64 .f32) (a3 : IVec S19660 32) : FVec F S19660x64 .f32 :=
  Host.gather gather_S65536x64_S19660x1_S19660x64_1_0_n_n_0_1_164 a0 (selK a3)

/-- The integer counts as floats, divided by 32. -/
def densK (a2 : IVec S65536 32) : FVec F S65536 .f32 :=
  Host.divf (sitofp .f32 a2) (broadcastInDim S65536 ![] bcast_S_S65536 (constant S_ .f32 0x42000000#32))

/-! ## The first stretch -/

section First
variable (V : Valuation τ sig (Elt F))

set_option maxRecDepth 8192 in
/-- The flat cell numbers. -/
theorem after0_v14 : StableHlo.after hostOps0 V (Proc.devRef .tc main_v14) = flatK (V⟦main_arg1⟧) := by
  show StableHlo.after hostOps0 V (Proc.devRef .tc main_v14) = _
  after_results_simp
  rfl

set_option maxRecDepth 8192 in
/-- The sampled flat cell numbers. -/
theorem after0_v21 : StableHlo.after hostOps0 V (Proc.devRef .tc main_v21) = flatSelK (V⟦main_arg1⟧) (V⟦main_arg3⟧) := by
  show StableHlo.after hostOps0 V (Proc.devRef .tc main_v21) = _
  after_results_simp
  rfl

set_option maxRecDepth 8192 in
/-- The sampled feature rows. -/
theorem after0_v28 : StableHlo.after hostOps0 V (Proc.devRef .tc main_v28) = featSelK (V⟦main_arg0⟧) (V⟦main_arg3⟧) := by
  show StableHlo.after hostOps0 V (Proc.devRef .tc main_v28) = _
  after_results_simp
  rfl

set_option maxRecDepth 8192 in
/-- The scaled counts, viewed with two trailing unit axes. -/
theorem after0_v35 : StableHlo.after hostOps0 V (Proc.devRef .tc main_v35) = shapeCast _ (densK (F := F) (V⟦main_arg2⟧)) shapeCasts_S65536_S65536x1x1 := by
  show StableHlo.after hostOps0 V (Proc.devRef .tc main_v35) = _
  after_results_simp
  rfl

set_option maxRecDepth 8192 in
/-- The integer counts, viewed with two trailing unit axes. -/
theorem after0_v36 : StableHlo.after hostOps0 V (Proc.devRef .tc main_v36) = shapeCast _ (V⟦main_arg2⟧) shapeCasts_S65536_S65536x1x1 := by
  show StableHlo.after hostOps0 V (Proc.devRef .tc main_v36) = _
  after_results_simp
  rfl

set_option maxRecDepth 8192 in
/-- The first float accumulator starts at zero everywhere. -/
theorem after0_v37_0 : StableHlo.after hostOps0 V (Proc.devRef .tc main_v37_0) = (broadcastInDim S1048576x1x1 ![] bcast_S_S1048576x1x1 (constant S_ .f32 0x00000000#32) : FVec F S1048576x1x1 .f32) := by
  show StableHlo.after hostOps0 V (Proc.devRef .tc main_v37_0) = _
  after_results_simp
  rfl

set_option maxRecDepth 8192 in
/-- The second float accumulator starts at zero everywhere. -/
theorem after0_v37_1 : StableHlo.after hostOps0 V (Proc.devRef .tc main_v37_1) = (broadcastInDim S1048576x1x1 ![] bcast_S_S1048576x1x1 (constant S_ .f32 0x00000000#32) : FVec F S1048576x1x1 .f32) := by
  show StableHlo.after hostOps0 V (Proc.devRef .tc main_v37_1) = _
  after_results_simp
  rfl

set_option maxRecDepth 8192 in
/-- The integer accumulator starts at zero everywhere. -/
theorem after0_v37_2 : StableHlo.after hostOps0 V (Proc.devRef .tc main_v37_2) = (broadcastInDim S1048576x1x1 ![] bcast_S_S1048576x1x1 (constantI S_ 32 0#32) : IVec S1048576x1x1 32) := by
  show StableHlo.after hostOps0 V (Proc.devRef .tc main_v37_2) = _
  after_results_simp
  rfl

/-- A buffer the first stretch does not write keeps its contents. -/
theorem after0_of (b : Ref sig .tc) (h : b ∉ hostOps0_W) : StableHlo.after hostOps0 V (Proc.devRef .tc b) = V⟦b⟧ :=
  StableHlo.after_of_writes_sub hostOps0 V hostOps0_writes h

/-- The first stretch writes none of the four argument arrays. -/
theorem after0_args :
    StableHlo.after hostOps0 V (Proc.devRef .tc main_arg0) = V⟦main_arg0⟧
    ∧ StableHlo.after hostOps0 V (Proc.devRef .tc main_arg1) = V⟦main_arg1⟧
    ∧ StableHlo.after hostOps0 V (Proc.devRef .tc main_arg2) = V⟦main_arg2⟧
    ∧ StableHlo.after hostOps0 V (Proc.devRef .tc main_arg3) = V⟦main_arg3⟧ :=
  ⟨after0_of V main_arg0 (by decide), after0_of V main_arg1 (by decide), after0_of V main_arg2 (by decide), after0_of V main_arg3 (by decide)⟩

end First

/-! ## The second stretch -/

section Second
variable (V : Valuation τ sig (Elt F))

/-- The sampled feature rows, viewed with a unit middle axis. -/
theorem after1_v39 : StableHlo.after hostOps1 V (Proc.devRef .tc main_v39) = shapeCast _ (V⟦main_v28⟧) shapeCasts_S19660x64_S19660x1x64 := by
  show StableHlo.after hostOps1 V (Proc.devRef .tc main_v39) = _
  after_results
  rfl

/-- The feature accumulator starts at zero everywhere. -/
theorem after1_v40 : StableHlo.after hostOps1 V (Proc.devRef .tc main_v40) = (broadcastInDim S1048576x1x64 ![] bcast_S_S1048576x1x64 (constant S_ .f32 0x00000000#32) : FVec F S1048576x1x64 .f32) := by
  show StableHlo.after hostOps1 V (Proc.devRef .tc main_v40) = _
  after_results
  rfl

/-- A buffer the second stretch does not write keeps its contents. -/
theorem after1_of (b : Ref sig .tc) (h : b ∉ hostOps1_W) : StableHlo.after hostOps1 V (Proc.devRef .tc b) = V⟦b⟧ :=
  StableHlo.after_of_writes_sub hostOps1 V hostOps1_writes h

end Second

/-! ## The third stretch -/

section Third
variable (V : Valuation τ sig (Elt F))

/-- The first float accumulator as a `4 × 512 × 512` grid. -/
theorem after2_v41 : StableHlo.after hostOps2 V (Proc.devRef .tc main_v41) = shapeCast _ (V⟦main_v37_0⟧) shapeCasts_S1048576x1x1_S4x512x512 := by
  show StableHlo.after hostOps2 V (Proc.devRef .tc main_v41) = _
  after_results
  rfl

/-- The second float accumulator as a `4 × 512 × 512` grid. -/
theorem after2_v42 : StableHlo.after hostOps2 V (Proc.devRef .tc main_v42) = shapeCast _ (V⟦main_v37_1⟧) shapeCasts_S1048576x1x1_S4x512x512 := by
  show StableHlo.after hostOps2 V (Proc.devRef .tc main_v42) = _
  after_results
  rfl

/-- The integer accumulator as a `4 × 512 × 512` grid. -/
theorem after2_v43 : StableHlo.after hostOps2 V (Proc.devRef .tc main_v43) = shapeCast _ (V⟦main_v37_2⟧) shapeCasts_S1048576x1x1_S4x512x512 := by
  show StableHlo.after hostOps2 V (Proc.devRef .tc main_v43) = _
  after_results
  rfl

/-- The feature accumulator, split into its four batches, its cell and feature axes exchanged, as
    a `4 × 64 × 512 × 512` grid. -/
theorem after2_v46 : StableHlo.after hostOps2 V (Proc.devRef .tc main_v46) =
    shapeCast _ (transpose S4x64x262144 [0, 2, 1] (shapeCast _ (V⟦main_v40⟧) shapeCasts_S1048576x1x64_S4x262144x64) transposes_S4x262144x64_S4x64x262144_0_2_1) shapeCasts_S4x64x262144_S4x64x512x512 := by
  show StableHlo.after hostOps2 V (Proc.devRef .tc main_v46) = _
  after_results
  rfl

/-- A buffer the third stretch does not write keeps its contents. -/
theorem after2_of (b : Ref sig .tc) (h : b ∉ hostOps2_W) : StableHlo.after hostOps2 V (Proc.devRef .tc b) = V⟦b⟧ :=
  StableHlo.after_of_writes_sub hostOps2 V hostOps2_writes h

end Third

end Cert.KernelIdeal.HostVal

end
-- ==== Proof.KEnds.lean ====
/-
  The ends of the kernel program's run, read buffer by buffer. The arguments end as launched: no host operation and
  neither scatter call writes one. Each result is the last host stretch's reshape (for the features: reshape,
  transpose, reshape) of what a scatter call's write-backs leave in its output array. And what each call finds in its
  windowed arrays at entry: the density values and point counts, the gathered feature rows, and zero arrays.
-/
import proofs.«414779_j32066225832083_1_alg».proof.Proof.KRun
import proofs.«414779_j32066225832083_1_alg».proof.Proof.KHost

set_option maxRecDepth 16384

noncomputable section

namespace Cert.KernelIdeal.Ends

open Cert.KernelIdeal Cert.KernelIdeal.Gen Cert.KernelIdeal.Run Cert.KernelIdeal.HostVal
open Idealize.ShloMosaic Idealize.ShloMosaic.TcCoe Idealize.SL.Sem

variable {F : FTy → Type} [FloatOps F]
variable (m : (ℓ : Loc nD τ sig) → Buf (Elt F) ℓ) (hO : Ok m) (c : Dev nD)

/-- A buffer no host stretch writes and no call windows ends as launched. -/
theorem W5_of_untouched (b : Ref sig .tc) (h0 : b ∉ hostOps0_W) (h1 : b ∉ hostOps1_W) (h2 : b ∉ hostOps2_W)
    (n0 : ∀ w, Pipeline.arrRef spec0 w ≠ b) (n1 : ∀ w, Pipeline.arrRef spec1 w ≠ b) :
    W5 m hO c (Proc.devRef .tc b) = m (c, Proc.devRef .tc b) :=
  (after2_of (W4 m hO c) b h2).trans <| (W4_of_ne m hO c b n1).trans <| (after1_of (W2 m hO c) b h1).trans <|
    (W2_of_ne m hO c b n0).trans <| after0_of (W0 m c) b h0

theorem W5_arg0 : W5 m hO c (Proc.devRef .tc main_arg0) = m ((c.tc : Thread nD τ).loc main_arg0) :=
  W5_of_untouched m hO c main_arg0 (by decide) (by decide) (by decide) (by decide) (by decide)
theorem W5_arg1 : W5 m hO c (Proc.devRef .tc main_arg1) = m ((c.tc : Thread nD τ).loc main_arg1) :=
  W5_of_untouched m hO c main_arg1 (by decide) (by decide) (by decide) (by decide) (by decide)
theorem W5_arg2 : W5 m hO c (Proc.devRef .tc main_arg2) = m ((c.tc : Thread nD τ).loc main_arg2) :=
  W5_of_untouched m hO c main_arg2 (by decide) (by decide) (by decide) (by decide) (by decide)
theorem W5_arg3 : W5 m hO c (Proc.devRef .tc main_arg3) = m ((c.tc : Thread nD τ).loc main_arg3) :=
  W5_of_untouched m hO c main_arg3 (by decide) (by decide) (by decide) (by decide) (by decide)

/-- What the first call's write-backs leave in its output window `w`'s array. -/
abbrev arr0 (w : Fin 5) := (Scatter0.dat (a0 m hO) (Vin0 m) c).arrAt w (cfg0 (a0 m hO)).N
/-- What the second call's write-backs leave in its output array. -/
abbrev arr1 (w : Fin 2) := (Scatter1.dat (a1 m hO) (Vin1 m hO) c).arrAt w (cfg1 (a1 m hO)).N

/-- An output array of the first call reaches the last stretch as the call left it. -/
theorem W4_out0 (w : Fin 5) (h1 : Pipeline.arrRef spec0 w ∉ hostOps1_W) (n1 : ∀ w', Pipeline.arrRef spec1 w' ≠ Pipeline.arrRef spec0 w) :
    W4 m hO c (Proc.devRef .tc (Pipeline.arrRef spec0 w)) = arr0 m hO c w :=
  (W4_of_ne m hO c _ n1).trans <| (after1_of (W2 m hO c) _ h1).trans (W2_arr m hO c w)

theorem W5_v41 : W5 m hO c (Proc.devRef .tc main_v41) = shapeCast _ (arr0 m hO c 2) shapeCasts_S1048576x1x1_S4x512x512 :=
  (after2_v41 (W4 m hO c)).trans (congrArg (fun x => shapeCast _ x shapeCasts_S1048576x1x1_S4x512x512) (W4_out0 m hO c 2 (by decide) (by decide)))
theorem W5_v42 : W5 m hO c (Proc.devRef .tc main_v42) = shapeCast _ (arr0 m hO c 3) shapeCasts_S1048576x1x1_S4x512x512 :=
  (after2_v42 (W4 m hO c)).trans (congrArg (fun x => shapeCast _ x shapeCasts_S1048576x1x1_S4x512x512) (W4_out0 m hO c 3 (by decide) (by decide)))
theorem W5_v43 : W5 m hO c (Proc.devRef .tc main_v43) = shapeCast _ (arr0 m hO c 4) shapeCasts_S1048576x1x1_S4x512x512 :=
  (after2_v43 (W4 m hO c)).trans (congrArg (fun x => shapeCast _ x shapeCasts_S1048576x1x1_S4x512x512) (W4_out0 m hO c 4 (by decide) (by decide)))
theorem W5_v46 : W5 m hO c (Proc.devRef .tc main_v46) =
    shapeCast _ (transpose S4x64x262144 [0, 2, 1] (shapeCast _ (arr1 m hO c 1) shapeCasts_S1048576x1x64_S4x262144x64)
      transposes_S4x262144x64_S4x64x262144_0_2_1) shapeCasts_S4x64x262144_S4x64x512x512 :=
  (after2_v46 (W4 m hO c)).trans (congrArg (fun x => shapeCast _ (transpose S4x64x262144 [0, 2, 1] (shapeCast _ x shapeCasts_S1048576x1x64_S4x262144x64)
      transposes_S4x262144x64_S4x64x262144_0_2_1) shapeCasts_S4x64x262144_S4x64x512x512) (W4_arr m hO c 1))

/-! ## What the calls find at entry -/

theorem Vin0_v35 : Vin0 m c main_v35 = shapeCast _ (densK (F := F) (m ((c.tc : Thread nD τ).loc main_arg2))) shapeCasts_S65536_S65536x1x1 :=
  after0_v35 (W0 m c)
theorem Vin0_v36 : Vin0 m c main_v36 = shapeCast _ (m ((c.tc : Thread nD τ).loc main_arg2)) shapeCasts_S65536_S65536x1x1 :=
  after0_v36 (W0 m c)
theorem Vin0_v37_0 : Vin0 m c main_v37_0 = (broadcastInDim S1048576x1x1 ![] bcast_S_S1048576x1x1 (constant S_ .f32 0x00000000#32) : FVec F S1048576x1x1 .f32) :=
  after0_v37_0 (W0 m c)
theorem Vin0_v37_1 : Vin0 m c main_v37_1 = (broadcastInDim S1048576x1x1 ![] bcast_S_S1048576x1x1 (constant S_ .f32 0x00000000#32) : FVec F S1048576x1x1 .f32) :=
  after0_v37_1 (W0 m c)
theorem Vin0_v37_2 : Vin0 m c main_v37_2 = (broadcastInDim S1048576x1x1 ![] bcast_S_S1048576x1x1 (constantI S_ 32 0#32) : IVec S1048576x1x1 32) :=
  after0_v37_2 (W0 m c)
theorem Vin1_v39 : Vin1 m hO c main_v39 = shapeCast _ (featSelK (F := F) (m ((c.tc : Thread nD τ).loc main_arg0)) (m ((c.tc : Thread nD τ).loc main_arg3))) shapeCasts_S19660x64_S19660x1x64 :=
  (after1_v39 (W2 m hO c)).trans (congrArg (fun x => shapeCast _ x shapeCasts_S19660x64_S19660x1x64)
    ((W2_of_ne m hO c main_v28 (by decide)).trans (after0_v28 (W0 m c))))
theorem Vin1_v40 : Vin1 m hO c main_v40 = (broadcastInDim S1048576x1x64 ![] bcast_S_S1048576x1x64 (constant S_ .f32 0x00000000#32) : FVec F S1048576x1x64 .f32) :=
  after1_v40 (W2 m hO c)

/-- The tables are the flat row numbers and their gathered selection. -/
theorem tbl0_eq : (tbl0 m 0 : IVec S65536 32) = flatK (m (((0 : Dev nD).tc : Thread nD τ).loc main_arg1)) :=
  after0_v14 (W0 m 0)
theorem tbl1_eq : (tbl1 m 0 : IVec S19660 32) = flatSelK (m (((0 : Dev nD).tc : Thread nD τ).loc main_arg1)) (m (((0 : Dev nD).tc : Thread nD τ).loc main_arg3)) :=
  after0_v21 (W0 m 0)

/-! ## The frame, and the run with the results named -/

include hO in
/-- The frame: when both tables keep their blocks inside the arrays, @main terminates, nothing faulting, with its
    four argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_arg0 m hO c), (h c _ (mem_uc main_arg1 (by decide))).trans (W5_arg1 m hO c),
     (h c _ (mem_uc main_arg2 (by decide))).trans (W5_arg2 m hO c), (h c _ (mem_uc main_arg3 (by decide))).trans (W5_arg3 m hO c)⟩)
    (run_all m ρ hO)

/-- The run with the four results named: each is a reshape of what a scatter call left. -/
theorem run_results (ρ : Dev nD → PrngReg) : θ_run defs (onTc (τ := τ) (main (F := F))) ⟨m, fun _ => 0, ρ⟩ (fun r => ∀ c : Dev nD,
      r.2.mem ((c.tc : Thread nD τ).loc main_v46) = W5 m hO c (Proc.devRef .tc main_v46)
      ∧ r.2.mem ((c.tc : Thread nD τ).loc main_v41) = W5 m hO c (Proc.devRef .tc main_v41)
      ∧ r.2.mem ((c.tc : Thread nD τ).loc main_v42) = W5 m hO c (Proc.devRef .tc main_v42)
      ∧ r.2.mem ((c.tc : Thread nD τ).loc main_v43) = W5 m hO c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v46 (by decide)), h c _ (mem_uc main_v41 (by decide)), h c _ (mem_uc main_v42 (by decide)), h c _ (mem_uc main_v43 (by decide)),
     (h c _ (mem_uc main_arg0 (by decide))).trans (W5_arg0 m hO c), (h c _ (mem_uc main_arg1 (by decide))).trans (W5_arg1 m hO c),
     (h c _ (mem_uc main_arg2 (by decide))).trans (W5_arg2 m hO c), (h c _ (mem_uc main_arg3 (by decide))).trans (W5_arg3 m hO c)⟩)
    (run_all m ρ hO)

end Cert.KernelIdeal.Ends

end
-- ==== Proof.PreRange.lean ====
/-
  The precondition's range clause, read back. The printed precondition is the conjunction of three `jnp.all`s: the float
  input is finite, and every entry of the integer array

      flat = c0 * 262144 + c1 + c2 * 512 + c3      (32-bit wrapping arithmetic on the four columns of the [65536 × 4] argument)

  satisfies 0 ≤ flat and flat < 1048576, both as SIGNED comparisons. A signed word that is non-negative and below 2²⁰ is,
  read unsigned, below 2²⁰: that is `flat_lt`.
-/
import proofs.«414779_j32066225832083_1_alg».proof.Pre_finite_inputs
import proofs.«414779_j32066225832083_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps

noncomputable section

namespace Cert.PreRange

open Cert.Pre_finite_inputs Idealize.ShloMosaic

variable {F : FTy → Type} [FloatOps F] [Cert.Pre_finite_inputs.Facts]
open Cert.Pre_finite_inputs.Facts

/-- flat, spelt exactly as the printed predicate spells main_v14 (the same let-chain, over the same Facts fields):
    column 0 times 262144, plus column 1, plus column 2 times 512, plus column 3, each step wrapping at 32 bits. -/
def flat (a1 : IVec S65536x4 32) : IVec S65536 32 :=
  let main_v0 : IVec S65536x1 32 := (extractStridedSlice S65536x1 ![0, 0] · slices_S65536x4_S65536x1_0_0) a1
  let main_v1 : IVec S65536 32 := shapeCast S65536 main_v0 shapeCasts_S65536x1_S65536
  let main_c : IVec S_ 32 := constantI S_ 32 262144#32
  let main_v2 : IVec S65536 32 := broadcastInDim S65536 ![] bcast_S_S65536 main_c
  let main_v3 : IVec S65536 32 := muli main_v1 main_v2
  let main_v4 : IVec S65536x1 32 := (extractStridedSlice S65536x1 ![0, 1] · slices_S65536x4_S65536x1_0_1) a1
  let main_v5 : IVec S65536 32 := shapeCast S65536 main_v4 shapeCasts_S65536x1_S65536
  let main_v6 : IVec S65536 32 := addi main_v3 main_v5
  let main_v7 : IVec S65536x1 32 := (extractStridedSlice S65536x1 ![0, 2] · slices_S65536x4_S65536x1_0_2) a1
  let main_v8 : IVec S65536 32 := shapeCast S65536 main_v7 shapeCasts_S65536x1_S65536
  let main_c_0 : IVec S_ 32 := constantI S_ 32 512#32
  let main_v9 : IVec S65536 32 := broadcastInDim S65536 ![] bcast_S_S65536 main_c_0
  let main_v10 : IVec S65536 32 := muli main_v8 main_v9
  let main_v11 : IVec S65536 32 := addi main_v6 main_v10
  let main_v12 : IVec S65536x1 32 := (extractStridedSlice S65536x1 ![0, 3] · slices_S65536x4_S65536x1_0_3) a1
  let main_v13 : IVec S65536 32 := shapeCast S65536 main_v12 shapeCasts_S65536x1_S65536
  let main_v14 : IVec S65536 32 := addi main_v11 main_v13
  main_v14

/-- The scalar shape has one index. -/
instance : Subsingleton S_.Idx := ⟨fun a b => funext fun d => d.elim0⟩

/-- A 32-bit word that is ≥ 0 and < 2²⁰ as a SIGNED word is < 2²⁰ as an unsigned one: a non-negative signed value has its
    top bit clear, so the signed and the unsigned readings agree. -/
theorem toNat_lt_of_signed (w : BitVec 32) (h0 : IntOp.cmpi .sge w 0#32 = 1#1) (h1 : IntOp.cmpi .slt w 1048576#32 = 1#1) :
    w.toNat < 1048576 := by
  have h0' : (0#32 : BitVec 32).sle w = true := (StableHlo.Predicate.ofBool_eq_one_iff _).1 h0
  have h1' : w.slt 1048576#32 = true := (StableHlo.Predicate.ofBool_eq_one_iff _).1 h1
  have c0 : (0#32 : BitVec 32).toInt = 0 := by decide
  have c1 : (1048576#32 : BitVec 32).toInt = 1048576 := by decide
  simp only [BitVec.sle, BitVec.slt, decide_eq_true_eq] at h0' h1'
  rw [c0] at h0'
  rw [c1] at h1'
  have hl := w.isLt
  have hi := BitVec.toInt_eq_toNat_cond w
  by_cases hc : 2 * w.toNat < 2 ^ 32
  · rw [if_pos hc] at hi; omega
  · rw [if_neg hc] at hi; omega

/-- Under the precondition every entry of flat is, read unsigned, below 2²⁰. The predicate's one result is the `and` of
    three reductions by `and`; the second says 0 ≤ flat everywhere (signed), the third flat < 2²⁰ everywhere (signed). -/
theorem flat_lt (a0 : FVec F S65536x64 .f32) (a1 : IVec S65536x4 32) (a2 : IVec S65536 32) (a3 : IVec S19660 32)
    (h : Cert.Pre_finite_inputs.fn (F := F) a0 a1 a2 a3 = fun _ => 1#1) (i : S65536.Idx) : (flat a1 i).toNat < 1048576 := by
  have e := congrFun h ValueIdx.ix0
  dsimp only [Cert.Pre_finite_inputs.fn, Cert.Pre_finite_inputs.fn_part1] at e
  -- the result is (finite ∧ all (flat ≥ 0)) ∧ all (flat < 2²⁰)
  obtain ⟨e12, e3⟩ := IntOp.andi_eq_one.1 e
  obtain ⟨_, e2⟩ := IntOp.andi_eq_one.1 e12
  have g0 : IntOp.cmpi .sge (flat a1 i) 0#32 = 1#1 := Host.reduce_andi_all _ _ _ _ _ e2 i
  have g1 : IntOp.cmpi .slt (flat a1 i) 1048576#32 = 1#1 := Host.reduce_andi_all _ _ _ _ _ e3 i
  exact toNat_lt_of_signed _ g0 g1

end Cert.PreRange

end
-- ==== Proof.KOk.lean ====
/-
  The two tables of row numbers keep every table-indexed block inside its array.

  The first scatter call reads, at grid point i, entry i of the table flat (the flat cell number of voxel row i); the
  block it indexes is row flat[i] of an array of 1048576 rows. The second call reads entry i of the table of SELECTED
  row numbers, flat gathered at the selection indices (made non-negative and clamped to the table): each of its entries
  is therefore an entry of flat. The precondition says every entry of flat is, as a signed word, at least 0 and below
  1048576; read unsigned it is below 1048576. So both blocks start (and, being one row high, end) inside the array, and
  the transfers are of word-wide elements.
-/
import proofs.«414779_j32066225832083_1_alg».proof.Proof.KRun
import proofs.«414779_j32066225832083_1_alg».proof.Proof.KHost
import proofs.«414779_j32066225832083_1_alg».proof.Proof.PreRange

set_option maxRecDepth 16384

noncomputable section

namespace Cert.KernelIdeal.OkOfPre

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Run

variable {F : FTy → Type} [FloatOps F]

variable (m : (ℓ : Loc nD τ sig) → Buf (Elt F) ℓ)

/-- The first table is the flat cell numbers of the launch memory's voxel table. -/
theorem tbl0_eq : (tbl0 m 0 : IVec S65536 32) = Cert.KernelIdeal.HostVal.flatK (m (((0 : Dev nD).tc : Thread nD τ).loc main_arg1)) :=
  Cert.KernelIdeal.HostVal.after0_v14 (W0 m 0)

/-- The second table is the flat cell numbers looked up at the launch memory's sample numbers. -/
theorem tbl1_eq : (tbl1 m 0 : IVec S19660 32) = Cert.KernelIdeal.HostVal.flatSelK (m (((0 : Dev nD).tc : Thread nD τ).loc main_arg1)) (m (((0 : Dev nD).tc : Thread nD τ).loc main_arg3)) :=
  Cert.KernelIdeal.HostVal.after0_v21 (W0 m 0)

/-- The two spellings of flat agree: the same chain of operations over the same literal shapes. -/
theorem flatK_eq (a1 : IVec S65536x4 32) : Cert.KernelIdeal.HostVal.flatK a1 = Cert.PreRange.flat a1 := rfl

/-- The precondition on device 0, the program's one device. -/
abbrev Pre0 : Prop :=
  Cert.Pre_finite_inputs.fn (F := F) (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3)) = fun _ => 1#1

/-- Every entry of the first table is below 1048576: it is an entry of flat. -/
theorem tbl0_lt (h : Pre0 m) (x : S65536.Idx) : ((tbl0 m 0 : IVec S65536 32) x).toNat < 1048576 := by
  rw [tbl0_eq, flatK_eq]
  exact Cert.PreRange.flat_lt _ _ _ _ h x

/-- Every entry of the second table is below 1048576: the gather reads it from flat at some index. -/
theorem tbl1_lt (h : Pre0 m) (x : S19660.Idx) : ((tbl1 m 0 : IVec S19660 32) x).toNat < 1048576 := by
  rw [tbl1_eq]
  show (Cert.KernelIdeal.HostVal.flatK _ (gather_S65536_S19660x1_S19660_n_0_n_n_0_1_1.operandIdx x _)).toNat < 1048576
  rw [flatK_eq]
  exact Cert.PreRange.flat_lt _ _ _ _ h _

/-- A block one row high at row w of a 1048576-row array of single elements lies inside it when w < 1048576. -/
theorem inb1 (w : BitVec 32) (hw : w.toNat < 1048576) :
    ∀ a, ((![w.toNat, 0, 0] : Fin 3 → Nat) a + 1) * S1x1x1.size a ≤ S1048576x1x1.size a := by
  intro a
  fin_cases a
  · show (w.toNat + 1) * 1 ≤ 1048576
    omega
  · show (0 + 1) * 1 ≤ 1
    omega
  · show (0 + 1) * 1 ≤ 1
    omega

/-- The same for rows of 64 elements. -/
theorem inb64 (w : BitVec 32) (hw : w.toNat < 1048576) :
    ∀ a, ((![w.toNat, 0, 0] : Fin 3 → Nat) a + 1) * S1x1x64.size a ≤ S1048576x1x64.size a := by
  intro a
  fin_cases a
  · show (w.toNat + 1) * 1 ≤ 1048576
    omega
  · show (0 + 1) * 1 ≤ 1
    omega
  · show (0 + 1) * 64 ≤ 64
    omega

/-- The first call's side condition: each of its three table-indexed windows reads, at grid point i, the table's entry
    at the unit rectangle at offset i, and places its one-row block at that row. -/
theorem ok0_of_pre (h : Pre0 m) : ok0 (F := F) (tbl0 m) := by
  refine ⟨fun i => ?_, fun i => ?_, fun i => ?_⟩
  · obtain ⟨w, hw, e⟩ : ∃ w : BitVec 32, w.toNat < 1048576 ∧ cc0_transform_5 k0_off1_inb numel1_S1 (tbl0 m) i = ![w.toNat, 0, 0] :=
      ⟨_, tbl0_lt m h _, rfl⟩
    exact ⟨fun a => by rw [e]; exact inb1 w hw a, Or.inl rfl⟩
  · obtain ⟨w, hw, e⟩ : ∃ w : BitVec 32, w.toNat < 1048576 ∧ cc0_transform_6 k0_off1_inb numel1_S1 (tbl0 m) i = ![w.toNat, 0, 0] :=
      ⟨_, tbl0_lt m h _, rfl⟩
    exact ⟨fun a => by rw [e]; exact inb1 w hw a, Or.inl rfl⟩
  · obtain ⟨w, hw, e⟩ : ∃ w : BitVec 32, w.toNat < 1048576 ∧ cc0_transform_7 k0_off1_inb numel1_S1 (tbl0 m) i = ![w.toNat, 0, 0] :=
      ⟨_, tbl0_lt m h _, rfl⟩
    exact ⟨fun a => by rw [e]; exact inb1 w hw a, Or.inl rfl⟩

/-- The second call's side condition: its table-indexed window places its one-row block of 64 elements at the row the
    selected table names. -/
theorem ok1_of_pre (h : Pre0 m) : ok1 (F := F) (tbl1 m) := by
  intro i
  obtain ⟨w, hw, e⟩ : ∃ w : BitVec 32, w.toNat < 1048576 ∧ cc1_transform_2 k1_off1_inb numel1_S1 (tbl1 m) i = ![w.toNat, 0, 0] :=
    ⟨_, tbl1_lt m h _, rfl⟩
  exact ⟨fun a => by rw [e]; exact inb64 w hw a, Or.inl rfl⟩

/-- THE TABLES ARE ADMISSIBLE under the certificate's precondition (stated on every device; device 0's instance is the
    one the tables are read on). -/
theorem ok_of_pre
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    Cert.KernelIdeal.Run.Ok m :=
  ⟨ok0_of_pre m (h 0), ok1_of_pre m (h 0)⟩

end Cert.KernelIdeal.OkOfPre

end
-- ==== Proof.Bits.Scatter0.lean ====
/-
  The first scatter call, one grid point at a time. At point t the call reads one density value and one point count
  (the t-th entries of two length-65536 arrays, each staged as a 1×1×1 block) and leaves three 1×1×1 blocks to be
  written back at row flat[t] of three zero-filled arrays of 1048576 rows: the constant 1, the density value, and the
  point count. Nothing else is read or written; the table of row numbers is only read by the block index maps.
  Everything here is stated for ARBITRARY admissible contents `a` of the table and an arbitrary valuation `V` of the
  buffers at the call's entry.
-/
import proofs.«414779_j32066225832083_1_alg».proof.Proof.Gen.Kernel.Launch
import proofs.«414779_j32066225832083_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Scatter0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (a : (pcfg0 (F := F)).Adm)
variable (V : (c : Dev nD) → (b : Ref sig .tc) → Buf (Elt F) ((c : Thread nD τ).loc b))

/-- Window `w`'s block at point `t`, read off its array as the call finds it. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The one rectangle the body loads and stores through: the whole 1×1×1 block. -/
abbrev r1 : Rect S1x1x1 := Rect.unit (s := S1x1x1) ![0, 0, 0] S1x1x1.size inb_S1x1x1_S1x1x1_0_0_0

/-- The occupancy block after the body: the constant one. -/
def outOcc : Vec F S1x1x1 .f32 := View.canon [⟨r1, k0_pay1 (F := F)⟩]
/-- The density block after the body: the staged density value. -/
def outDen (x0 : Vec F S1x1x1 .f32) : Vec F S1x1x1 .f32 := View.canon [⟨r1, k0_pay2 (View.ld x0 r1)⟩]
/-- The point-count block after the body: the staged count. -/
def outPts (x1 : Vec F S1x1x1 .i32) : Vec F S1x1x1 .i32 := View.canon [⟨r1, k0_pay3 (F := F) (View.ld x1 r1)⟩]

/-- A single store through the whole block covers it. -/
theorem cover1 {e : EltTy} (p0 : Vec F S1x1x1 e) (y : S1x1x1.Idx) :
    ∃ pc ∈ ([⟨r1, p0⟩] : List (View.Piece (Elt F) S1x1x1 e)), y ∈ pc.1.set :=
  View.cover_of_tiled [⟨r1, p0⟩] S1x1x1.size (by rfl) y

set_option maxHeartbeats 1000000 in
/-- The body on whole staging buffers: the two inputs keep their contents, the three outputs end at `outOcc`,
    `outDen` of the density input and `outPts` of the count input; the table and the three zero arrays left in
    place are not touched. -/
theorem sound_kernel (c : Dev nD) (E : Set ℕ) (i : grid0.Coords)
    (arg1 : Memref sig .tc .smem S65536 .i32) (harg1 : arg1.IsWhole)
    (arg2 : Memref sig .tc .vmem S1x1x1 .f32) (harg2 : arg2.IsWhole) (arg3 : Memref sig .tc .vmem S1x1x1 .i32) (harg3 : arg3.IsWhole)
    (arg4 : Memref sig .tc .hbm S1048576x1x1 .f32) (harg4 : arg4.IsWhole) (arg5 : Memref sig .tc .hbm S1048576x1x1 .f32) (harg5 : arg5.IsWhole)
    (arg6 : Memref sig .tc .hbm S1048576x1x1 .i32) (harg6 : arg6.IsWhole)
    (arg7 : Memref sig .tc .vmem S1x1x1 .f32) (harg7 : arg7.IsWhole) (arg8 : Memref sig .tc .vmem S1x1x1 .f32) (harg8 : arg8.IsWhole)
    (arg9 : Memref sig .tc .vmem S1x1x1 .i32) (harg9 : arg9.IsWhole)
    (x0 : Vec F S1x1x1 .f32) (x1 : Vec F S1x1x1 .i32) (K : PUnit → sProp 𝕄) :
    iprop(owns (c : Thread nD τ) arg2 fullShare x0 ∗ owns (c : Thread nD τ) arg3 fullShare x1
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
            ∗ owns (c : Thread nD τ) arg7 fullShare (outOcc (F := F)) ∗ owns (c : Thread nD τ) arg8 fullShare (outDen x0)
            ∗ owns (c : Thread nD τ) arg9 fullShare (outPts x1)) -∗ K ⟨⟩))
      ⊢ wp frame (wpE (defs₀ (F := F)) Variants.none c none) E
          (cc0__meta_scatter_kernel i arg1 harg1 arg2 harg2 arg3 harg3 arg4 harg4 arg5 harg5 arg6 harg6 arg7 harg7 arg8 harg8 arg9 harg9) K := by
  simp only [cc0__meta_scatter_kernel_eq_skeleton]; unfold cc0__meta_scatter_kernel_skel
  unfold owns
  iintro ⟨⟨%f0, %hf0, H0⟩, ⟨%f1, %hf1, H1⟩, ⟨%d7, %f7, -, H7⟩, ⟨%d8, %f8, -, H8⟩, ⟨%d9, %f9, -, H9⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H7]
  · iexists _; isplitr
    swap; · iexact H7
    ipureintro
    exact View.read_writes_eq_canon _ _ _ (cover1 _)
  isplitl [H8]
  · iexists _; isplitr
    swap; · iexact H8
    ipureintro
    exact View.read_writes_eq_canon _ _ _ (cover1 _)
  · iexists _; isplitr
    swap; · iexact H9
    ipureintro
    exact View.read_writes_eq_canon _ _ _ (cover1 _)

/-! ## The proof data -/

/-- The call's proof data on core `c`: the five windowed arrays as the call finds them; after the body at point `t`
    the two inputs' buffers at their blocks and the three outputs' at the constant one, the density block and the
    count block; the invariant carries the scratch the call does not use, the generator register and the whole
    table (the body never reads it); nothing owed; full shares. -/
def dat (c : Dev nD) : Dat τ (Elt F) Unit ℕ (UR sig nD τ) ℕ (cfg0 a) c where
  A w := V c (Pipeline.arrRef spec0 w)
  after w t := match w with
    | ⟨0, _⟩ => iblk a V c 0 t
    | ⟨1, _⟩ => iblk a V c 1 t
    | ⟨2, _⟩ => outOcc (F := F)
    | ⟨3, _⟩ => outDen (iblk a V c 0 t)
    | ⟨4, _⟩ => outPts (iblk a V c 1 t)
  Φ _ := iprop(Pipeline.ΦA spec0 c ∗ Pipeline.prefHeld (Ix := Unit) (Name := ℕ) (U := UR sig nD τ) (Lvl := ℕ) pre0 c (fun _ => fullShare) a.1)
  q _ := fullShare
  owed _ := 0

theorem A_eq (c : Dev nD) (w : Fin (cfg0 a).W) : (dat a V c).A w = V c (Pipeline.arrRef spec0 w) := by
  dsimp only [dat]

theorem after_0 (c : Dev nD) (t : Fin (cfg0 a).N) : (dat a V c).after 0 t = iblk a V c 0 t := by dsimp only [dat]; rfl
theorem after_1 (c : Dev nD) (t : Fin (cfg0 a).N) : (dat a V c).after 1 t = iblk a V c 1 t := by dsimp only [dat]; rfl
theorem after_2 (c : Dev nD) (t : Fin (cfg0 a).N) : (dat a V c).after 2 t = outOcc (F := F) := by dsimp only [dat]; rfl
theorem after_3 (c : Dev nD) (t : Fin (cfg0 a).N) : (dat a V c).after 3 t = outDen (iblk a V c 0 t) := by dsimp only [dat]; rfl
theorem after_4 (c : Dev nD) (t : Fin (cfg0 a).N) : (dat a V c).after 4 t = outPts (iblk a V c 1 t) := by dsimp only [dat]; rfl

/-- The density input's current buffer holds its block at every point: the block index is the point itself, so the
    block is fetched afresh at every point. -/
theorem before_0 (c : Dev nD) (t : Fin (cfg0 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- The same for the point-count input. -/
theorem before_1 (c : Dev nD) (t : Fin (cfg0 a).N) (d) : (dat a V c).before 1 t d = iblk a V c 1 t :=
  ((dat a V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body obligation -/

/-- The current staging buffer of each window at point `t`. -/
abbrev st0 (t : Fin (cfg0 a).N) := spec0_0.stage ((cfg0 a).slots t 0)
abbrev st1 (t : Fin (cfg0 a).N) := spec0_1.stage ((cfg0 a).slots t 1)
abbrev st2 (t : Fin (cfg0 a).N) := spec0_2.stage ((cfg0 a).slots t 2)
abbrev st3 (t : Fin (cfg0 a).N) := spec0_3.stage ((cfg0 a).slots t 3)
abbrev st4 (t : Fin (cfg0 a).N) := spec0_4.stage ((cfg0 a).slots t 4)

/-- The body as the pipeline calls it at point `t`. -/
abbrev bodyAt (t : Fin (cfg0 a).N) : Prog (TpuEff nD τ sig (Elt F) Λ₀ .tc) PUnit :=
  cc0__meta_scatter_kernel (grid0.coords t) (Memref.whole main_v14) (Memref.isWhole_whole _)
    (st0 a t) (hstage0_0 (((cfg0 a).slots t 0).cast nbuf0_0)) (st1 a t) (hstage0_1 (((cfg0 a).slots t 1).cast nbuf0_1))
    (Memref.whole main_v32) (Memref.isWhole_whole _) (Memref.whole main_v33) (Memref.isWhole_whole _) (Memref.whole main_v34) (Memref.isWhole_whole _)
    (st2 a t) (hstage0_2 (((cfg0 a).slots t 2).cast nbuf0_2)) (st3 a t) (hstage0_3 (((cfg0 a).slots t 3).cast nbuf0_3))
    (st4 a t) (hstage0_4 (((cfg0 a).slots t 4).cast nbuf0_4))

def bodyPre (c : Dev nD) (t : Fin (cfg0 a).N) : sProp 𝕄 :=
  iprop((dat a V c).Φ t.castSucc ∗ (dat a V c).owesAt () t.castSucc
    ∗ (∃ d, owns (c : Thread nD τ) (st0 a t) fullShare ((dat a V c).before 0 t d))
    ∗ (∃ d, owns (c : Thread nD τ) (st1 a t) fullShare ((dat a V c).before 1 t d))
    ∗ (∃ d, owns (c : Thread nD τ) (st2 a t) fullShare ((dat a V c).before 2 t d))
    ∗ (∃ d, owns (c : Thread nD τ) (st3 a t) fullShare ((dat a V c).before 3 t d))
    ∗ (∃ d, owns (c : Thread nD τ) (st4 a t) fullShare ((dat a V c).before 4 t d)))

def bodyPost (c : Dev nD) (t : Fin (cfg0 a).N) : sProp 𝕄 :=
  iprop((dat a V c).Φ t.succ ∗ (dat a V c).owesAt () t.succ
    ∗ owns (c : Thread nD τ) (st0 a t) fullShare ((dat a V c).after 0 t)
    ∗ owns (c : Thread nD τ) (st1 a t) fullShare ((dat a V c).after 1 t)
    ∗ owns (c : Thread nD τ) (st2 a t) fullShare ((dat a V c).after 2 t)
    ∗ owns (c : Thread nD τ) (st3 a t) fullShare ((dat a V c).after 3 t)
    ∗ owns (c : Thread nD τ) (st4 a t) fullShare ((dat a V c).after 4 t))

/-- The body at any point: the inputs' buffers hold their blocks, so the body's triple applies; the invariant and the
    core's dues pass through unread. -/
theorem sound_body (c : Dev nD) (t : Fin (cfg0 a).N) :
    bodyPre a V c t ⊢ wp frame (wpE (defs₀ (F := F)) Variants.none c none) Set.univ (bodyAt a t) (fun _ => bodyPost a V c t) := by
  unfold bodyPre bodyPost bodyAt
  simp only [before_0, before_1]
  rw [show (dat a V c).Φ t.succ = (dat a V c).Φ t.castSucc from rfl,
    show (dat a V c).owesAt () t.succ = (dat a V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ _ _ _ _ _ _ _ _ (iblk a V c 0 t) (iblk a V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) a V c) (defs₀ (F := F)) Variants.none () Set.univ := fun t => by
  rw [bigSep_W0, bigSep_W0]
  exact sound_body a V c t

end

end Cert.Kernel.Scatter0

end
-- ==== Proof.Bits.Scatter1.lean ====
/-
  The second scatter call, one grid point at a time. At point t the call reads one row of 64 features (row t of a
  19660×1×64 array, staged as a 1×1×64 block) and leaves that same row to be written back at row sel[t] of a
  zero-filled array of 1048576 rows. The table of row numbers is only read by the output's block index map.
  Everything here is stated for ARBITRARY admissible contents `a` of the table and an arbitrary valuation `V` of the
  buffers at the call's entry.
-/
import proofs.«414779_j32066225832083_1_alg».proof.Proof.Gen.Kernel.Launch
import proofs.«414779_j32066225832083_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Scatter1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (a : (pcfg1 (F := F)).Adm)
variable (V : (c : Dev nD) → (b : Ref sig .tc) → Buf (Elt F) ((c : Thread nD τ).loc b))

/-- Window `w`'s block at point `t`, read off its array as the call finds it. -/
def iblk (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The one rectangle the body loads and stores through: the whole 1×1×64 block. -/
abbrev r64 : Rect S1x1x64 := Rect.unit (s := S1x1x64) ![0, 0, 0] S1x1x64.size inb_S1x1x64_S1x1x64_0_0_0

/-- The output block after the body: the staged feature row. -/
def outRow (x0 : Vec F S1x1x64 .f32) : Vec F S1x1x64 .f32 := View.canon [⟨r64, k1_pay1 (View.ld x0 r64)⟩]

/-- A single store through the whole block covers it. -/
theorem cover64 (p0 : Vec F S1x1x64 .f32) (y : S1x1x64.Idx) :
    ∃ pc ∈ ([⟨r64, p0⟩] : List (View.Piece (Elt F) S1x1x64 .f32)), y ∈ pc.1.set :=
  View.cover_of_tiled [⟨r64, p0⟩] S1x1x64.size (by rfl) y

set_option maxHeartbeats 1000000 in
/-- The body on whole staging buffers: the input keeps its contents, the output ends at `outRow` of the input; the
    table and the zero array left in place are not touched. -/
theorem sound_kernel (c : Dev nD) (E : Set ℕ) (i : grid1.Coords)
    (arg1 : Memref sig .tc .smem S19660 .i32) (harg1 : arg1.IsWhole)
    (arg2 : Memref sig .tc .vmem S1x1x64 .f32) (harg2 : arg2.IsWhole)
    (arg3 : Memref sig .tc .hbm S1048576x1x64 .f32) (harg3 : arg3.IsWhole)
    (arg4 : Memref sig .tc .vmem S1x1x64 .f32) (harg4 : arg4.IsWhole)
    (x0 : Vec F S1x1x64 .f32) (K : PUnit → sProp 𝕄) :
    iprop(owns (c : Thread nD τ) arg2 fullShare x0 ∗ (∃ d, owns (c : Thread nD τ) arg4 fullShare d)
        ∗ (iprop(owns (c : Thread nD τ) arg2 fullShare x0 ∗ owns (c : Thread nD τ) arg4 fullShare (outRow x0)) -∗ K ⟨⟩))
      ⊢ wp frame (wpE (defs₀ (F := F)) Variants.none c none) E
          (cc1__feature_scatter_kernel i arg1 harg1 arg2 harg2 arg3 harg3 arg4 harg4) K := by
  simp only [cc1__feature_scatter_kernel_eq_skeleton]; unfold cc1__feature_scatter_kernel_skel
  unfold owns
  iintro ⟨⟨%f0, %hf0, H0⟩, ⟨%d4, %f4, -, H4⟩, Hk⟩
  subst hf0
  sl_exec
  sl_step
  iapply Hk
  isplitl [H0]
  · iexists f0; isplitr; · ipureintro; rfl
    iexact H0
  · iexists _; isplitr
    swap; · iexact H4
    ipureintro
    exact View.read_writes_eq_canon _ _ _ (cover64 _)

/-! ## The proof data -/

/-- The call's proof data on core `c`: the two windowed arrays as the call finds them; after the body at point `t`
    the input's buffer at its block and the output's at that same row; the invariant carries the scratch the call
    does not use, the generator register and the whole table; nothing owed; full shares. -/
def dat (c : Dev nD) : Dat τ (Elt F) Unit ℕ (UR sig nD τ) ℕ (cfg1 a) c where
  A w := V c (Pipeline.arrRef spec1 w)
  after w t := match w with
    | ⟨0, _⟩ => iblk a V c 0 t
    | ⟨1, _⟩ => outRow (iblk a V c 0 t)
  Φ _ := iprop(Pipeline.ΦA spec1 c ∗ Pipeline.prefHeld (Ix := Unit) (Name := ℕ) (U := UR sig nD τ) (Lvl := ℕ) pre1 c (fun _ => fullShare) a.1)
  q _ := fullShare
  owed _ := 0

theorem A_eq (c : Dev nD) (w : Fin (cfg1 a).W) : (dat a V c).A w = V c (Pipeline.arrRef spec1 w) := by
  dsimp only [dat]

theorem after_0 (c : Dev nD) (t : Fin (cfg1 a).N) : (dat a V c).after 0 t = iblk a V c 0 t := by dsimp only [dat]; rfl
theorem after_1 (c : Dev nD) (t : Fin (cfg1 a).N) : (dat a V c).after 1 t = outRow (iblk a V c 0 t) := by dsimp only [dat]; rfl

/-- The input's current buffer holds its block at every point: the block index is the point itself. -/
theorem before_0 (c : Dev nD) (t : Fin (cfg1 a).N) (d) : (dat a V c).before 0 t d = iblk a V c 0 t :=
  ((dat a V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-! ## The body obligation -/

abbrev st0 (t : Fin (cfg1 a).N) := spec1_0.stage ((cfg1 a).slots t 0)
abbrev st1 (t : Fin (cfg1 a).N) := spec1_1.stage ((cfg1 a).slots t 1)

/-- The body as the pipeline calls it at point `t`. -/
abbrev bodyAt (t : Fin (cfg1 a).N) : Prog (TpuEff nD τ sig (Elt F) Λ₀ .tc) PUnit :=
  cc1__feature_scatter_kernel (grid1.coords t) (Memref.whole main_v21) (Memref.isWhole_whole _)
    (st0 a t) (hstage1_0 (((cfg1 a).slots t 0).cast nbuf1_0))
    (Memref.whole main_v38) (Memref.isWhole_whole _)
    (st1 a t) (hstage1_1 (((cfg1 a).slots t 1).cast nbuf1_1))

def bodyPre (c : Dev nD) (t : Fin (cfg1 a).N) : sProp 𝕄 :=
  iprop((dat a V c).Φ t.castSucc ∗ (dat a V c).owesAt () t.castSucc
    ∗ (∃ d, owns (c : Thread nD τ) (st0 a t) fullShare ((dat a V c).before 0 t d))
    ∗ (∃ d, owns (c : Thread nD τ) (st1 a t) fullShare ((dat a V c).before 1 t d)))

def bodyPost (c : Dev nD) (t : Fin (cfg1 a).N) : sProp 𝕄 :=
  iprop((dat a V c).Φ t.succ ∗ (dat a V c).owesAt () t.succ
    ∗ owns (c : Thread nD τ) (st0 a t) fullShare ((dat a V c).after 0 t)
    ∗ owns (c : Thread nD τ) (st1 a t) fullShare ((dat a V c).after 1 t))

theorem sound_body (c : Dev nD) (t : Fin (cfg1 a).N) :
    bodyPre a V c t ⊢ wp frame (wpE (defs₀ (F := F)) Variants.none c none) Set.univ (bodyAt a t) (fun _ => bodyPost a V c t) := by
  unfold bodyPre bodyPost bodyAt
  simp only [before_0]
  rw [show (dat a V c).Φ t.succ = (dat a V c).Φ t.castSucc from rfl,
    show (dat a V c).owesAt () t.succ = (dat a V c).owesAt () t.castSucc from rfl,
    after_0, after_1]
  iintro ⟨HΦ, Ho, ⟨%d0, H0⟩, ⟨%d1, H1⟩⟩
  iapply (sound_kernel c Set.univ _ _ _ _ _ _ _ _ _ (iblk a V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) a V c) (defs₀ (F := F)) Variants.none () Set.univ := fun t => by
  rw [bigSep_W1, bigSep_W1]
  exact sound_body a V c t

end

end Cert.Kernel.Scatter1

end
-- ==== Proof.Bits.KRun.lean ====
/-
  The whole kernel program as a run. Its @main is: a stretch of host operations (the flat row numbers, the two
  gathers, the density values, three zero arrays), the first scatter call, a second stretch (one more zero array),
  the second scatter call, and a last stretch (reshapes and one transpose). The buffers' contents are followed through
  these five items as a fold from the launch memory; each scatter call changes only its output arrays, to what its
  write-backs leave. The run holds whenever the two tables of row numbers keep every table-indexed block inside its
  array (`Ok`); its post names the contents of EVERY buffer that outlives the calls.
-/
import proofs.«414779_j32066225832083_1_alg».proof.Proof.Bits.Scatter0
import proofs.«414779_j32066225832083_1_alg».proof.Proof.Bits.Scatter1
import proofs.«414779_j32066225832083_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents up to the first call, and the tables -/

/-- Core `c`'s buffers at launch. -/
abbrev W0 : Dev nD → Valuation τ sig (Elt F) := fun c b => m (c, b)
/-- After the first host stretch (the first call's entry). -/
abbrev W1 : Dev nD → Valuation τ sig (Elt F) := fun c => StableHlo.after hostOps0 (W0 m c)
/-- The same read at the TensorCore's references. -/
abbrev Vin0 : (c : Dev nD) → (b : Ref sig .tc) → Buf (Elt F) ((c : Thread nD τ).loc b) := fun c b => W1 m c b

/-- The first call's table: the flat row numbers, as the first host stretch leaves them (one device: device 0's). -/
def tbl0 : pre0.Contents (Elt F) := fun k => Vin0 m (0 : Dev nD) (pre0.ref k)
/-- The second call's table: the selected row numbers, computed by the same stretch. -/
def tbl1 : pre1.Contents (Elt F) := fun k => Vin0 m (0 : Dev nD) (pre1.ref k)

theorem Vin0_pre0 (c : Dev nD) (k : Fin 1) : Vin0 m c (pre0.ref k) = tbl0 m k := by
  obtain rfl : c = 0 := Subsingleton.elim _ _; rfl
theorem Vin0_pre1 (c : Dev nD) (k : Fin 1) : Vin0 m c (pre1.ref k) = tbl1 m k := by
  obtain rfl : c = 0 := Subsingleton.elim _ _; rfl

/-- Both tables keep every table-indexed block inside its array. -/
structure Ok : Prop where
  h0 : ok0 (F := F) (tbl0 m)
  h1 : ok1 (F := F) (tbl1 m)

variable (hO : Ok m)

abbrev a0 : (pcfg0 (F := F)).Adm := ⟨tbl0 m, hO.h0⟩
abbrev a1 : (pcfg1 (F := F)).Adm := ⟨tbl1 m, hO.h1⟩
/-- The tables as admissible contents, call by call. -/
abbrev adm : (p : Fin 2) → (pcfgs (F := F) p).Adm
  | ⟨0, _⟩ => a0 m hO
  | ⟨1, _⟩ => a1 m hO

/-! ## The fold through the two calls -/

/-- At the first call's exit: its arrays at what its write-backs leave, every other buffer as entered. -/
def W2 (c : Dev nD) : Valuation τ sig (Elt F) :=
  Pipeline.withArrays spec0 c (W1 m c) fun w => (Scatter0.dat (a0 m hO) (Vin0 m) c).arrAt w (cfg0 (a0 m hO)).N
theorem W2_arr (c : Dev nD) (w : Fin 5) :
    W2 m hO c (Proc.devRef .tc (Pipeline.arrRef spec0 w)) = (Scatter0.dat (a0 m hO) (Vin0 m) c).arrAt w (cfg0 (a0 m hO)).N := by
  unfold W2; exact Pipeline.withArrays_arr spec0 winFacts0.arr_inj c _ _ w
theorem W2_of_ne (c : Dev nD) (b : Ref sig .tc) (hb : ∀ w, Pipeline.arrRef spec0 w ≠ b) :
    W2 m hO c (Proc.devRef .tc b) = W1 m c (Proc.devRef .tc b) := by
  unfold W2; exact Pipeline.withArrays_of_ne spec0 c _ _ b hb
abbrev Vout0 : (c : Dev nD) → (b : Ref sig .tc) → Buf (Elt F) ((c : Thread nD τ).loc b) := fun c b => W2 m hO c b
theorem hF0 (c : Dev nD) (w : Fin 5) : (Scatter0.dat (a0 m hO) (Vin0 m) c).arrAt w (cfg0 (a0 m hO)).N = Vout0 m hO c (Pipeline.arrRef spec0 w) :=
  (W2_arr m hO c w).symm
theorem hrest0 (c : Dev nD) : ∀ b, b ∉ Finset.univ.image (Pipeline.arrRef spec0) → Vout0 m hO c b = Vin0 m c b :=
  fun b hb => W2_of_ne m hO c b fun w e => hb (Finset.mem_image.mpr ⟨w, Finset.mem_univ _, e⟩)

/-- After the second host stretch (the second call's entry). -/
abbrev W3 : Dev nD → Valuation τ sig (Elt F) := fun c => StableHlo.after hostOps1 (W2 m hO c)
abbrev Vin1 : (c : Dev nD) → (b : Ref sig .tc) → Buf (Elt F) ((c : Thread nD τ).loc b) := fun c b => W3 m hO c b

/-- At the second call's exit. -/
def W4 (c : Dev nD) : Valuation τ sig (Elt F) :=
  Pipeline.withArrays spec1 c (W3 m hO c) fun w => (Scatter1.dat (a1 m hO) (Vin1 m hO) c).arrAt w (cfg1 (a1 m hO)).N
theorem W4_arr (c : Dev nD) (w : Fin 2) :
    W4 m hO c (Proc.devRef .tc (Pipeline.arrRef spec1 w)) = (Scatter1.dat (a1 m hO) (Vin1 m hO) c).arrAt w (cfg1 (a1 m hO)).N := by
  unfold W4; exact Pipeline.withArrays_arr spec1 winFacts1.arr_inj c _ _ w
theorem W4_of_ne (c : Dev nD) (b : Ref sig .tc) (hb : ∀ w, Pipeline.arrRef spec1 w ≠ b) :
    W4 m hO c (Proc.devRef .tc b) = W3 m hO c (Proc.devRef .tc b) := by
  unfold W4; exact Pipeline.withArrays_of_ne spec1 c _ _ b hb
abbrev Vout1 : (c : Dev nD) → (b : Ref sig .tc) → Buf (Elt F) ((c : Thread nD τ).loc b) := fun c b => W4 m hO c b
theorem hF1 (c : Dev nD) (w : Fin 2) : (Scatter1.dat (a1 m hO) (Vin1 m hO) c).arrAt w (cfg1 (a1 m hO)).N = Vout1 m hO c (Pipeline.arrRef spec1 w) :=
  (W4_arr m hO c w).symm
theorem hrest1 (c : Dev nD) : ∀ b, b ∉ Finset.univ.image (Pipeline.arrRef spec1) → Vout1 m hO c b = Vin1 m hO c b :=
  fun b hb => W4_of_ne m hO c b fun w e => hb (Finset.mem_image.mpr ⟨w, Finset.mem_univ _, e⟩)

/-- After the last host stretch: the program's end. -/
abbrev W5 : Dev nD → Valuation τ sig (Elt F) := fun c => StableHlo.after hostOps2 (W4 m hO c)

/-- The second call's table is still what the first stretch computed: neither the first call nor the second stretch
    writes it. -/
theorem Vin1_pre1 (c : Dev nD) (k : Fin 1) : Vin1 m hO c (pre1.ref k) = tbl1 m k := by
  rw [← Vin0_pre1 m c k]
  show StableHlo.after hostOps1 (W2 m hO c) (Proc.devRef .tc (pre1.ref k)) = W1 m c (Proc.devRef .tc (pre1.ref k))
  rw [StableHlo.after_of_writes_sub hostOps1 _ hostOps1_writes (by fin_cases k; decide)]
  exact W2_of_ne m hO c _ (by fin_cases k; decide)

/-! ## The proof data family and the thread state -/

/-- Each call's proof data at its own entry contents and table. -/
def pdats : (p : Fin 2) → (c : Dev nD) → Dat τ (Elt F) Unit ℕ (UR sig nD τ) ℕ (Pipeline.pin (pcfgs (F := F)) (adm m hO) p) c
  | ⟨0, _⟩ => fun c => Scatter0.dat (a0 m hO) (Vin0 m) c
  | ⟨1, _⟩ => fun c => Scatter1.dat (a1 m hO) (Vin1 m hO) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every buffer that outlives the calls at the program's end contents. -/
abbrev Tₙ (c : Dev nD) : sProp 𝕄 := iprop(StableHlo.held (c : Thread nD τ) (Pipeline.ucRefs τ sig) (W5 m hO c) ∗ ∃ r, prngReg c r)

/-! ## The two calls as segments -/

set_option backward.isDefEq.respectTransparency.types false in
/-- The first call: entered from every outliving buffer at `W1`, left at `W2`. Its arrays and its table are split
    out of those buffers at entry; the table rides through the call inside the invariant and comes back whole. -/
def reg0 : Pipeline.RegionSeg (pcfgs (F := F)) (adm m hO) (pdats m hO) () defs₀ 𝒱₀ L lv 0 where
  win := winFacts0.to₀
  block_pos := block_pos0
  stage_whole := stage_whole0
  K := PEmpty
  osem k := k.elim
  ho := Pipeline.OwnSemFacts.none _
  hbody c := (Scatter0.body_obligation (a0 m hO) (Vin0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m hO c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl0 m))
  Z c := Pipeline.unscopedRestP (Ix := Unit) (Name := ℕ) (U := UR sig nD τ) (Lvl := ℕ) pre0 spec0 c (Vin0 m c)
  hentry c := by
    rw [Pipeline.ownSems0_none]
    have hsplit := Pipeline.arrays_of_unscopedBufs (p := 0) (pcfgs (F := F)) (adm m hO) (pdats m hO) winFacts0 arr_whole0 c
      ((pdats m hO 0 c).share_full fun _ => rfl) (Vin0 m c) fun _ => rfl
    have hs : (Pipeline.unscopedRest (Ix := Unit) (Name := ℕ) (U := UR sig nD τ) (Lvl := ℕ) (Pipeline.pin (pcfgs (F := F)) (adm m hO) 0).spec c (Vin0 m c) : sProp 𝕄)
        = iprop(Pipeline.prefHeld pre0 c (fun _ => fullShare) (tbl0 m) ∗ Pipeline.unscopedRestP pre0 spec0 c (Vin0 m c)) := by
      rw [← show (fun k => Vin0 m c (pre0.ref k)) = tbl0 m from funext (Vin0_pre0 m c)]
      exact Pipeline.unscopedRest_split preFacts0 c (Vin0 m c)
    rw [Pipeline.unscopedBufs_held, hs] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 0 c).Φ 0 = iprop(Pipeline.ΦA spec0 c ∗ Pipeline.prefHeld pre0 c (fun _ => fullShare) (tbl0 m)) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m hO 0 c).Φ (Fin.last _) = iprop(Pipeline.ΦA spec0 c ∗ Pipeline.prefHeld pre0 c (fun _ => fullShare) (tbl0 m)) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m hO) (Ix := Unit) (Name := ℕ) (U := UR sig nD τ) (Lvl := ℕ)
      winFacts0 arr_whole0 c (pdats m hO) ((pdats m hO 0 c).share_full fun _ => rfl)
      (Vin0 m c) (Vout0 m hO c) ((pdats m hO 0 c).arrAt · (cfg0 (a0 m hO)).N) (hF0 m hO c) (hrest0 m hO c)
    have hs : (Pipeline.unscopedRest (Ix := Unit) (Name := ℕ) (U := UR sig nD τ) (Lvl := ℕ) (Pipeline.pin (pcfgs (F := F)) (adm m hO) 0).spec c (Vin0 m c) : sProp 𝕄)
        = iprop(Pipeline.prefHeld pre0 c (fun _ => fullShare) (tbl0 m) ∗ Pipeline.unscopedRestP pre0 spec0 c (Vin0 m c)) := by
      rw [← show (fun k => Vin0 m c (pre0.ref k)) = tbl0 m from funext (Vin0_pre0 m c)]
      exact Pipeline.unscopedRest_split preFacts0 c (Vin0 m c)
    rw [Pipeline.unscopedBufs_held, hs] at hjoin
    iintro ⟨Ha, HO, ⟨HY, Ht⟩, Hrest⟩
    imodintro
    isplitl [Ha Hrest Ht]
    · iapply hjoin; isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- The second call: entered from every outliving buffer at `W3`, left at `W4`; its table rides through the call
    inside the invariant as the first call's does. -/
def reg1 : Pipeline.RegionSeg (pcfgs (F := F)) (adm m hO) (pdats m hO) () defs₀ 𝒱₀ L lv 1 where
  win := winFacts1.to₀
  block_pos := block_pos1
  stage_whole := stage_whole1
  K := PEmpty
  osem k := k.elim
  ho := Pipeline.OwnSemFacts.none _
  hbody c := (Scatter1.body_obligation (a1 m hO) (Vin1 m hO) c).loose
  hwaits := Pipeline.hwaits_of_owed_zero _ _ _ _ L lv 1 fun _ _ => rfl
  pre c := iprop(StableHlo.held (c : Thread nD τ) (Pipeline.ucRefs τ sig) (W3 m hO c) ∗ R c)
  post c := iprop(StableHlo.held (c : Thread nD τ) (Pipeline.ucRefs τ sig) (W4 m hO c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tbl1 m))
  Z c := Pipeline.unscopedRestP (Ix := Unit) (Name := ℕ) (U := UR sig nD τ) (Lvl := ℕ) pre1 spec1 c (Vin1 m hO c)
  hentry c := by
    rw [Pipeline.ownSems0_none]
    have hsplit := Pipeline.arrays_of_unscopedBufs (p := 1) (pcfgs (F := F)) (adm m hO) (pdats m hO) winFacts1 arr_whole1 c
      ((pdats m hO 1 c).share_full fun _ => rfl) (Vin1 m hO c) fun _ => rfl
    have hs : (Pipeline.unscopedRest (Ix := Unit) (Name := ℕ) (U := UR sig nD τ) (Lvl := ℕ) (Pipeline.pin (pcfgs (F := F)) (adm m hO) 1).spec c (Vin1 m hO c) : sProp 𝕄)
        = iprop(Pipeline.prefHeld pre1 c (fun _ => fullShare) (tbl1 m) ∗ Pipeline.unscopedRestP pre1 spec1 c (Vin1 m hO c)) := by
      rw [← show (fun k => Vin1 m hO c (pre1.ref k)) = tbl1 m from funext (Vin1_pre1 m hO c)]
      exact Pipeline.unscopedRest_split preFacts1 c (Vin1 m hO c)
    rw [Pipeline.unscopedBufs_held, hs] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 1 c).Φ 0 = iprop(Pipeline.ΦA spec1 c ∗ Pipeline.prefHeld pre1 c (fun _ => fullShare) (tbl1 m)) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m hO 1 c).Φ (Fin.last _) = iprop(Pipeline.ΦA spec1 c ∗ Pipeline.prefHeld pre1 c (fun _ => fullShare) (tbl1 m)) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m hO) (Ix := Unit) (Name := ℕ) (U := UR sig nD τ) (Lvl := ℕ)
      winFacts1 arr_whole1 c (pdats m hO) ((pdats m hO 1 c).share_full fun _ => rfl)
      (Vin1 m hO c) (Vout1 m hO c) ((pdats m hO 1 c).arrAt · (cfg1 (a1 m hO)).N) (hF1 m hO c) (hrest1 m hO c)
    have hs : (Pipeline.unscopedRest (Ix := Unit) (Name := ℕ) (U := UR sig nD τ) (Lvl := ℕ) (Pipeline.pin (pcfgs (F := F)) (adm m hO) 1).spec c (Vin1 m hO c) : sProp 𝕄)
        = iprop(Pipeline.prefHeld pre1 c (fun _ => fullShare) (tbl1 m) ∗ Pipeline.unscopedRestP pre1 spec1 c (Vin1 m hO c)) := by
      rw [← show (fun k => Vin1 m hO c (pre1.ref k)) = tbl1 m from funext (Vin1_pre1 m hO c)]
      exact Pipeline.unscopedRest_split preFacts1 c (Vin1 m hO c)
    rw [Pipeline.unscopedBufs_held, hs] at hjoin
    iintro ⟨Ha, HO, ⟨HY, Ht⟩, Hrest⟩
    imodintro
    isplitl [Ha Hrest Ht]
    · iapply hjoin; isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) (adm m hO) (pdats m hO) () defs₀ 𝒱₀ L lv) :=
  [ .host (hseg hostOps0 hostOps0_sub hostOps0_fresh (W0 m)),
    .region (reg0 m hO),
    .host (hseg hostOps1 hostOps1_sub hostOps1_fresh (W2 m hO)),
    .region (reg1 m hO),
    .host (hseg hostOps2 hostOps2_sub hostOps2_fresh (W4 m hO)) ]
theorem main_run (c : Dev nD) : main (F := F) c = Pipeline.Seg.run (segs m hO) := (main_chain c).trans (by chain_rfl)

set_option backward.isDefEq.respectTransparency.types false in
/-- THE RUN. When both tables keep their blocks inside the arrays, every weakly fair execution of @main from memory
    `m` with zero counters terminates, nothing faulting, and every buffer that outlives the calls ends at the fold's
    last contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m hO c b) :=
  Pipeline.θ_run_regions_kit (pcfgs (F := F)) (adm m hO) (pdats m hO) () (cellOf_inj (adm m hO)) emb₁ defs₀ 𝒱₀ L lv m ρ main (segs m hO)
    (fun c Q => by rw [main_run m hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hO)
    (hch := ⟨fun _ => .rfl, fun _ => .rfl, fun _ => .rfl, fun _ => .rfl, fun _ => .rfl, fun c => by
      show iprop(StableHlo.held (c : Thread nD τ) (Pipeline.ucRefs τ sig) (W5 m hO c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m hO c b)
    (hfin := fun c s' => by
      iintro ⟨⟨Hh, -⟩, HSI⟩
      unfold StableHlo.held
      imodintro
      iapply (pointsTo_read_all (Pipeline.ucRefs τ sig) (fun b => (((c : Thread nD τ)).1, b)) (W5 m hO c) s')
      isplitl [Hh] <;> iassumption)
    (hQ := fun s h => h)

end Cert.Kernel.Run

end
-- ==== Proof.Bits.KHost.lean ====
import proofs.«414779_j32066225832083_1_alg».proof.Proof.Gen.Kernel.Regions
import Idealize.ShloMosaic.Lib.StableHlo.Run

noncomputable section

namespace Cert.Kernel.HostVal

open Cert.Kernel Cert.Kernel.Gen Idealize.ShloMosaic Idealize.ShloMosaic.TcCoe Idealize.SL.Sem Idealize.ShloMosaic.StableHlo

variable {F : FTy → Type} [FloatOps F]

/-! # What the three host stretches of the kernel program compute

The kernel program runs three stretches of plain array operations on the host side of its two
pipelined regions. Each buffer such a stretch writes holds, afterwards, a fixed composition of pure
array functions applied to the buffers the stretch reads. This file names those compositions and
proves, for an ARBITRARY valuation of the buffers before the stretch, that each written buffer ends
holding its composition and each unwritten buffer keeps its contents.

* The first stretch turns the four integer columns `(b, x, y, z)` of the voxel table into the flat
  cell number `b·262144 + x + y·512 + z` (`flatK`), wraps negative sample numbers around by the
  table's length 65536 (`selK`), looks the samples up in the flat numbers (`flatSelK`) and in the feature
  rows (`featSelK`), divides the integer counts by 32 as floats (`densK`), and fills three
  accumulators with zeros.
* The second stretch views the looked-up feature rows as a three-axis array and fills a fourth
  accumulator with zeros.
* The third stretch views the accumulators as `4 × 512 × 512` grids, the feature accumulator after
  exchanging its last two axes as a `4 × 64 × 512 × 512` grid. -/

/-- The contents of the TensorCore buffer `b` in the valuation `V`. -/
local notation:max V "⟦" b "⟧" => V (Proc.devRef Proc.tc b)

/-! ## The compositions, as functions of arrays -/

/-- The flat cell number of every voxel row: column 0 times 262144, plus column 1, plus column 2
    times 512, plus column 3 (all in 32-bit wrap-around arithmetic). -/
def flatK (a1 : IVec S65536x4 32) : IVec S65536 32 :=
  addi
    (addi
      (addi
        (muli
          (shapeCast _ (extractStridedSlice S65536x1 ![0, 0] a1 slices_S65536x4_S65536x1_0_0) shapeCasts_S65536x1_S65536)
          (broadcastInDim S65536 ![] bcast_S_S65536 (constantI S_ 32 262144#32)))
        (shapeCast _ (extractStridedSlice S65536x1 ![0, 1] a1 slices_S65536x4_S65536x1_0_1) shapeCasts_S65536x1_S65536))
      (muli
        (shapeCast _ (extractStridedSlice S65536x1 ![0, 2] a1 slices_S65536x4_S65536x1_0_2) shapeCasts_S65536x1_S65536)
        (broadcastInDim S65536 ![] bcast_S_S65536 (constantI S_ 32 512#32))))
    (shapeCast _ (extractStridedSlice S65536x1 ![0, 3] a1 slices_S65536x4_S65536x1_0_3) shapeCasts_S65536x1_S65536)

/-- The sample numbers made non-negative (a negative one has the table's length 65536 added), as a
    one-column index array. -/
def selK (a3 : IVec S19660 32) : IVec S19660x1 32 :=
  broadcastInDim S19660x1 ![0] bcast_S19660_S19660x1_0
    (select (cmpi .slt a3 (broadcastInDim S19660 ![] bcast_S_S19660 (constantI S_ 32 0#32)))
      (addi a3 (broadcastInDim S19660 ![] bcast_S_S19660 (constantI S_ 32 65536#32))) a3)

/-- The flat cell numbers of the sampled voxel rows. -/
def flatSelK (a1 : IVec S65536x4 32) (a3 : IVec S19660 32) : IVec S19660 32 :=
  Host.gather gather_S65536_S19660x1_S19660_n_0_n_n_0_1_1 (flatK a1) (selK a3)

/-- The feature rows of the sampled voxels. -/
def featSelK (a0 : FVec F S65536x64 .f32) (a3 : IVec S19660 32) : FVec F S19660x64 .f32 :=
  Host.gather gather_S65536x64_S19660x1_S19660x64_1_0_n_n_0_1_164 a0 (selK a3)

/-- The integer counts as floats, divided by 32. -/
def densK (a2 : IVec S65536 32) : FVec F S65536 .f32 :=
  Host.divf (sitofp .f32 a2) (broadcastInDim S65536 ![] bcast_S_S65536 (constant S_ .f32 0x42000000#32))

/-! ## The first stretch -/

section First
variable (V : Valuation τ sig (Elt F))

set_option maxRecDepth 8192 in
/-- The flat cell numbers. -/
theorem after0_v14 : StableHlo.after hostOps0 V (Proc.devRef .tc main_v14) = flatK (V⟦main_arg1⟧) := by
  show StableHlo.after hostOps0 V (Proc.devRef .tc main_v14) = _
  after_results_simp
  rfl

set_option maxRecDepth 8192 in
/-- The sampled flat cell numbers. -/
theorem after0_v21 : StableHlo.after hostOps0 V (Proc.devRef .tc main_v21) = flatSelK (V⟦main_arg1⟧) (V⟦main_arg3⟧) := by
  show StableHlo.after hostOps0 V (Proc.devRef .tc main_v21) = _
  after_results_simp
  rfl

set_option maxRecDepth 8192 in
/-- The sampled feature rows. -/
theorem after0_v28 : StableHlo.after hostOps0 V (Proc.devRef .tc main_v28) = featSelK (V⟦main_arg0⟧) (V⟦main_arg3⟧) := by
  show StableHlo.after hostOps0 V (Proc.devRef .tc main_v28) = _
  after_results_simp
  rfl

set_option maxRecDepth 8192 in
/-- The scaled counts, viewed with two trailing unit axes. -/
theorem after0_v35 : StableHlo.after hostOps0 V (Proc.devRef .tc main_v35) = shapeCast _ (densK (F := F) (V⟦main_arg2⟧)) shapeCasts_S65536_S65536x1x1 := by
  show StableHlo.after hostOps0 V (Proc.devRef .tc main_v35) = _
  after_results_simp
  rfl

set_option maxRecDepth 8192 in
/-- The integer counts, viewed with two trailing unit axes. -/
theorem after0_v36 : StableHlo.after hostOps0 V (Proc.devRef .tc main_v36) = shapeCast _ (V⟦main_arg2⟧) shapeCasts_S65536_S65536x1x1 := by
  show StableHlo.after hostOps0 V (Proc.devRef .tc main_v36) = _
  after_results_simp
  rfl

set_option maxRecDepth 8192 in
/-- The first float accumulator starts at zero everywhere. -/
theorem after0_v37_0 : StableHlo.after hostOps0 V (Proc.devRef .tc main_v37_0) = (broadcastInDim S1048576x1x1 ![] bcast_S_S1048576x1x1 (constant S_ .f32 0x00000000#32) : FVec F S1048576x1x1 .f32) := by
  show StableHlo.after hostOps0 V (Proc.devRef .tc main_v37_0) = _
  after_results_simp
  rfl

set_option maxRecDepth 8192 in
/-- The second float accumulator starts at zero everywhere. -/
theorem after0_v37_1 : StableHlo.after hostOps0 V (Proc.devRef .tc main_v37_1) = (broadcastInDim S1048576x1x1 ![] bcast_S_S1048576x1x1 (constant S_ .f32 0x00000000#32) : FVec F S1048576x1x1 .f32) := by
  show StableHlo.after hostOps0 V (Proc.devRef .tc main_v37_1) = _
  after_results_simp
  rfl

set_option maxRecDepth 8192 in
/-- The integer accumulator starts at zero everywhere. -/
theorem after0_v37_2 : StableHlo.after hostOps0 V (Proc.devRef .tc main_v37_2) = (broadcastInDim S1048576x1x1 ![] bcast_S_S1048576x1x1 (constantI S_ 32 0#32) : IVec S1048576x1x1 32) := by
  show StableHlo.after hostOps0 V (Proc.devRef .tc main_v37_2) = _
  after_results_simp
  rfl

/-- A buffer the first stretch does not write keeps its contents. -/
theorem after0_of (b : Ref sig .tc) (h : b ∉ hostOps0_W) : StableHlo.after hostOps0 V (Proc.devRef .tc b) = V⟦b⟧ :=
  StableHlo.after_of_writes_sub hostOps0 V hostOps0_writes h

/-- The first stretch writes none of the four argument arrays. -/
theorem after0_args :
    StableHlo.after hostOps0 V (Proc.devRef .tc main_arg0) = V⟦main_arg0⟧
    ∧ StableHlo.after hostOps0 V (Proc.devRef .tc main_arg1) = V⟦main_arg1⟧
    ∧ StableHlo.after hostOps0 V (Proc.devRef .tc main_arg2) = V⟦main_arg2⟧
    ∧ StableHlo.after hostOps0 V (Proc.devRef .tc main_arg3) = V⟦main_arg3⟧ :=
  ⟨after0_of V main_arg0 (by decide), after0_of V main_arg1 (by decide), after0_of V main_arg2 (by decide), after0_of V main_arg3 (by decide)⟩

end First

/-! ## The second stretch -/

section Second
variable (V : Valuation τ sig (Elt F))

/-- The sampled feature rows, viewed with a unit middle axis. -/
theorem after1_v39 : StableHlo.after hostOps1 V (Proc.devRef .tc main_v39) = shapeCast _ (V⟦main_v28⟧) shapeCasts_S19660x64_S19660x1x64 := by
  show StableHlo.after hostOps1 V (Proc.devRef .tc main_v39) = _
  after_results
  rfl

/-- The feature accumulator starts at zero everywhere. -/
theorem after1_v40 : StableHlo.after hostOps1 V (Proc.devRef .tc main_v40) = (broadcastInDim S1048576x1x64 ![] bcast_S_S1048576x1x64 (constant S_ .f32 0x00000000#32) : FVec F S1048576x1x64 .f32) := by
  show StableHlo.after hostOps1 V (Proc.devRef .tc main_v40) = _
  after_results
  rfl

/-- A buffer the second stretch does not write keeps its contents. -/
theorem after1_of (b : Ref sig .tc) (h : b ∉ hostOps1_W) : StableHlo.after hostOps1 V (Proc.devRef .tc b) = V⟦b⟧ :=
  StableHlo.after_of_writes_sub hostOps1 V hostOps1_writes h

end Second

/-! ## The third stretch -/

section Third
variable (V : Valuation τ sig (Elt F))

/-- The first float accumulator as a `4 × 512 × 512` grid. -/
theorem after2_v41 : StableHlo.after hostOps2 V (Proc.devRef .tc main_v41) = shapeCast _ (V⟦main_v37_0⟧) shapeCasts_S1048576x1x1_S4x512x512 := by
  show StableHlo.after hostOps2 V (Proc.devRef .tc main_v41) = _
  after_results
  rfl

/-- The second float accumulator as a `4 × 512 × 512` grid. -/
theorem after2_v42 : StableHlo.after hostOps2 V (Proc.devRef .tc main_v42) = shapeCast _ (V⟦main_v37_1⟧) shapeCasts_S1048576x1x1_S4x512x512 := by
  show StableHlo.after hostOps2 V (Proc.devRef .tc main_v42) = _
  after_results
  rfl

/-- The integer accumulator as a `4 × 512 × 512` grid. -/
theorem after2_v43 : StableHlo.after hostOps2 V (Proc.devRef .tc main_v43) = shapeCast _ (V⟦main_v37_2⟧) shapeCasts_S1048576x1x1_S4x512x512 := by
  show StableHlo.after hostOps2 V (Proc.devRef .tc main_v43) = _
  after_results
  rfl

/-- The feature accumulator, split into its four batches, its cell and feature axes exchanged, as
    a `4 × 64 × 512 × 512` grid. -/
theorem after2_v46 : StableHlo.after hostOps2 V (Proc.devRef .tc main_v46) =
    shapeCast _ (transpose S4x64x262144 [0, 2, 1] (shapeCast _ (V⟦main_v40⟧) shapeCasts_S1048576x1x64_S4x262144x64) transposes_S4x262144x64_S4x64x262144_0_2_1) shapeCasts_S4x64x262144_S4x64x512x512 := by
  show StableHlo.after hostOps2 V (Proc.devRef .tc main_v46) = _
  after_results
  rfl

/-- A buffer the third stretch does not write keeps its contents. -/
theorem after2_of (b : Ref sig .tc) (h : b ∉ hostOps2_W) : StableHlo.after hostOps2 V (Proc.devRef .tc b) = V⟦b⟧ :=
  StableHlo.after_of_writes_sub hostOps2 V hostOps2_writes h

end Third

end Cert.Kernel.HostVal

end
-- ==== Proof.Bits.KEnds.lean ====
/-
  The ends of the kernel program's run, read buffer by buffer. The arguments end as launched: no host operation and
  neither scatter call writes one. Each result is the last host stretch's reshape (for the features: reshape,
  transpose, reshape) of what a scatter call's write-backs leave in its output array. And what each call finds in its
  windowed arrays at entry: the density values and point counts, the gathered feature rows, and zero arrays.
-/
import proofs.«414779_j32066225832083_1_alg».proof.Proof.Bits.KRun
import proofs.«414779_j32066225832083_1_alg».proof.Proof.Bits.KHost

set_option maxRecDepth 16384

noncomputable section

namespace Cert.Kernel.Ends

open Cert.Kernel Cert.Kernel.Gen Cert.Kernel.Run Cert.Kernel.HostVal
open Idealize.ShloMosaic Idealize.ShloMosaic.TcCoe Idealize.SL.Sem

variable {F : FTy → Type} [FloatOps F]
variable (m : (ℓ : Loc nD τ sig) → Buf (Elt F) ℓ) (hO : Ok m) (c : Dev nD)

/-- A buffer no host stretch writes and no call windows ends as launched. -/
theorem W5_of_untouched (b : Ref sig .tc) (h0 : b ∉ hostOps0_W) (h1 : b ∉ hostOps1_W) (h2 : b ∉ hostOps2_W)
    (n0 : ∀ w, Pipeline.arrRef spec0 w ≠ b) (n1 : ∀ w, Pipeline.arrRef spec1 w ≠ b) :
    W5 m hO c (Proc.devRef .tc b) = m (c, Proc.devRef .tc b) :=
  (after2_of (W4 m hO c) b h2).trans <| (W4_of_ne m hO c b n1).trans <| (after1_of (W2 m hO c) b h1).trans <|
    (W2_of_ne m hO c b n0).trans <| after0_of (W0 m c) b h0

theorem W5_arg0 : W5 m hO c (Proc.devRef .tc main_arg0) = m ((c.tc : Thread nD τ).loc main_arg0) :=
  W5_of_untouched m hO c main_arg0 (by decide) (by decide) (by decide) (by decide) (by decide)
theorem W5_arg1 : W5 m hO c (Proc.devRef .tc main_arg1) = m ((c.tc : Thread nD τ).loc main_arg1) :=
  W5_of_untouched m hO c main_arg1 (by decide) (by decide) (by decide) (by decide) (by decide)
theorem W5_arg2 : W5 m hO c (Proc.devRef .tc main_arg2) = m ((c.tc : Thread nD τ).loc main_arg2) :=
  W5_of_untouched m hO c main_arg2 (by decide) (by decide) (by decide) (by decide) (by decide)
theorem W5_arg3 : W5 m hO c (Proc.devRef .tc main_arg3) = m ((c.tc : Thread nD τ).loc main_arg3) :=
  W5_of_untouched m hO c main_arg3 (by decide) (by decide) (by decide) (by decide) (by decide)

/-- What the first call's write-backs leave in its output window `w`'s array. -/
abbrev arr0 (w : Fin 5) := (Scatter0.dat (a0 m hO) (Vin0 m) c).arrAt w (cfg0 (a0 m hO)).N
/-- What the second call's write-backs leave in its output array. -/
abbrev arr1 (w : Fin 2) := (Scatter1.dat (a1 m hO) (Vin1 m hO) c).arrAt w (cfg1 (a1 m hO)).N

/-- An output array of the first call reaches the last stretch as the call left it. -/
theorem W4_out0 (w : Fin 5) (h1 : Pipeline.arrRef spec0 w ∉ hostOps1_W) (n1 : ∀ w', Pipeline.arrRef spec1 w' ≠ Pipeline.arrRef spec0 w) :
    W4 m hO c (Proc.devRef .tc (Pipeline.arrRef spec0 w)) = arr0 m hO c w :=
  (W4_of_ne m hO c _ n1).trans <| (after1_of (W2 m hO c) _ h1).trans (W2_arr m hO c w)

theorem W5_v41 : W5 m hO c (Proc.devRef .tc main_v41) = shapeCast _ (arr0 m hO c 2) shapeCasts_S1048576x1x1_S4x512x512 :=
  (after2_v41 (W4 m hO c)).trans (congrArg (fun x => shapeCast _ x shapeCasts_S1048576x1x1_S4x512x512) (W4_out0 m hO c 2 (by decide) (by decide)))
theorem W5_v42 : W5 m hO c (Proc.devRef .tc main_v42) = shapeCast _ (arr0 m hO c 3) shapeCasts_S1048576x1x1_S4x512x512 :=
  (after2_v42 (W4 m hO c)).trans (congrArg (fun x => shapeCast _ x shapeCasts_S1048576x1x1_S4x512x512) (W4_out0 m hO c 3 (by decide) (by decide)))
theorem W5_v43 : W5 m hO c (Proc.devRef .tc main_v43) = shapeCast _ (arr0 m hO c 4) shapeCasts_S1048576x1x1_S4x512x512 :=
  (after2_v43 (W4 m hO c)).trans (congrArg (fun x => shapeCast _ x shapeCasts_S1048576x1x1_S4x512x512) (W4_out0 m hO c 4 (by decide) (by decide)))
theorem W5_v46 : W5 m hO c (Proc.devRef .tc main_v46) =
    shapeCast _ (transpose S4x64x262144 [0, 2, 1] (shapeCast _ (arr1 m hO c 1) shapeCasts_S1048576x1x64_S4x262144x64)
      transposes_S4x262144x64_S4x64x262144_0_2_1) shapeCasts_S4x64x262144_S4x64x512x512 :=
  (after2_v46 (W4 m hO c)).trans (congrArg (fun x => shapeCast _ (transpose S4x64x262144 [0, 2, 1] (shapeCast _ x shapeCasts_S1048576x1x64_S4x262144x64)
      transposes_S4x262144x64_S4x64x262144_0_2_1) shapeCasts_S4x64x262144_S4x64x512x512) (W4_arr m hO c 1))

/-! ## What the calls find at entry -/

theorem Vin0_v35 : Vin0 m c main_v35 = shapeCast _ (densK (F := F) (m ((c.tc : Thread nD τ).loc main_arg2))) shapeCasts_S65536_S65536x1x1 :=
  after0_v35 (W0 m c)
theorem Vin0_v36 : Vin0 m c main_v36 = shapeCast _ (m ((c.tc : Thread nD τ).loc main_arg2)) shapeCasts_S65536_S65536x1x1 :=
  after0_v36 (W0 m c)
theorem Vin0_v37_0 : Vin0 m c main_v37_0 = (broadcastInDim S1048576x1x1 ![] bcast_S_S1048576x1x1 (constant S_ .f32 0x00000000#32) : FVec F S1048576x1x1 .f32) :=
  after0_v37_0 (W0 m c)
theorem Vin0_v37_1 : Vin0 m c main_v37_1 = (broadcastInDim S1048576x1x1 ![] bcast_S_S1048576x1x1 (constant S_ .f32 0x00000000#32) : FVec F S1048576x1x1 .f32) :=
  after0_v37_1 (W0 m c)
theorem Vin0_v37_2 : Vin0 m c main_v37_2 = (broadcastInDim S1048576x1x1 ![] bcast_S_S1048576x1x1 (constantI S_ 32 0#32) : IVec S1048576x1x1 32) :=
  after0_v37_2 (W0 m c)
theorem Vin1_v39 : Vin1 m hO c main_v39 = shapeCast _ (featSelK (F := F) (m ((c.tc : Thread nD τ).loc main_arg0)) (m ((c.tc : Thread nD τ).loc main_arg3))) shapeCasts_S19660x64_S19660x1x64 :=
  (after1_v39 (W2 m hO c)).trans (congrArg (fun x => shapeCast _ x shapeCasts_S19660x64_S19660x1x64)
    ((W2_of_ne m hO c main_v28 (by decide)).trans (after0_v28 (W0 m c))))
theorem Vin1_v40 : Vin1 m hO c main_v40 = (broadcastInDim S1048576x1x64 ![] bcast_S_S1048576x1x64 (constant S_ .f32 0x00000000#32) : FVec F S1048576x1x64 .f32) :=
  after1_v40 (W2 m hO c)

/-- The tables are the flat row numbers and their gathered selection. -/
theorem tbl0_eq : (tbl0 m 0 : IVec S65536 32) = flatK (m (((0 : Dev nD).tc : Thread nD τ).loc main_arg1)) :=
  after0_v14 (W0 m 0)
theorem tbl1_eq : (tbl1 m 0 : IVec S19660 32) = flatSelK (m (((0 : Dev nD).tc : Thread nD τ).loc main_arg1)) (m (((0 : Dev nD).tc : Thread nD τ).loc main_arg3)) :=
  after0_v21 (W0 m 0)

/-! ## The frame, and the run with the results named -/

include hO in
/-- The frame: when both tables keep their blocks inside the arrays, @main terminates, nothing faulting, with its
    four argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_arg0 m hO c), (h c _ (mem_uc main_arg1 (by decide))).trans (W5_arg1 m hO c),
     (h c _ (mem_uc main_arg2 (by decide))).trans (W5_arg2 m hO c), (h c _ (mem_uc main_arg3 (by decide))).trans (W5_arg3 m hO c)⟩)
    (run_all m ρ hO)

/-- The run with the four results named: each is a reshape of what a scatter call left. -/
theorem run_results (ρ : Dev nD → PrngReg) : θ_run defs (onTc (τ := τ) (main (F := F))) ⟨m, fun _ => 0, ρ⟩ (fun r => ∀ c : Dev nD,
      r.2.mem ((c.tc : Thread nD τ).loc main_v46) = W5 m hO c (Proc.devRef .tc main_v46)
      ∧ r.2.mem ((c.tc : Thread nD τ).loc main_v41) = W5 m hO c (Proc.devRef .tc main_v41)
      ∧ r.2.mem ((c.tc : Thread nD τ).loc main_v42) = W5 m hO c (Proc.devRef .tc main_v42)
      ∧ r.2.mem ((c.tc : Thread nD τ).loc main_v43) = W5 m hO c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v46 (by decide)), h c _ (mem_uc main_v41 (by decide)), h c _ (mem_uc main_v42 (by decide)), h c _ (mem_uc main_v43 (by decide)),
     (h c _ (mem_uc main_arg0 (by decide))).trans (W5_arg0 m hO c), (h c _ (mem_uc main_arg1 (by decide))).trans (W5_arg1 m hO c),
     (h c _ (mem_uc main_arg2 (by decide))).trans (W5_arg2 m hO c), (h c _ (mem_uc main_arg3 (by decide))).trans (W5_arg3 m hO c)⟩)
    (run_all m ρ hO)

end Cert.Kernel.Ends

end
-- ==== Proof.Bits.KOk.lean ====
/-
  The two tables of row numbers keep every table-indexed block inside its array.

  The first scatter call reads, at grid point i, entry i of the table flat (the flat cell number of voxel row i); the
  block it indexes is row flat[i] of an array of 1048576 rows. The second call reads entry i of the table of SELECTED
  row numbers, flat gathered at the selection indices (made non-negative and clamped to the table): each of its entries
  is therefore an entry of flat. The precondition says every entry of flat is, as a signed word, at least 0 and below
  1048576; read unsigned it is below 1048576. So both blocks start (and, being one row high, end) inside the array, and
  the transfers are of word-wide elements.
-/
import proofs.«414779_j32066225832083_1_alg».proof.Proof.Bits.KRun
import proofs.«414779_j32066225832083_1_alg».proof.Proof.Bits.KHost
import proofs.«414779_j32066225832083_1_alg».proof.Proof.PreRange

set_option maxRecDepth 16384

noncomputable section

namespace Cert.Kernel.OkOfPre

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Run

variable {F : FTy → Type} [FloatOps F]

variable (m : (ℓ : Loc nD τ sig) → Buf (Elt F) ℓ)

/-- The first table is the flat cell numbers of the launch memory's voxel table. -/
theorem tbl0_eq : (tbl0 m 0 : IVec S65536 32) = Cert.Kernel.HostVal.flatK (m (((0 : Dev nD).tc : Thread nD τ).loc main_arg1)) :=
  Cert.Kernel.HostVal.after0_v14 (W0 m 0)

/-- The second table is the flat cell numbers looked up at the launch memory's sample numbers. -/
theorem tbl1_eq : (tbl1 m 0 : IVec S19660 32) = Cert.Kernel.HostVal.flatSelK (m (((0 : Dev nD).tc : Thread nD τ).loc main_arg1)) (m (((0 : Dev nD).tc : Thread nD τ).loc main_arg3)) :=
  Cert.Kernel.HostVal.after0_v21 (W0 m 0)

/-- The two spellings of flat agree: the same chain of operations over the same literal shapes. -/
theorem flatK_eq (a1 : IVec S65536x4 32) : Cert.Kernel.HostVal.flatK a1 = Cert.PreRange.flat a1 := rfl

/-- The precondition on device 0, the program's one device. -/
abbrev Pre0 : Prop :=
  Cert.Pre_finite_inputs.fn (F := F) (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3)) = fun _ => 1#1

/-- Every entry of the first table is below 1048576: it is an entry of flat. -/
theorem tbl0_lt (h : Pre0 m) (x : S65536.Idx) : ((tbl0 m 0 : IVec S65536 32) x).toNat < 1048576 := by
  rw [tbl0_eq, flatK_eq]
  exact Cert.PreRange.flat_lt _ _ _ _ h x

/-- Every entry of the second table is below 1048576: the gather reads it from flat at some index. -/
theorem tbl1_lt (h : Pre0 m) (x : S19660.Idx) : ((tbl1 m 0 : IVec S19660 32) x).toNat < 1048576 := by
  rw [tbl1_eq]
  show (Cert.Kernel.HostVal.flatK _ (gather_S65536_S19660x1_S19660_n_0_n_n_0_1_1.operandIdx x _)).toNat < 1048576
  rw [flatK_eq]
  exact Cert.PreRange.flat_lt _ _ _ _ h _

/-- A block one row high at row w of a 1048576-row array of single elements lies inside it when w < 1048576. -/
theorem inb1 (w : BitVec 32) (hw : w.toNat < 1048576) :
    ∀ a, ((![w.toNat, 0, 0] : Fin 3 → Nat) a + 1) * S1x1x1.size a ≤ S1048576x1x1.size a := by
  intro a
  fin_cases a
  · show (w.toNat + 1) * 1 ≤ 1048576
    omega
  · show (0 + 1) * 1 ≤ 1
    omega
  · show (0 + 1) * 1 ≤ 1
    omega

/-- The same for rows of 64 elements. -/
theorem inb64 (w : BitVec 32) (hw : w.toNat < 1048576) :
    ∀ a, ((![w.toNat, 0, 0] : Fin 3 → Nat) a + 1) * S1x1x64.size a ≤ S1048576x1x64.size a := by
  intro a
  fin_cases a
  · show (w.toNat + 1) * 1 ≤ 1048576
    omega
  · show (0 + 1) * 1 ≤ 1
    omega
  · show (0 + 1) * 64 ≤ 64
    omega

/-- The first call's side condition: each of its three table-indexed windows reads, at grid point i, the table's entry
    at the unit rectangle at offset i, and places its one-row block at that row. -/
theorem ok0_of_pre (h : Pre0 m) : ok0 (F := F) (tbl0 m) := by
  refine ⟨fun i => ?_, fun i => ?_, fun i => ?_⟩
  · obtain ⟨w, hw, e⟩ : ∃ w : BitVec 32, w.toNat < 1048576 ∧ cc0_transform_5 k0_off1_inb numel1_S1 (tbl0 m) i = ![w.toNat, 0, 0] :=
      ⟨_, tbl0_lt m h _, rfl⟩
    exact ⟨fun a => by rw [e]; exact inb1 w hw a, Or.inl rfl⟩
  · obtain ⟨w, hw, e⟩ : ∃ w : BitVec 32, w.toNat < 1048576 ∧ cc0_transform_6 k0_off1_inb numel1_S1 (tbl0 m) i = ![w.toNat, 0, 0] :=
      ⟨_, tbl0_lt m h _, rfl⟩
    exact ⟨fun a => by rw [e]; exact inb1 w hw a, Or.inl rfl⟩
  · obtain ⟨w, hw, e⟩ : ∃ w : BitVec 32, w.toNat < 1048576 ∧ cc0_transform_7 k0_off1_inb numel1_S1 (tbl0 m) i = ![w.toNat, 0, 0] :=
      ⟨_, tbl0_lt m h _, rfl⟩
    exact ⟨fun a => by rw [e]; exact inb1 w hw a, Or.inl rfl⟩

/-- The second call's side condition: its table-indexed window places its one-row block of 64 elements at the row the
    selected table names. -/
theorem ok1_of_pre (h : Pre0 m) : ok1 (F := F) (tbl1 m) := by
  intro i
  obtain ⟨w, hw, e⟩ : ∃ w : BitVec 32, w.toNat < 1048576 ∧ cc1_transform_2 k1_off1_inb numel1_S1 (tbl1 m) i = ![w.toNat, 0, 0] :=
    ⟨_, tbl1_lt m h _, rfl⟩
  exact ⟨fun a => by rw [e]; exact inb64 w hw a, Or.inl rfl⟩

/-- THE TABLES ARE ADMISSIBLE under the certificate's precondition (stated on every device; device 0's instance is the
    one the tables are read on). -/
theorem ok_of_pre
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    Cert.Kernel.Run.Ok m :=
  ⟨ok0_of_pre m (h 0), ok1_of_pre m (h 0)⟩

end Cert.Kernel.OkOfPre

end
-- ==== Proof.LibLastWrite.lean ====
/-
  LAST WRITE WINS. An array built by overwriting in order holds, at each index, what the LAST overwriting step
  that touches the index wrote, and its start contents at an index no step touches.

  * `Fin.none_or_last` — a decidable property of the points of a finite order holds nowhere, or has a last point;
  * `foldl_set_apply_of_none` / `foldl_set_apply_of_last` — the left fold of "overwrite the index this step names,
    if it names one" over any list, read at an index: untouched, or the value of a step no later step overrides;
  * `Host.scatter_set_eq_foldl`, `Host.scatter_set_apply_of_none`, `Host.scatter_set_apply_of_last` — the same
    for a scatter whose body returns the update (`x.at[idx].set(v)`): the row-major-last update landing on an
    index is the one the result holds there;
  * `Pipeline.Dat.arrAt_apply_of_last` — the same for a windowed array after the write-backs below `n`: under the
    block of a flushing point that no later flushing point below `n` covers, the element is what that point flushed.
-/
import Mathlib.Data.Finset.Max
import Mathlib.Data.Fintype.Basic
import Idealize.ShloMosaic.PureOps
import Idealize.ShloMosaic.Lib.Pipeline.Value

namespace Idealize.ShloMosaic

/-- A decidable property of the points `0, …, N-1` either holds at no point, or there is a LAST point where it
    holds: one with the property after which no point has it. -/
theorem Fin.none_or_last {N : ℕ} (P : Fin N → Prop) [DecidablePred P] :
    (∀ t, ¬ P t) ∨ ∃ t, P t ∧ ∀ t', t < t' → ¬ P t' := by
  by_cases h : ∃ t, P t
  · right
    obtain ⟨t₀, h₀⟩ := h
    -- the greatest element of the (nonempty, finite) set of points with the property
    obtain ⟨t, ht, hmax⟩ := (Finset.univ.filter P).exists_max_image id
      ⟨t₀, Finset.mem_filter.mpr ⟨Finset.mem_univ _, h₀⟩⟩
    refine ⟨t, (Finset.mem_filter.mp ht).2, fun t' hlt hP => ?_⟩
    have hle : t' ≤ t := hmax t' (Finset.mem_filter.mpr ⟨Finset.mem_univ _, hP⟩)
    exact absurd hlt (not_lt.mpr hle)
  · left
    exact fun t ht => h ⟨t, ht⟩

section FoldSet

variable {ι β α : Type} [DecidableEq β]

/-- Overwriting in list order, read at an index NO step names: the start contents. Step `n` names the index
    `o n` (or none) and writes `v n` there. -/
theorem foldl_set_apply_of_none (o : ι → Option β) (v : ι → α) (l : List ι) (x : β → α) (i : β)
    (h : ∀ n ∈ l, o n ≠ some i) :
    l.foldl (fun r n i' => if o n = some i' then v n else r i') x i = x i := by
  induction l generalizing x with
  | nil => rfl
  | cons a l ih =>
    rw [List.foldl_cons, ih _ fun n hn => h n (List.mem_cons_of_mem _ hn)]
    exact if_neg (h a List.mem_cons_self)

/-- Overwriting in the order of a list sorted by a relation `lt`, read at an index that step `n` of the list names
    and no step after `n` names: what step `n` wrote. The steps before `n` are overwritten by `n`, the steps after it
    leave the index alone. -/
theorem foldl_set_apply_of_last (lt : ι → ι → Prop) (o : ι → Option β) (v : ι → α) (l : List ι)
    (hl : l.Pairwise lt) (x : β → α) (i : β) (n : ι) (hn : n ∈ l) (hi : o n = some i)
    (hlast : ∀ m ∈ l, lt n m → o m ≠ some i) :
    l.foldl (fun r n i' => if o n = some i' then v n else r i') x i = v n := by
  induction l generalizing x with
  | nil => exact absurd hn List.not_mem_nil
  | cons a l ih =>
    rw [List.pairwise_cons] at hl
    rw [List.foldl_cons]
    by_cases hnl : n ∈ l
    · -- step `n` comes later in the list: whatever the head did is the new start contents
      exact ih hl.2 _ hnl fun m hm => hlast m (List.mem_cons_of_mem _ hm)
    · -- step `n` is the head: every later step is after it, so none names the index
      have e : n = a := (List.mem_cons.mp hn).resolve_right hnl
      subst e
      rw [foldl_set_apply_of_none o v l _ i fun m hm => hlast m (List.mem_cons_of_mem _ hm) (hl.1 m hm)]
      exact if_pos hi

end FoldSet

section Scatter

variable {s si u : Shape} {w : Nat} {α : Type}

/-- A scatter whose body returns the update is the left fold, over the update indices in row-major order, of
    "the operand index this update lands at, if it lands inside, takes the update's element". -/
theorem Host.scatter_set_eq_foldl (d : ScatterDims s si u) (x : s.Idx → α) (idx : IVec si w) (upd : u.Idx → α) :
    Host.scatter d (fun _ b => b) x idx upd
      = (List.finRange u.numel).foldl
          (fun r n i' => if d.resultIdx? (u.rowMajor.symm n) idx = some i' then upd (u.rowMajor.symm n) else r i') x := by
  unfold Host.scatter
  congr 1
  funext r n
  split
  · next i hi =>
    funext i'
    rw [hi]
    by_cases e : i' = i
    · rw [if_pos e, if_pos (by rw [e])]
    · rw [if_neg e, if_neg fun h => e (Option.some.inj h).symm]
  · next hi =>
    funext i'
    rw [hi, if_neg (by simp)]

/-- An operand index NO update lands at keeps the operand's element. -/
theorem Host.scatter_set_apply_of_none (d : ScatterDims s si u) (x : s.Idx → α) (idx : IVec si w) (upd : u.Idx → α)
    (i : s.Idx) (h : ∀ j : u.Idx, d.resultIdx? j idx ≠ some i) :
    Host.scatter d (fun _ b => b) x idx upd i = x i := by
  rw [Host.scatter_set_eq_foldl]
  exact foldl_set_apply_of_none _ (fun n => upd (u.rowMajor.symm n)) _ x i fun n _ => h (u.rowMajor.symm n)

/-- An operand index that update `j` lands at, and no update after `j` in row-major order, holds update `j`'s
    element: the fold takes the updates in row-major order, so a later one landing on the same index would overwrite. -/
theorem Host.scatter_set_apply_of_last (d : ScatterDims s si u) (x : s.Idx → α) (idx : IVec si w) (upd : u.Idx → α)
    (i : s.Idx) (j : u.Idx) (hj : d.resultIdx? j idx = some i)
    (hlast : ∀ j' : u.Idx, (u.rowMajor j : ℕ) < (u.rowMajor j' : ℕ) → d.resultIdx? j' idx ≠ some i) :
    Host.scatter d (fun _ b => b) x idx upd i = upd j := by
  rw [Host.scatter_set_eq_foldl]
  have key := foldl_set_apply_of_last (· < ·) (fun n => d.resultIdx? (u.rowMajor.symm n) idx)
    (fun n => upd (u.rowMajor.symm n)) (List.finRange u.numel) (List.pairwise_lt_finRange _) x i (u.rowMajor j)
    (List.mem_finRange _) (by rw [Equiv.symm_apply_apply]; exact hj)
    (fun m _ hm => hlast (u.rowMajor.symm m) (by rw [Equiv.apply_symm_apply]; exact hm))
  rw [Equiv.symm_apply_apply] at key
  exact key

end Scatter

namespace Pipeline

variable {nD : Nat} {τ : Topo} {sig : RefSig} {Val : EltTy → Type}
variable {Ix : Type} [DecidableEq Ix] {Name : Type} [DecidableEq Name] {U : Type} [Idealize.SL.RA.URA U] {Lvl : Type}
variable {Λ₀ : Idealize.SL.Sem.Labels} {cfg : Cfg sig Λ₀} {c : Dev nD} (dat : Dat τ Val Ix Name U Lvl cfg c)

/-- THE LAST FLUSH WINS. An element under flushing point `t`'s block (`t < n`) that NO LATER flushing point below
    `n` covers holds, after the write-backs below `n`, that block's element of what point `t` flushed: point `t`'s
    write-back put it there whatever the earlier points had written, and the later ones do not touch the index.
    (The buffer's element type is the block's: the cast is along that equation.) -/
theorem Dat.arrAt_apply_of_last (w : Fin cfg.W) :
    ∀ (n : Nat) (t : Fin cfg.N) (y : ((cfg.win w).xblock (cfg.grid.coords t)).Idx),
      t.val < n → (cfg.win w).flush t = true →
      (∀ t' : Fin cfg.N, t < t' → t'.val < n → (cfg.win w).flush t' = true →
        ((cfg.win w).blk t).view.emb y ∉ ((cfg.win w).blk t').view.set) →
      dat.arrAt w n (((cfg.win w).blk t).view.emb y)
        = _root_.cast (congrArg Val ((cfg.win w).blk t).view.elt_eq.symm) (dat.flushed w t y)
  | 0, _, _, ht, _, _ => absurd ht (Nat.not_lt_zero _)
  | n + 1, t, y, ht, hf, hlast => by
    rw [dat.arrAt_succ_apply]
    by_cases hn : n < cfg.N
    swap
    · -- past the grid: nothing changes, and `t` is below `n`
      rw [dif_neg hn]
      exact Dat.arrAt_apply_of_last w n t y (by have := t.isLt; omega) hf
        fun t' h1 h2 h3 => hlast t' h1 (Nat.lt_succ_of_lt h2) h3
    rw [dif_pos hn]
    by_cases htn : t.val = n
    · -- point `n` is `t` itself: its write-back puts the block's element at the embedded index
      have e : t = ⟨n, hn⟩ := Fin.ext htn
      subst e
      rw [if_pos hf, View.write_emb_of_mem _ _ (Finset.mem_univ y)]
    · by_cases hfn : (cfg.win w).flush ⟨n, hn⟩ = true
      · -- a later flushing point: by hypothesis its block does not hold the index
        rw [if_pos hfn, View.write_of_not_mem _ _ _ (by
          rw [View.setOn_univ]
          exact hlast ⟨n, hn⟩ (Fin.lt_def.mpr (by show t.val < n; omega)) (Nat.lt_succ_self n) hfn)]
        exact Dat.arrAt_apply_of_last w n t y (by omega) hf
          fun t' h1 h2 h3 => hlast t' h1 (Nat.lt_succ_of_lt h2) h3
      · rw [if_neg hfn]
        exact Dat.arrAt_apply_of_last w n t y (by omega) hf
          fun t' h1 h2 h3 => hlast t' h1 (Nat.lt_succ_of_lt h2) h3

end Pipeline

end Idealize.ShloMosaic
-- ==== Proof.KFinal0.lean ====
/-
  The first scatter call, after its last grid point. At point t the call writes one 1×1×1 block back to row
  flat[t] of each of three arrays of 1048576 rows, flat[t] the t-th word of a table read unsigned. The points run in
  order and a write-back is issued at the last point and wherever the next point's row differs, so a later write to
  a row overwrites an earlier one. Hence, for ARBITRARY admissible table contents: row r of each array ends holding
  what the LAST point t with flat[t] = r wrote (the constant one; the density array's entry at t; the count array's
  entry at t), and a row no point names keeps the contents the call found there.

  Indices are spelt by coordinates: a row r of a 1048576×1×1 array is the index with coordinates (r, 0, 0), a point
  t of a 65536×1×1 array the index (t, 0, 0), the table's t-th word the rank-1 index (t).
-/
import proofs.«414779_j32066225832083_1_alg».proof.Proof.Scatter0
import proofs.«414779_j32066225832083_1_alg».proof.Proof.LibLastWrite
import Idealize.ShloMosaic.Lib.ValueIdx
import Idealize.ShloMosaic.Lib.Pipeline.Value

set_option maxRecDepth 16384

noncomputable section

namespace Cert.KernelIdeal.Final0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (a : (pcfg0 (F := F)).Adm)
variable (V : (c : Dev nD) → (b : Ref sig .tc) → Buf (Elt F) ((c : Thread nD τ).loc b))
variable (c : Dev nD)

/-! ## The points, the table's words, and the block index maps -/

theorem t_lt (t : Fin (cfg0 a).N) : t.val < 65536 := lt_of_lt_of_eq t.isLt N_0

/-- the row point t writes: the table's t-th word read unsigned -/
def row (t : Fin (cfg0 a).N) : ℕ := (a.1 0 (ValueIdx.ix1 (n := 65536) ⟨t.val, t_lt a t⟩)).toNat

theorem stride0 : grid0.stride 0 = 1 := by decide

theorem coord0 (t : Fin (cfg0 a).N) : (((cfg0 a).grid.coords t) 0).val = t.val := by
  show t.val / grid0.stride 0 % 65536 = t.val
  rw [stride0, Nat.div_one]
  exact Nat.mod_eq_of_lt (t_lt a t)

/-- The word the three output index maps load at point t is the table's t-th word. -/
theorem word_eq (t : Fin (cfg0 a).N) (inb) (h1) :
    a.1.at 0 (Rect.unit (s := S65536) ![(Scalar.indexCast (BitVec.ofNat 32 (((cfg0 a).grid.coords t) 0).val)).toNat] S1.size inb) h1
      = a.1 0 (ValueIdx.ix1 (n := 65536) ⟨t.val, t_lt a t⟩) := by
  refine congrArg (fun j => a.1 0 j) (funext fun d => Fin.ext ?_)
  match d with
  | ⟨0, _⟩ =>
    show (Scalar.indexCast (BitVec.ofNat 32 (((cfg0 a).grid.coords t) 0).val)).toNat + 1 * 0 = t.val
    rw [coord0]
    show (BitVec.ofNat 32 t.val).toNat + 1 * 0 = t.val
    rw [BitVec.toNat_ofNat]
    have := t_lt a t
    omega

theorem index_out (t : Fin (cfg0 a).N) : ((cfg0 a).win 2).index t = ![row a t, 0, 0] := by
  funext k
  match k with
  | ⟨0, _⟩ => exact congrArg BitVec.toNat (word_eq a t _ _)
  | ⟨1, _⟩ => rfl
  | ⟨2, _⟩ => rfl
theorem index_out3 (t : Fin (cfg0 a).N) : ((cfg0 a).win 3).index t = ![row a t, 0, 0] := by
  funext k
  match k with
  | ⟨0, _⟩ => exact congrArg BitVec.toNat (word_eq a t _ _)
  | ⟨1, _⟩ => rfl
  | ⟨2, _⟩ => rfl
theorem index_out4 (t : Fin (cfg0 a).N) : ((cfg0 a).win 4).index t = ![row a t, 0, 0] := by
  funext k
  match k with
  | ⟨0, _⟩ => exact congrArg BitVec.toNat (word_eq a t _ _)
  | ⟨1, _⟩ => rfl
  | ⟨2, _⟩ => rfl

/-- An input's block index at point t is the point itself. -/
theorem index_in0 (t : Fin (cfg0 a).N) : ((cfg0 a).win 0).index t = ![t.val, 0, 0] := by
  funext k
  match k with
  | ⟨0, _⟩ =>
    show (BitVec.ofNat 32 (((cfg0 a).grid.coords t) 0).val).toNat = t.val
    rw [coord0, BitVec.toNat_ofNat]
    have := t_lt a t
    omega
  | ⟨1, _⟩ => rfl
  | ⟨2, _⟩ => rfl
theorem index_in1 (t : Fin (cfg0 a).N) : ((cfg0 a).win 1).index t = ![t.val, 0, 0] := by
  funext k
  match k with
  | ⟨0, _⟩ =>
    show (BitVec.ofNat 32 (((cfg0 a).grid.coords t) 0).val).toNat = t.val
    rw [coord0, BitVec.toNat_ofNat]
    have := t_lt a t
    omega
  | ⟨1, _⟩ => rfl
  | ⟨2, _⟩ => rfl

/-- Point t is the LAST point writing row r. -/
def Last (t : Fin (cfg0 a).N) (r : ℕ) : Prop := row a t = r ∧ ∀ t' : Fin (cfg0 a).N, t < t' → row a t' ≠ r

/-! ## Where a point's output block sits, and when it is written back -/

/-- A point's output block holds an index only on the point's own row. -/
theorem row_of_mem2 (t : Fin (cfg0 a).N) (i : S1048576x1x1.Idx)
    (h : i ∈ (((cfg0 a).win 2).blk t).view.set) : (i 0).val = row a t := by
  have e : (((cfg0 a).win 2).blk t).view.set = (((cfg0 a).win 2).rect t).set := View.set_slice_whole main_v37_0 _
  rw [e] at h
  have h2 := Rect.mem_set_unit.mp h
  have h0 : ((cfg0 a).win 2).index t (0 : Fin 3) * 1 ≤ (i 0).val
      ∧ (i 0).val < ((cfg0 a).win 2).index t (0 : Fin 3) * 1 + 1 := h2 (0 : Fin 3)
  have e0 : ((cfg0 a).win 2).index t (0 : Fin 3) = row a t := congrFun (index_out a t) (0 : Fin 3)
  omega

/-- The one element of point t's output block sits at row `row a t`. -/
theorem emb2 (t : Fin (cfg0 a).N) (y : (((cfg0 a).win 2).xblock ((cfg0 a).grid.coords t)).Idx) (r : Fin 1048576)
    (h : row a t = r.val) :
    (((cfg0 a).win 2).blk t).view.emb y = ValueIdx.ix3 (n0 := 1048576) (n1 := 1) (n2 := 1) r 0 0 := by
  funext k
  apply Fin.ext
  match k with
  | ⟨0, _⟩ =>
    show ((cfg0 a).win 2).index t (0 : Fin 3) * 1 + 1 * (y (0 : Fin 3)).val = r.val
    have e : ((cfg0 a).win 2).index t (0 : Fin 3) = row a t := congrFun (index_out a t) (0 : Fin 3)
    have hy : (y (0 : Fin 3)).val < 1 := (y (0 : Fin 3)).isLt
    omega
  | ⟨1, _⟩ =>
    show ((cfg0 a).win 2).index t (1 : Fin 3) * 1 + 1 * (y (1 : Fin 3)).val = 0
    have e : ((cfg0 a).win 2).index t (1 : Fin 3) = 0 := congrFun (index_out a t) (1 : Fin 3)
    have hy : (y (1 : Fin 3)).val < 1 := (y (1 : Fin 3)).isLt
    omega
  | ⟨2, _⟩ =>
    show ((cfg0 a).win 2).index t (2 : Fin 3) * 1 + 1 * (y (2 : Fin 3)).val = 0
    have e : ((cfg0 a).win 2).index t (2 : Fin 3) = 0 := congrFun (index_out a t) (2 : Fin 3)
    have hy : (y (2 : Fin 3)).val < 1 := (y (2 : Fin 3)).isLt
    omega

/-- The last point writing a row issues its write-back: it is the last point of all, or the next point writes
    another row. -/
theorem flush2 (t : Fin (cfg0 a).N) (r : ℕ) (h : Last a t r) : ((cfg0 a).win 2).flush t = true := by
  unfold Window.flush
  rw [show ((cfg0 a).win 2).isOut = true from rfl, Bool.true_and, Bool.or_eq_true, decide_eq_true_eq, decide_eq_true_eq]
  by_cases hN : t.val + 1 = (cfg0 a).grid.N
  · exact Or.inl hN
  · have hlt : t.val + 1 < (cfg0 a).grid.N := by have : t.val < (cfg0 a).grid.N := t.isLt; omega
    refine Or.inr ⟨hlt, fun e => ?_⟩
    rw [index_out, index_out] at e
    have e0 : row a ⟨t.val + 1, hlt⟩ = row a t := congrFun e (0 : Fin 3)
    exact h.2 ⟨t.val + 1, hlt⟩ (Fin.lt_def.mpr (Nat.lt_succ_self _)) (e0.trans h.1)

theorem row_of_mem3 (t : Fin (cfg0 a).N) (i : S1048576x1x1.Idx)
    (h : i ∈ (((cfg0 a).win 3).blk t).view.set) : (i 0).val = row a t := by
  have e : (((cfg0 a).win 3).blk t).view.set = (((cfg0 a).win 3).rect t).set := View.set_slice_whole main_v37_1 _
  rw [e] at h
  have h2 := Rect.mem_set_unit.mp h
  have h0 : ((cfg0 a).win 3).index t (0 : Fin 3) * 1 ≤ (i 0).val
      ∧ (i 0).val < ((cfg0 a).win 3).index t (0 : Fin 3) * 1 + 1 := h2 (0 : Fin 3)
  have e0 : ((cfg0 a).win 3).index t (0 : Fin 3) = row a t := congrFun (index_out3 a t) (0 : Fin 3)
  omega

theorem row_of_mem4 (t : Fin (cfg0 a).N) (i : S1048576x1x1.Idx)
    (h : i ∈ (((cfg0 a).win 4).blk t).view.set) : (i 0).val = row a t := by
  have e : (((cfg0 a).win 4).blk t).view.set = (((cfg0 a).win 4).rect t).set := View.set_slice_whole main_v37_2 _
  rw [e] at h
  have h2 := Rect.mem_set_unit.mp h
  have h0 : ((cfg0 a).win 4).index t (0 : Fin 3) * 1 ≤ (i 0).val
      ∧ (i 0).val < ((cfg0 a).win 4).index t (0 : Fin 3) * 1 + 1 := h2 (0 : Fin 3)
  have e0 : ((cfg0 a).win 4).index t (0 : Fin 3) = row a t := congrFun (index_out4 a t) (0 : Fin 3)
  omega

theorem emb3 (t : Fin (cfg0 a).N) (y : (((cfg0 a).win 3).xblock ((cfg0 a).grid.coords t)).Idx) (r : Fin 1048576)
    (h : row a t = r.val) :
    (((cfg0 a).win 3).blk t).view.emb y = ValueIdx.ix3 (n0 := 1048576) (n1 := 1) (n2 := 1) r 0 0 := by
  funext k
  apply Fin.ext
  match k with
  | ⟨0, _⟩ =>
    show ((cfg0 a).win 3).index t (0 : Fin 3) * 1 + 1 * (y (0 : Fin 3)).val = r.val
    have e : ((cfg0 a).win 3).index t (0 : Fin 3) = row a t := congrFun (index_out3 a t) (0 : Fin 3)
    have hy : (y (0 : Fin 3)).val < 1 := (y (0 : Fin 3)).isLt
    omega
  | ⟨1, _⟩ =>
    show ((cfg0 a).win 3).index t (1 : Fin 3) * 1 + 1 * (y (1 : Fin 3)).val = 0
    have e : ((cfg0 a).win 3).index t (1 : Fin 3) = 0 := congrFun (index_out3 a t) (1 : Fin 3)
    have hy : (y (1 : Fin 3)).val < 1 := (y (1 : Fin 3)).isLt
    omega
  | ⟨2, _⟩ =>
    show ((cfg0 a).win 3).index t (2 : Fin 3) * 1 + 1 * (y (2 : Fin 3)).val = 0
    have e : ((cfg0 a).win 3).index t (2 : Fin 3) = 0 := congrFun (index_out3 a t) (2 : Fin 3)
    have hy : (y (2 : Fin 3)).val < 1 := (y (2 : Fin 3)).isLt
    omega

theorem emb4 (t : Fin (cfg0 a).N) (y : (((cfg0 a).win 4).xblock ((cfg0 a).grid.coords t)).Idx) (r : Fin 1048576)
    (h : row a t = r.val) :
    (((cfg0 a).win 4).blk t).view.emb y = ValueIdx.ix3 (n0 := 1048576) (n1 := 1) (n2 := 1) r 0 0 := by
  funext k
  apply Fin.ext
  match k with
  | ⟨0, _⟩ =>
    show ((cfg0 a).win 4).index t (0 : Fin 3) * 1 + 1 * (y (0 : Fin 3)).val = r.val
    have e : ((cfg0 a).win 4).index t (0 : Fin 3) = row a t := congrFun (index_out4 a t) (0 : Fin 3)
    have hy : (y (0 : Fin 3)).val < 1 := (y (0 : Fin 3)).isLt
    omega
  | ⟨1, _⟩ =>
    show ((cfg0 a).win 4).index t (1 : Fin 3) * 1 + 1 * (y (1 : Fin 3)).val = 0
    have e : ((cfg0 a).win 4).index t (1 : Fin 3) = 0 := congrFun (index_out4 a t) (1 : Fin 3)
    have hy : (y (1 : Fin 3)).val < 1 := (y (1 : Fin 3)).isLt
    omega
  | ⟨2, _⟩ =>
    show ((cfg0 a).win 4).index t (2 : Fin 3) * 1 + 1 * (y (2 : Fin 3)).val = 0
    have e : ((cfg0 a).win 4).index t (2 : Fin 3) = 0 := congrFun (index_out4 a t) (2 : Fin 3)
    have hy : (y (2 : Fin 3)).val < 1 := (y (2 : Fin 3)).isLt
    omega

theorem flush3 (t : Fin (cfg0 a).N) (r : ℕ) (h : Last a t r) : ((cfg0 a).win 3).flush t = true := by
  unfold Window.flush
  rw [show ((cfg0 a).win 3).isOut = true from rfl, Bool.true_and, Bool.or_eq_true, decide_eq_true_eq, decide_eq_true_eq]
  by_cases hN : t.val + 1 = (cfg0 a).grid.N
  · exact Or.inl hN
  · have hlt : t.val + 1 < (cfg0 a).grid.N := by have : t.val < (cfg0 a).grid.N := t.isLt; omega
    refine Or.inr ⟨hlt, fun e => ?_⟩
    rw [index_out3, index_out3] at e
    have e0 : row a ⟨t.val + 1, hlt⟩ = row a t := congrFun e (0 : Fin 3)
    exact h.2 ⟨t.val + 1, hlt⟩ (Fin.lt_def.mpr (Nat.lt_succ_self _)) (e0.trans h.1)

theorem flush4 (t : Fin (cfg0 a).N) (r : ℕ) (h : Last a t r) : ((cfg0 a).win 4).flush t = true := by
  unfold Window.flush
  rw [show ((cfg0 a).win 4).isOut = true from rfl, Bool.true_and, Bool.or_eq_true, decide_eq_true_eq, decide_eq_true_eq]
  by_cases hN : t.val + 1 = (cfg0 a).grid.N
  · exact Or.inl hN
  · have hlt : t.val + 1 < (cfg0 a).grid.N := by have : t.val < (cfg0 a).grid.N := t.isLt; omega
    refine Or.inr ⟨hlt, fun e => ?_⟩
    rw [index_out4, index_out4] at e
    have e0 : row a ⟨t.val + 1, hlt⟩ = row a t := congrFun e (0 : Fin 3)
    exact h.2 ⟨t.val + 1, hlt⟩ (Fin.lt_def.mpr (Nat.lt_succ_self _)) (e0.trans h.1)

/-! ## What a point writes back -/

theorem hz3 : (![0, 0, 0] : Fin 3 → Nat) = fun _ => 0 := funext fun k => by
  match k with | ⟨0, _⟩ => rfl | ⟨1, _⟩ => rfl | ⟨2, _⟩ => rfl

/-- The occupancy block after the body is the constant one; -/
theorem occ_block (j : S1x1x1.Idx) : Scatter0.outOcc (F := F) j = (Scalar.ofBits .f32 0x3F800000#32 : F .f32) := by
  unfold Scatter0.outOcc
  rw [View.canon_unit_zero hz3]
  rfl
/-- the density block is the staged density block; -/
theorem den_block (x0 : Vec F S1x1x1 .f32) : Scatter0.outDen x0 = x0 := by
  unfold Scatter0.outDen
  rw [View.canon_unit_zero hz3, View.ld_unit_zero hz3]
  unfold k0_pay2
  dsimp only
  rw [shapeCast_self]
/-- the point-count block is the staged count block. -/
theorem pts_block (x1 : Vec F S1x1x1 .i32) : Scatter0.outPts x1 = x1 := by
  unfold Scatter0.outPts
  rw [View.canon_unit_zero hz3, View.ld_unit_zero hz3]
  unfold k0_pay3
  dsimp only
  rw [shapeCast_self]

/-- What a point writes back to the occupancy array: the constant one. -/
theorem flushed2 (t : Fin (cfg0 a).N) (y : (((cfg0 a).win 2).xblock ((cfg0 a).grid.coords t)).Idx) :
    (Scatter0.dat a V c).flushed 2 t y = (Scalar.ofBits .f32 0x3F800000#32 : F .f32) := by
  show ((cfg0 a).win 2).cut ((cfg0 a).grid.coords t) ((Scatter0.dat a V c).after 2 t) y = _
  rw [Scatter0.after_2]
  exact occ_block _

/-- The one element of point t's density input block is the density array's t-th entry. -/
theorem iblk0_apply (t : Fin (cfg0 a).N) (y : (((cfg0 a).win 0).xblock ((cfg0 a).grid.coords t)).Idx) :
    Scatter0.iblk a V c 0 t y = V c main_v35 (ValueIdx.ix3 (n0 := 65536) (n1 := 1) (n2 := 1) ⟨t.val, t_lt a t⟩ 0 0) := by
  unfold Scatter0.iblk
  rw [View.read_apply]
  show V c main_v35 _ = V c main_v35 _
  refine congrArg (fun j => V c main_v35 j) (funext fun k => Fin.ext ?_)
  match k with
  | ⟨0, _⟩ =>
    show ((cfg0 a).win 0).index t (0 : Fin 3) * 1 + 1 * (y (0 : Fin 3)).val = t.val
    have e : ((cfg0 a).win 0).index t (0 : Fin 3) = t.val := congrFun (index_in0 a t) (0 : Fin 3)
    have hy : (y (0 : Fin 3)).val < 1 := (y (0 : Fin 3)).isLt
    omega
  | ⟨1, _⟩ =>
    show ((cfg0 a).win 0).index t (1 : Fin 3) * 1 + 1 * (y (1 : Fin 3)).val = 0
    have e : ((cfg0 a).win 0).index t (1 : Fin 3) = 0 := congrFun (index_in0 a t) (1 : Fin 3)
    have hy : (y (1 : Fin 3)).val < 1 := (y (1 : Fin 3)).isLt
    omega
  | ⟨2, _⟩ =>
    show ((cfg0 a).win 0).index t (2 : Fin 3) * 1 + 1 * (y (2 : Fin 3)).val = 0
    have e : ((cfg0 a).win 0).index t (2 : Fin 3) = 0 := congrFun (index_in0 a t) (2 : Fin 3)
    have hy : (y (2 : Fin 3)).val < 1 := (y (2 : Fin 3)).isLt
    omega

/-- The same for the point-count input. -/
theorem iblk1_apply (t : Fin (cfg0 a).N) (y : (((cfg0 a).win 1).xblock ((cfg0 a).grid.coords t)).Idx) :
    Scatter0.iblk a V c 1 t y = V c main_v36 (ValueIdx.ix3 (n0 := 65536) (n1 := 1) (n2 := 1) ⟨t.val, t_lt a t⟩ 0 0) := by
  unfold Scatter0.iblk
  rw [View.read_apply]
  show V c main_v36 _ = V c main_v36 _
  refine congrArg (fun j => V c main_v36 j) (funext fun k => Fin.ext ?_)
  match k with
  | ⟨0, _⟩ =>
    show ((cfg0 a).win 1).index t (0 : Fin 3) * 1 + 1 * (y (0 : Fin 3)).val = t.val
    have e : ((cfg0 a).win 1).index t (0 : Fin 3) = t.val := congrFun (index_in1 a t) (0 : Fin 3)
    have hy : (y (0 : Fin 3)).val < 1 := (y (0 : Fin 3)).isLt
    omega
  | ⟨1, _⟩ =>
    show ((cfg0 a).win 1).index t (1 : Fin 3) * 1 + 1 * (y (1 : Fin 3)).val = 0
    have e : ((cfg0 a).win 1).index t (1 : Fin 3) = 0 := congrFun (index_in1 a t) (1 : Fin 3)
    have hy : (y (1 : Fin 3)).val < 1 := (y (1 : Fin 3)).isLt
    omega
  | ⟨2, _⟩ =>
    show ((cfg0 a).win 1).index t (2 : Fin 3) * 1 + 1 * (y (2 : Fin 3)).val = 0
    have e : ((cfg0 a).win 1).index t (2 : Fin 3) = 0 := congrFun (index_in1 a t) (2 : Fin 3)
    have hy : (y (2 : Fin 3)).val < 1 := (y (2 : Fin 3)).isLt
    omega

/-- What a point writes back to the density array: the density array's entry at the point. -/
theorem flushed3 (t : Fin (cfg0 a).N) (y : (((cfg0 a).win 3).xblock ((cfg0 a).grid.coords t)).Idx) :
    (Scatter0.dat a V c).flushed 3 t y
      = V c main_v35 (ValueIdx.ix3 (n0 := 65536) (n1 := 1) (n2 := 1) ⟨t.val, t_lt a t⟩ 0 0) := by
  show ((cfg0 a).win 3).cut ((cfg0 a).grid.coords t) ((Scatter0.dat a V c).after 3 t) y = _
  rw [Scatter0.after_3]
  exact (congrFun (den_block (Scatter0.iblk a V c 0 t)) _).trans (iblk0_apply a V c t _)

/-- What a point writes back to the point-count array: the count array's entry at the point. -/
theorem flushed4 (t : Fin (cfg0 a).N) (y : (((cfg0 a).win 4).xblock ((cfg0 a).grid.coords t)).Idx) :
    (Scatter0.dat a V c).flushed 4 t y
      = V c main_v36 (ValueIdx.ix3 (n0 := 65536) (n1 := 1) (n2 := 1) ⟨t.val, t_lt a t⟩ 0 0) := by
  show ((cfg0 a).win 4).cut ((cfg0 a).grid.coords t) ((Scatter0.dat a V c).after 4 t) y = _
  rw [Scatter0.after_4]
  exact (congrFun (pts_block (Scatter0.iblk a V c 1 t)) _).trans (iblk1_apply a V c t _)

/-- The one index of a 1×1×1 block. -/
def y1 : S1x1x1.Idx := ValueIdx.ix3 (n0 := 1) (n1 := 1) (n2 := 1) 0 0 0

/-! ## The three arrays after the call -/

/-- Row r of the occupancy array, r last written by point t: the constant one. -/
theorem occ_of_last (t : Fin (cfg0 a).N) (r : Fin 1048576) (h : Last a t r.val) :
    (Scatter0.dat a V c).arrAt 2 (cfg0 a).N (ValueIdx.ix3 (n0 := 1048576) (n1 := 1) (n2 := 1) r 0 0)
      = (Scalar.ofBits .f32 0x3F800000#32 : F .f32) := by
  have hemb := emb2 a t y1 r h.1
  have key := (Scatter0.dat a V c).arrAt_apply_of_last 2 (cfg0 a).N t y1 t.isLt (flush2 a t r.val h)
    (fun t' h1 _ _ hm => h.2 t' h1 (by rw [hemb] at hm; exact (row_of_mem2 a t' _ hm).symm))
  rw [hemb] at key
  rw [key]
  exact flushed2 a V c t y1

/-- Row r of the density array, r last written by point t: the density input's entry at t. -/
theorem den_of_last (t : Fin (cfg0 a).N) (r : Fin 1048576) (h : Last a t r.val) :
    (Scatter0.dat a V c).arrAt 3 (cfg0 a).N (ValueIdx.ix3 (n0 := 1048576) (n1 := 1) (n2 := 1) r 0 0)
      = V c main_v35 (ValueIdx.ix3 (n0 := 65536) (n1 := 1) (n2 := 1) ⟨t.val, t_lt a t⟩ 0 0) := by
  have hemb := emb3 a t y1 r h.1
  have key := (Scatter0.dat a V c).arrAt_apply_of_last 3 (cfg0 a).N t y1 t.isLt (flush3 a t r.val h)
    (fun t' h1 _ _ hm => h.2 t' h1 (by rw [hemb] at hm; exact (row_of_mem3 a t' _ hm).symm))
  rw [hemb] at key
  rw [key]
  exact flushed3 a V c t y1

/-- Row r of the point-count array, r last written by point t: the count input's entry at t. -/
theorem pts_of_last (t : Fin (cfg0 a).N) (r : Fin 1048576) (h : Last a t r.val) :
    (Scatter0.dat a V c).arrAt 4 (cfg0 a).N (ValueIdx.ix3 (n0 := 1048576) (n1 := 1) (n2 := 1) r 0 0)
      = V c main_v36 (ValueIdx.ix3 (n0 := 65536) (n1 := 1) (n2 := 1) ⟨t.val, t_lt a t⟩ 0 0) := by
  have hemb := emb4 a t y1 r h.1
  have key := (Scatter0.dat a V c).arrAt_apply_of_last 4 (cfg0 a).N t y1 t.isLt (flush4 a t r.val h)
    (fun t' h1 _ _ hm => h.2 t' h1 (by rw [hemb] at hm; exact (row_of_mem4 a t' _ hm).symm))
  rw [hemb] at key
  rw [key]
  exact flushed4 a V c t y1

/-- A row no point writes keeps what the call found there: no write-back's block holds it. -/
theorem occ_of_none (r : Fin 1048576) (h : ∀ t : Fin (cfg0 a).N, row a t ≠ r.val) :
    (Scatter0.dat a V c).arrAt 2 (cfg0 a).N (ValueIdx.ix3 (n0 := 1048576) (n1 := 1) (n2 := 1) r 0 0)
      = V c main_v37_0 (ValueIdx.ix3 (n0 := 1048576) (n1 := 1) (n2 := 1) r 0 0) :=
  (Scatter0.dat a V c).arrAt_apply_of_forall_not_mem 2 (cfg0 a).N
    (ValueIdx.ix3 (n0 := 1048576) (n1 := 1) (n2 := 1) r 0 0)
    (fun t _ _ hm => h t (row_of_mem2 a t _ hm).symm)

theorem den_of_none (r : Fin 1048576) (h : ∀ t : Fin (cfg0 a).N, row a t ≠ r.val) :
    (Scatter0.dat a V c).arrAt 3 (cfg0 a).N (ValueIdx.ix3 (n0 := 1048576) (n1 := 1) (n2 := 1) r 0 0)
      = V c main_v37_1 (ValueIdx.ix3 (n0 := 1048576) (n1 := 1) (n2 := 1) r 0 0) :=
  (Scatter0.dat a V c).arrAt_apply_of_forall_not_mem 3 (cfg0 a).N
    (ValueIdx.ix3 (n0 := 1048576) (n1 := 1) (n2 := 1) r 0 0)
    (fun t _ _ hm => h t (row_of_mem3 a t _ hm).symm)

theorem pts_of_none (r : Fin 1048576) (h : ∀ t : Fin (cfg0 a).N, row a t ≠ r.val) :
    (Scatter0.dat a V c).arrAt 4 (cfg0 a).N (ValueIdx.ix3 (n0 := 1048576) (n1 := 1) (n2 := 1) r 0 0)
      = V c main_v37_2 (ValueIdx.ix3 (n0 := 1048576) (n1 := 1) (n2 := 1) r 0 0) :=
  (Scatter0.dat a V c).arrAt_apply_of_forall_not_mem 4 (cfg0 a).N
    (ValueIdx.ix3 (n0 := 1048576) (n1 := 1) (n2 := 1) r 0 0)
    (fun t _ _ hm => h t (row_of_mem4 a t _ hm).symm)

/-- Every row is of one kind or the other: no point writes it, or some point is the last to. -/
theorem none_or_last (r : ℕ) : (∀ t : Fin (cfg0 a).N, row a t ≠ r) ∨ ∃ t : Fin (cfg0 a).N, Last a t r := by
  classical
  exact Fin.none_or_last fun t : Fin (cfg0 a).N => row a t = r

end

end Cert.KernelIdeal.Final0

end
-- ==== Proof.RefIdx.lean ====
/-
  Where a scattered update lands, and in which order updates are applied, for the reference's two scatter shapes.

  A scatter walks its update indices in row-major order; update index j is written at the operand index
  start(j) + window(j), axis by axis, and is dropped when that leaves the operand.

  * The one-dimensional scatter (an array of 1048576 entries, 65536 scalar updates, one index per update): the operand's one
    axis is an inserted axis, so the window coordinate is 0 and update j lands at the j-th index, read as a signed word.
    Its row-major position is j itself.
  * The row scatter (1048576 rows of 64, 19660 rows of updates, one row index per update row): axis 0 takes its start from the
    row's index and has window coordinate 0; axis 1 has start 0 and takes the update's column as its window coordinate. So
    update (r, c) lands at (index r, c), and its row-major position is 64 r + c.
  * An index word that, read unsigned, is below 2^20 is non-negative as a signed word, so the "add the length when negative"
    normalisation leaves it alone, and its signed and unsigned readings agree.
-/
import proofs.«414779_j32066225832083_1_alg».proof.Proof.Gen.ReferenceIdeal
import Idealize.ShloMosaic.Lib.ValueIdx
import Idealize.ShloMosaic.Lib.Pipeline.Value

noncomputable section

namespace Cert.ReferenceIdeal.RefIdx

open Cert.ReferenceIdeal Cert.ReferenceIdeal.Gen Idealize.ShloMosaic

/-! ## The landing index, for any scatter -/

/-- An update lands at operand index i exactly when, on every axis, start plus window coordinate is i's coordinate:
    the in-range test is then i's own bound, and outside it there is no such i. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a : ℕ) : ℤ) := by
  unfold ScatterDims.resultIdx?
  split
  · rename_i h
    rw [Option.some.injEq]
    constructor
    · intro e a
      have e0 : (d.start j idx a + (d.window j a : ℤ)).toNat = ((i a : Fin _) : ℕ) := congrArg (fun f => ((f a : Fin _) : ℕ)) e
      have := h a
      omega
    · intro e
      funext a
      apply Fin.ext
      show (d.start j idx a + (d.window j a : ℤ)).toNat = ((i a : Fin _) : ℕ)
      have := e a
      omega
  · rename_i h
    constructor
    · intro e; cases e
    · intro e
      exfalso; apply h
      intro a
      have := e a
      have := (i a).isLt
      omega

/-! ## The one-dimensional scatter -/

/-- The operand's one axis reads its start off the j-th index: the index array with its unit index-vector axis added is
    read at (j, 0), which is the j-th entry. -/
theorem start1 (x : IVec S65536 32) (j : S65536.Idx) (a : Fin S1048576.rank) :
    scatter_S1048576_S65536x1_S65536_n_0_0_1.start j (broadcastInDim S65536x1 ![0] bcast_S65536_S65536x1_0 x) a = (x j).toInt := by
  have ha : a ∈ scatter_S1048576_S65536x1_S65536_n_0_0_1.scatterDimsToOperandDims := by
    fin_cases a; decide
  unfold ScatterDims.start
  rw [dif_pos ha]
  congr 1
  apply broadcastInDim_apply
  intro b
  have hb0 : b = 0 := Subsingleton.elim _ _
  subst hb0
  have hne : ¬ ((![0] : Fin 1 → Fin S65536x1.rank) 0).val = scatter_S1048576_S65536x1_S65536_n_0_0_1.indexVectorDim := by decide
  have hsz : ¬ S65536.size 0 = 1 := by decide
  rw [if_neg hsz]
  unfold ScatterDims.siIdx
  rw [dif_neg hne]
  unfold ScatterDims.siCoord
  rw [Fin.coe_cast]
  congr 2

/-- The operand's one axis is inserted: no window coordinate. -/
theorem window1 (j : S65536.Idx) (a : Fin S1048576.rank) :
    scatter_S1048576_S65536x1_S65536_n_0_0_1.window j a = 0 := by
  have ha : ¬ a ∈ scatter_S1048576_S65536x1_S65536_n_0_0_1.sKept := by
    fin_cases a; decide
  unfold ScatterDims.window
  rw [dif_neg ha]

/-- Update j lands at operand index i exactly when the j-th index, read signed, is i. -/
theorem resultIdx1 (x : IVec S65536 32) (j : S65536.Idx) (i : S1048576.Idx) :
    scatter_S1048576_S65536x1_S65536_n_0_0_1.resultIdx? j (broadcastInDim S65536x1 ![0] bcast_S65536_S65536x1_0 x) = some i
      ↔ (x j).toInt = ((i 0 : ℕ) : ℤ) := by
  rw [resultIdx?_eq_some_iff]
  constructor
  · intro h
    have h0 := h 0
    rw [start1, window1] at h0
    omega
  · intro e a
    have ha : a = 0 := Subsingleton.elim _ _
    subst ha
    rw [start1, window1]
    omega

/-- The row-major position of a one-dimensional update index is its coordinate. -/
theorem rowMajor1 (j : S65536.Idx) : ((S65536.rowMajor j : Fin _) : ℕ) = (j 0 : ℕ) :=
  Shape.rowMajor_val_one j

/-! ## The row scatter -/

/-- Axis 0 reads its start off the index of the update's row. -/
theorem start2_0 (x : IVec S19660 32) (j : S19660x64.Idx) :
    scatter_S1048576x64_S19660x1_S19660x64_1_0_0_1.start j (broadcastInDim S19660x1 ![0] bcast_S19660_S19660x1_0 x) 0
      = (x (ValueIdx.ix1 (n := 19660) (j 0))).toInt := by
  have ha : (0 : Fin S1048576x64.rank) ∈ scatter_S1048576x64_S19660x1_S19660x64_1_0_0_1.scatterDimsToOperandDims := by decide
  unfold ScatterDims.start
  rw [dif_pos ha]
  congr 1
  apply broadcastInDim_apply
  intro b
  have hb0 : b = 0 := Subsingleton.elim _ _
  subst hb0
  have hne : ¬ ((![0] : Fin 1 → Fin S19660x1.rank) 0).val = scatter_S1048576x64_S19660x1_S19660x64_1_0_0_1.indexVectorDim := by decide
  have hsz : ¬ S19660.size 0 = 1 := by decide
  rw [if_neg hsz]
  unfold ScatterDims.siIdx
  rw [dif_neg hne]
  unfold ScatterDims.siCoord
  rw [Fin.coe_cast]
  rfl

/-- Axis 1 is not a scattered axis: its start is 0. -/
theorem start2_1 (x : IVec S19660 32) (j : S19660x64.Idx) :
    scatter_S1048576x64_S19660x1_S19660x64_1_0_0_1.start j (broadcastInDim S19660x1 ![0] bcast_S19660_S19660x1_0 x) 1 = 0 := by
  have ha : ¬ (1 : Fin S1048576x64.rank) ∈ scatter_S1048576x64_S19660x1_S19660x64_1_0_0_1.scatterDimsToOperandDims := by decide
  unfold ScatterDims.start
  rw [dif_neg ha]

/-- Axis 0 is inserted: no window coordinate. -/
theorem window2_0 (j : S19660x64.Idx) : scatter_S1048576x64_S19660x1_S19660x64_1_0_0_1.window j 0 = 0 := by
  have ha : ¬ (0 : Fin S1048576x64.rank) ∈ scatter_S1048576x64_S19660x1_S19660x64_1_0_0_1.sKept := by decide
  unfold ScatterDims.window
  rw [dif_neg ha]

/-- Axis 1 is the window axis: its window coordinate is the update's column. -/
theorem window2_1 (j : S19660x64.Idx) : scatter_S1048576x64_S19660x1_S19660x64_1_0_0_1.window j 1 = (j 1 : ℕ) := by
  have ha : (1 : Fin S1048576x64.rank) ∈ scatter_S1048576x64_S19660x1_S19660x64_1_0_0_1.sKept := by decide
  unfold ScatterDims.window
  rw [dif_pos ha]
  rfl

/-- Update (r, c) lands at operand index i exactly when the r-th index, read signed, is i's row and c is i's column. -/
theorem resultIdx2 (x : IVec S19660 32) (j : S19660x64.Idx) (i : S1048576x64.Idx) :
    scatter_S1048576x64_S19660x1_S19660x64_1_0_0_1.resultIdx? j (broadcastInDim S19660x1 ![0] bcast_S19660_S19660x1_0 x) = some i
      ↔ (x (ValueIdx.ix1 (n := 19660) (j 0))).toInt = ((i 0 : ℕ) : ℤ) ∧ (i 1 : ℕ) = (j 1 : ℕ) := by
  rw [resultIdx?_eq_some_iff, Fin.forall_fin_two, start2_0, start2_1, window2_0, window2_1]
  constructor
  · rintro ⟨h0, h1⟩
    constructor <;> omega
  · rintro ⟨h0, h1⟩
    constructor <;> omega

/-- The same, with the update's row named by any index r of the index array whose coordinate is the row. -/
theorem resultIdx2_of (x : IVec S19660 32) (j : S19660x64.Idx) (i : S1048576x64.Idx) (r : S19660.Idx) (hr : (r 0 : ℕ) = (j 0 : ℕ)) :
    scatter_S1048576x64_S19660x1_S19660x64_1_0_0_1.resultIdx? j (broadcastInDim S19660x1 ![0] bcast_S19660_S19660x1_0 x) = some i
      ↔ (x r).toInt = ((i 0 : ℕ) : ℤ) ∧ (i 1 : ℕ) = (j 1 : ℕ) := by
  have e : r = ValueIdx.ix1 (n := 19660) (j 0) := by
    funext a
    have ha : a = 0 := Subsingleton.elim _ _
    subst ha
    exact Fin.ext hr
  rw [e]
  exact resultIdx2 x j i

/-- The row-major position of update (r, c) is 64 r + c. -/
theorem rowMajor2 (j : S19660x64.Idx) : ((S19660x64.rowMajor j : Fin _) : ℕ) = (j 0 : ℕ) * 64 + (j 1 : ℕ) :=
  Shape.rowMajor_val_two j

/-! ## Index words below 2^20 -/

/-- Below 2^20 the top bit is clear: the signed reading is the unsigned one. -/
theorem toInt_of_lt (x : BitVec 32) (h : x.toNat < 1048576) : x.toInt = (x.toNat : ℤ) := by
  have hi := BitVec.toInt_eq_toNat_cond x
  rw [if_pos (by omega)] at hi
  exact hi

/-- Below 2^20 a word is not negative. -/
theorem not_slt_zero (x : BitVec 32) (h : x.toNat < 1048576) : ¬ IntOp.cmpi .slt x 0#32 = 1#1 := by
  have ht := toInt_of_lt x h
  have h0 : (0#32 : BitVec 32).toInt = 0 := by decide
  have hs : x.slt 0#32 = false := by
    unfold BitVec.slt
    rw [h0, ht]
    exact decide_eq_false (by omega)
  show ¬ BitVec.ofBool (x.slt 0#32) = 1#1
  rw [hs]
  decide

/-- The normalisation "x + 2^20 if x < 0 else x" is the identity below 2^20, where the two readings of x agree. -/
theorem norm_id (x : BitVec 32) (h : x.toNat < 1048576) :
    (if IntOp.cmpi .slt x 0#32 = 1#1 then x + 1048576#32 else x) = x ∧ x.toInt = (x.toNat : ℤ) :=
  ⟨if_neg (not_slt_zero x h), toInt_of_lt x h⟩

/-- The same, on the elementwise term over the 65536 indices. -/
theorem norm_apply (x : IVec S65536 32) (j : S65536.Idx) (h : (x j).toNat < 1048576) :
    select (cmpi .slt x (broadcastInDim S65536 ![] bcast_S_S65536 (constantI S_ 32 0#32)))
      (addi x (broadcastInDim S65536 ![] bcast_S_S65536 (constantI S_ 32 1048576#32))) x j = x j :=
  if_neg (not_slt_zero (x j) h)

/-- The same, over the 19660 gathered indices. -/
theorem norm_apply_S19660 (x : IVec S19660 32) (j : S19660.Idx) (h : (x j).toNat < 1048576) :
    select (cmpi .slt x (broadcastInDim S19660 ![] bcast_S_S19660 (constantI S_ 32 0#32)))
      (addi x (broadcastInDim S19660 ![] bcast_S_S19660 (constantI S_ 32 1048576#32))) x j = x j :=
  if_neg (not_slt_zero (x j) h)

end Cert.ReferenceIdeal.RefIdx

end
-- ==== Proof.BridgeCells.lean ====
/-
  The first scatter call of the kernel program against the reference's three one-dimensional scatters.

  Kernel side: three zero-filled arrays of 1048576 rows; for t = 0, 1, …, 65535 in order, row flat[t] of each is
  overwritten — by the constant one, by the t-th scaled count, by the t-th count. Reference side: a scatter whose body
  returns the update (a left fold over the updates in row-major order, a later update winning) through the same row
  numbers, a negative one first moved up by the array's length. With every row number (read unsigned) below 2^20
  the move does nothing and the signed and unsigned readings agree, so update t lands on row flat[t] on both sides.
  Hence at every row: if no t names it both sides hold the zero they started with; otherwise both hold the value of
  the LAST t that names it — on the kernel side because a later write-back overwrites an earlier one, on the
  reference side because the fold takes the updates in order. Both results are then viewed as 4 × 512 × 512 grids, row-major:
  grid index (i, j, k) reads row (i·512 + j)·512 + k on both sides.
-/
import proofs.«414779_j32066225832083_1_alg».proof.Proof.KFinal0
import proofs.«414779_j32066225832083_1_alg».proof.Proof.RefIdx
import proofs.«414779_j32066225832083_1_alg».proof.Proof.LibLastWrite
import proofs.«414779_j32066225832083_1_alg».proof.Proof.KHost
import proofs.«414779_j32066225832083_1_alg».proof.Proof.Gen.ReferenceIdeal.Read
import Idealize.ShloMosaic.Lib.ValueIdx
import Idealize.ShloMosaic.Lib.Pipeline.Value

noncomputable section

namespace Cert.BridgeCells

open Idealize.ShloMosaic Idealize.SL.Sem

variable {F : FTy → Type} [FloatOps F]

/-! ## The cross-namespace identities -/

/-- The kernel program's flat row numbers and the reference's are the same composition of the same operations. -/
theorem flatK_eq (x1 : IVec Cert.KernelIdeal.S65536x4 32) :
    Cert.KernelIdeal.HostVal.flatK x1 = Cert.ReferenceIdeal.Read.val_main_v14 (F := F) x1 := rfl

/-- Likewise the scaled counts. -/
theorem densK_eq (x2 : IVec Cert.KernelIdeal.S65536 32) :
    Cert.KernelIdeal.HostVal.densK (F := F) x2 = Cert.ReferenceIdeal.Read.val_main_v37 (F := F) x2 := rfl

section Ref
open Cert.ReferenceIdeal Cert.ReferenceIdeal.Gen

variable {α : Type}

/-- The index array the reference scatters through: the row numbers, a negative one moved up by the
    array's length, with a unit index-vector axis added. -/
def nidx (flat : IVec S65536 32) : IVec S65536x1 32 :=
  broadcastInDim S65536x1 ![0] bcast_S65536_S65536x1_0
    (select (cmpi .slt flat (broadcastInDim S65536 ![] bcast_S_S65536 (constantI S_ 32 0#32)))
      (addi flat (broadcastInDim S65536 ![] bcast_S_S65536 (constantI S_ 32 1048576#32))) flat)

/-- With every row number below 2^20, update j lands on row i exactly when the j-th row number is i. -/
theorem lands_iff (flat : IVec S65536 32) (hr : ∀ i, (flat i).toNat < 1048576) (j : S65536.Idx) (i : S1048576.Idx) :
    scatter_S1048576_S65536x1_S65536_n_0_0_1.resultIdx? j (nidx flat) = some i ↔ (flat j).toNat = (i 0 : ℕ) := by
  unfold nidx
  rw [RefIdx.resultIdx1, RefIdx.norm_apply flat j (hr j), RefIdx.toInt_of_lt _ (hr j)]
  exact Nat.cast_inj

/-- A row no update names keeps the operand's element. -/
theorem ref_of_none (flat : IVec S65536 32) (hr : ∀ i, (flat i).toNat < 1048576) (x : S1048576.Idx → α) (upd : S65536.Idx → α)
    (i : S1048576.Idx) (h : ∀ j : S65536.Idx, (flat j).toNat ≠ (i 0 : ℕ)) :
    Host.scatter scatter_S1048576_S65536x1_S65536_n_0_0_1 (fun _ b => b) x (nidx flat) upd i = x i :=
  Host.scatter_set_apply_of_none _ _ _ _ _ fun j hj => h j ((lands_iff flat hr j i).mp hj)

/-- A row that update j names and no later update names holds update j's element. -/
theorem ref_of_last (flat : IVec S65536 32) (hr : ∀ i, (flat i).toNat < 1048576) (x : S1048576.Idx → α) (upd : S65536.Idx → α)
    (i : S1048576.Idx) (j : S65536.Idx) (hj : (flat j).toNat = (i 0 : ℕ))
    (hlast : ∀ j' : S65536.Idx, (j 0 : ℕ) < (j' 0 : ℕ) → (flat j').toNat ≠ (i 0 : ℕ)) :
    Host.scatter scatter_S1048576_S65536x1_S65536_n_0_0_1 (fun _ b => b) x (nidx flat) upd i = upd j :=
  Host.scatter_set_apply_of_last _ _ _ _ _ j ((lands_iff flat hr j i).mpr hj) fun j' hlt hj' =>
    hlast j' (by rw [RefIdx.rowMajor1, RefIdx.rowMajor1] at hlt; exact hlt) ((lands_iff flat hr j' i).mp hj')

theorem v21_eq (x1 : IVec S65536x4 32) : Read.val_main_v21 (F := F) x1 = nidx (Read.val_main_v14 (F := F) x1) := rfl
theorem v31_eq (x1 : IVec S65536x4 32) : Read.val_main_v31 (F := F) x1 = nidx (Read.val_main_v14 (F := F) x1) := rfl
theorem v43_eq (x1 : IVec S65536x4 32) : Read.val_main_v43 (F := F) x1 = nidx (Read.val_main_v14 (F := F) x1) := rfl

end Ref

/-! ## The two overwritings agree, row by row -/

section Cells
open Cert.ReferenceIdeal Cert.ReferenceIdeal.Gen

variable {β : Type}

/-- A one-axis index is determined by its coordinate. -/
theorem ix1_val (j : S65536.Idx) (h : (j 0).val < 65536) : ValueIdx.ix1 (n := 65536) ⟨(j 0).val, h⟩ = j := by
  funext d; match d with | ⟨0, _⟩ => rfl

/-- An array of 1048576 rows (each a 1×1 block) built by N = 65536 overwriting steps, step t naming row `row t`,
    against the reference's scatter through the same row numbers. Where the two agree on the start contents
    (`hz`) and on the written values (`hu`), and the built array holds the start contents at a row no step names
    and the last naming step's value at a named row, the two arrays are equal viewed as 4 × 512 × 512 grids: both views
    read row-major position r, and a step is later exactly when its update is later in row-major order. -/
theorem cells_eq (N : ℕ) (hN : N = 65536) (row : Fin N → ℕ) (flat : IVec S65536 32)
    (hrow : ∀ t : Fin N, row t = (flat (ValueIdx.ix1 (n := 65536) ⟨t.val, hN ▸ t.isLt⟩)).toNat)
    (hrange : ∀ i, (flat i).toNat < 1048576)
    (A z : Cert.KernelIdeal.S1048576x1x1.Idx → β) (u : Fin N → β)
    (x : S1048576.Idx → β) (upd : S65536.Idx → β)
    (hnone : ∀ r : Fin 1048576, (∀ t, row t ≠ r.val) → A (ValueIdx.ix3 r 0 0) = z (ValueIdx.ix3 r 0 0))
    (hlast : ∀ (t : Fin N) (r : Fin 1048576), row t = r.val → (∀ t', t < t' → row t' ≠ r.val) → A (ValueIdx.ix3 r 0 0) = u t)
    (hz : ∀ r : Fin 1048576, z (ValueIdx.ix3 r 0 0) = x (ValueIdx.ix1 r))
    (hu : ∀ t : Fin N, u t = upd (ValueIdx.ix1 (n := 65536) ⟨t.val, hN ▸ t.isLt⟩))
    (h : Cert.KernelIdeal.S1048576x1x1.ShapeCasts Cert.KernelIdeal.S4x512x512) (h' : S1048576.ShapeCasts S4x512x512) :
    shapeCast Cert.KernelIdeal.S4x512x512 A h
      = shapeCast S4x512x512 (Host.scatter scatter_S1048576_S65536x1_S65536_n_0_0_1 (fun _ b => b) x (nidx flat) upd) h' := by
  subst hN
  funext j
  have h0 : (j 0).val < 4 := (j 0).isLt
  have h1 : (j 1).val < 512 := (j 1).isLt
  have h2 : (j 2).val < 512 := (j 2).isLt
  have hr : ((j 0).val * 512 + (j 1).val) * 512 + (j 2).val < 1048576 := by omega
  -- both views read row-major position r
  rw [shapeCast_apply A h j (ValueIdx.ix3 (n0 := 1048576) (n1 := 1) (n2 := 1) ⟨_, hr⟩ 0 0)
    (by rw [Shape.rowMajor_val_three, Shape.rowMajor_val_three]
        show ((((j 0).val * 512 + (j 1).val) * 512 + (j 2).val) * 1 + 0) * 1 + 0 = ((j 0).val * 512 + (j 1).val) * 512 + (j 2).val
        omega)]
  rw [shapeCast_apply _ h' j (ValueIdx.ix1 (n := 1048576) ⟨_, hr⟩)
    (by rw [Shape.rowMajor_val_one, Shape.rowMajor_val_three]; rfl)]
  rcases Fin.none_or_last (fun t : Fin 65536 => row t = ((j 0).val * 512 + (j 1).val) * 512 + (j 2).val) with hn | ⟨t, ht, hl⟩
  · -- no step names the row
    rw [hnone ⟨_, hr⟩ hn, hz]
    refine (ref_of_none flat hrange x upd _ fun j' hj' => ?_).symm
    exact hn ⟨(j' 0).val, (j' 0).isLt⟩
      (((hrow _).trans (congrArg (fun k => (flat k).toNat) (ix1_val j' (j' 0).isLt))).trans hj')
  · -- step t is the last to name it
    rw [hlast t ⟨_, hr⟩ ht hl, hu]
    refine (ref_of_last flat hrange x upd _ _ ?_ fun j' hlt hj' => ?_).symm
    · rw [← hrow]; exact ht
    · exact hl ⟨(j' 0).val, (j' 0).isLt⟩ (Fin.lt_def.mpr hlt)
        (((hrow _).trans (congrArg (fun k => (flat k).toNat) (ix1_val j' (j' 0).isLt))).trans hj')

end Cells

/-! ## The three arrays of the first scatter call against the reference's three scatters -/

section Kernel
open Cert.KernelIdeal Cert.KernelIdeal.Gen
open Idealize.ShloMosaic.TcCoe

variable (a : (pcfg0 (F := F)).Adm)
variable (V : (c : Dev nD) → (b : Ref sig .tc) → Buf (Elt F) ((c : Thread nD τ).loc b))
variable (c : Dev nD)
variable (x1 : IVec S65536x4 32) (x2 : IVec S65536 32)

/-- The row a point writes is the reference's row number at that point. -/
theorem row_eq (htbl : (a.1 0 : IVec S65536 32) = HostVal.flatK x1) (t : Fin (cfg0 a).N) :
    Final0.row a t
      = (Cert.ReferenceIdeal.Read.val_main_v14 (F := F) x1 (ValueIdx.ix1 (n := 65536) ⟨t.val, N_0 ▸ t.isLt⟩)).toNat := by
  unfold Final0.row
  rw [htbl]
  rfl

/-- The [65536] → [65536, 1, 1] view read at (t, 0, 0) is the array at (t). -/
theorem view3_apply {β : Type} (y : S65536.Idx → β) (h : S65536.ShapeCasts S65536x1x1) (t : Fin 65536) :
    shapeCast S65536x1x1 y h (ValueIdx.ix3 (n0 := 65536) (n1 := 1) (n2 := 1) t 0 0) = y (ValueIdx.ix1 (n := 65536) t) :=
  shapeCast_apply y h _ _ (by
    rw [Shape.rowMajor_val_one, Shape.rowMajor_val_three]
    show t.val = (t.val * 1 + 0) * 1 + 0
    omega)

/-- The occupancy array: one at every row some point names, zero elsewhere, on both sides. -/
theorem occ_eq (htbl : (a.1 0 : IVec S65536 32) = HostVal.flatK x1)
    (hrange : ∀ i, (HostVal.flatK x1 i).toNat < 1048576)
    (hz0 : V c main_v37_0 = broadcastInDim S1048576x1x1 ![] Cert.KernelIdeal.Facts₀.bcast_S_S1048576x1x1 (constant S_ .f32 0x00000000#32)) :
    shapeCast _ ((Scatter0.dat a V c).arrAt 2 (cfg0 a).N) Cert.KernelIdeal.Facts₀.shapeCasts_S1048576x1x1_S4x512x512
      = Cert.ReferenceIdeal.Read.val_main_v24 (F := F) x1 := by
  refine cells_eq (cfg0 a).N N_0 (Final0.row a) (Cert.ReferenceIdeal.Read.val_main_v14 (F := F) x1) (row_eq a x1 htbl) hrange
    ((Scatter0.dat a V c).arrAt 2 (cfg0 a).N) (V c main_v37_0) (fun _ => (Scalar.ofBits .f32 0x3F800000#32 : F .f32))
    (Cert.ReferenceIdeal.Read.val_main_v15 (F := F)) (Cert.ReferenceIdeal.Read.val_main_v22 (F := F))
    (fun r h => Final0.occ_of_none a V c r h) (fun t r h1 h2 => Final0.occ_of_last a V c t r ⟨h1, h2⟩)
    (fun r => ?_) (fun t => ?_) _ _
  · rw [hz0]; rfl
  · rfl

/-- The density array: the last naming point's scaled count, zero elsewhere, on both sides. -/
theorem den_eq (htbl : (a.1 0 : IVec S65536 32) = HostVal.flatK x1)
    (hrange : ∀ i, (HostVal.flatK x1 i).toNat < 1048576)
    (hden : V c main_v35 = shapeCast _ (HostVal.densK (F := F) x2) Cert.KernelIdeal.Facts₀.shapeCasts_S65536_S65536x1x1)
    (hz1 : V c main_v37_1 = broadcastInDim S1048576x1x1 ![] Cert.KernelIdeal.Facts₀.bcast_S_S1048576x1x1 (constant S_ .f32 0x00000000#32)) :
    shapeCast _ ((Scatter0.dat a V c).arrAt 3 (cfg0 a).N) Cert.KernelIdeal.Facts₀.shapeCasts_S1048576x1x1_S4x512x512
      = Cert.ReferenceIdeal.Read.val_main_v45 (F := F) x1 x2 := by
  refine cells_eq (cfg0 a).N N_0 (Final0.row a) (Cert.ReferenceIdeal.Read.val_main_v14 (F := F) x1) (row_eq a x1 htbl) hrange
    ((Scatter0.dat a V c).arrAt 3 (cfg0 a).N) (V c main_v37_1)
    (fun t => V c main_v35 (ValueIdx.ix3 (n0 := 65536) (n1 := 1) (n2 := 1) ⟨t.val, Final0.t_lt a t⟩ 0 0))
    (Cert.ReferenceIdeal.Read.val_main_v34 (F := F)) (Cert.ReferenceIdeal.Read.val_main_v37 (F := F) x2)
    (fun r h => Final0.den_of_none a V c r h) (fun t r h1 h2 => Final0.den_of_last a V c t r ⟨h1, h2⟩)
    (fun r => ?_) (fun t => ?_) _ _
  · rw [hz1]; rfl
  · show V c main_v35 _ = _
    rw [hden, view3_apply]
    rfl

/-- The count array: the last naming point's count, zero elsewhere, on both sides. -/
theorem pts_eq (htbl : (a.1 0 : IVec S65536 32) = HostVal.flatK x1)
    (hrange : ∀ i, (HostVal.flatK x1 i).toNat < 1048576)
    (hpts : V c main_v36 = shapeCast _ x2 Cert.KernelIdeal.Facts₀.shapeCasts_S65536_S65536x1x1)
    (hz2 : V c main_v37_2 = broadcastInDim S1048576x1x1 ![] Cert.KernelIdeal.Facts₀.bcast_S_S1048576x1x1 (constantI S_ 32 0#32)) :
    shapeCast _ ((Scatter0.dat a V c).arrAt 4 (cfg0 a).N) Cert.KernelIdeal.Facts₀.shapeCasts_S1048576x1x1_S4x512x512
      = Cert.ReferenceIdeal.Read.val_main_v33 (F := F) x1 x2 := by
  refine cells_eq (cfg0 a).N N_0 (Final0.row a) (Cert.ReferenceIdeal.Read.val_main_v14 (F := F) x1) (row_eq a x1 htbl) hrange
    ((Scatter0.dat a V c).arrAt 4 (cfg0 a).N) (V c main_v37_2)
    (fun t => V c main_v36 (ValueIdx.ix3 (n0 := 65536) (n1 := 1) (n2 := 1) ⟨t.val, Final0.t_lt a t⟩ 0 0))
    (Cert.ReferenceIdeal.Read.val_main_v25 (F := F)) x2
    (fun r h => Final0.pts_of_none a V c r h) (fun t r h1 h2 => Final0.pts_of_last a V c t r ⟨h1, h2⟩)
    (fun r => ?_) (fun t => ?_) _ _
  · rw [hz2]; rfl
  · show V c main_v36 _ = _
    rw [hpts, view3_apply]

end Kernel

end Cert.BridgeCells

end
-- ==== Proof.KFinal1.lean ====
/-
  The second scatter call, read off after its last grid point, for ARBITRARY admissible contents `a` of the table of
  row numbers and an arbitrary valuation `V` of the buffers at the call's entry.

  At point t the call stages row t of the 19660×1×64 input and leaves it, unchanged, in the output's 1×1×64 staging
  block; that block is written back to row `row a t` (the table's t-th word, read unsigned) of the 1048576×1×64 output,
  at the last point and wherever the next point's row differs. The points run in order, so:

  * `index_out`   — the output's block index at point t is (row a t, 0, 0);
  * `mem_blk`     — an index of the output lies in point t's block iff its row is `row a t`;
  * `flush_of_last` — the LAST point writing a given row does write its block back;
  * `row_of_last` — row r of the output, when t is the last point with `row a t = r`, is row t of the input;
  * `row_of_none` — a row no point writes keeps the contents the call found.

  Indices are spelt by coordinates: `ValueIdx.ix1` for the table, `ValueIdx.ix3` for the rank-3 arrays and blocks.
-/
import proofs.«414779_j32066225832083_1_alg».proof.Proof.Scatter1
import proofs.«414779_j32066225832083_1_alg».proof.Proof.LibLastWrite
import Idealize.ShloMosaic.Lib.ValueIdx
import Idealize.ShloMosaic.Lib.Pipeline.Value

set_option maxRecDepth 16384

noncomputable section

namespace Cert.KernelIdeal.Final1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (a : (pcfg1 (F := F)).Adm)
variable (V : (c : Dev nD) → (b : Ref sig .tc) → Buf (Elt F) ((c : Thread nD τ).loc b))
variable (c : Dev nD)

/-- The grid has 19660 points. -/
theorem N_eq : (cfg1 a).N = 19660 := by rfl

theorem lt_N (t : Fin (cfg1 a).N) : t.val < 19660 := (N_eq a) ▸ t.isLt

/-- the row point t writes: the table's t-th word read unsigned -/
def row (t : Fin (cfg1 a).N) : ℕ := (a.1 0 (ValueIdx.ix1 (n := 19660) ⟨t.val, lt_N a t⟩)).toNat

/-- On the one-axis grid the point's coordinate is the point. -/
theorem coords0 (t : Fin (cfg1 a).N) : (((cfg1 a).grid.coords t) 0 : ℕ) = t.val := by
  have ht : t.val < 19660 := lt_N a t
  show t.val / 1 % 19660 = t.val
  rw [Nat.div_one, Nat.mod_eq_of_lt ht]

/-- The output's block index at point t: the table's word there, then zeros. -/
theorem index_out (t : Fin (cfg1 a).N) : ((cfg1 a).win 1).index t = ![row a t, 0, 0] := by
  have ht : t.val < 19660 := lt_N a t
  show cc1_transform_2 k1_off1_inb numel1_S1 a.1 ((cfg1 a).grid.coords t) = _
  unfold cc1_transform_2
  dsimp only
  have key : (a.1).at 0 (Rect.unit (s := S19660) ![BitVec.toNat (Scalar.indexCast (BitVec.ofNat 32 ((cfg1 a).grid.coords t 0).val))] S1.size (k1_off1_inb _)) numel1_S1
      = a.1 0 (ValueIdx.ix1 (n := 19660) ⟨t.val, ht⟩) := by
    show a.1 0 _ = a.1 0 _
    refine congrArg (a.1 0) ?_
    funext d
    match d with
    | ⟨0, _⟩ =>
      apply Fin.ext
      show BitVec.toNat (BitVec.ofNat 32 ((cfg1 a).grid.coords t 0).val) + 1 * 0 = t.val
      rw [coords0, BitVec.toNat_ofNat, Nat.mod_eq_of_lt (by omega)]
      omega
  rw [key]
  rfl

/-! ## Rows of the big array: membership in a one-row block, and where a block's element lands -/

/-- An index of the 1048576×1×64 array lies in the 1×1×64 block at block index (r, 0, 0) iff its row is r. -/
theorem mem_unit_row (idx : Fin 3 → ℕ) (r : ℕ) (h : idx = ![r, 0, 0])
    (inb : ∀ d, idx d * S1x1x64.size d + S1x1x64.size d ≤ S1048576x1x64.size d) (i : S1048576x1x64.Idx) :
    i ∈ (Rect.unit (s := S1048576x1x64) (fun d => idx d * S1x1x64.size d) S1x1x64.size inb).set ↔ (i 0 : ℕ) = r := by
  subst h
  rw [Rect.mem_set_unit]
  constructor
  · intro h
    have h0 : r * 1 ≤ (i 0).val ∧ (i 0).val < r * 1 + 1 := h 0
    omega
  · intro h d
    match d with
    | ⟨0, _⟩ => show r * 1 ≤ (i 0).val ∧ (i 0).val < r * 1 + 1; omega
    | ⟨1, _⟩ => show 0 * 1 ≤ (i 1).val ∧ (i 1).val < 0 * 1 + 1; have h1 : (i 1).val < 1 := (i 1).isLt; omega
    | ⟨2, _⟩ => show 0 * 64 ≤ (i 2).val ∧ (i 2).val < 0 * 64 + 64; have h2 : (i 2).val < 64 := (i 2).isLt; omega

/-- Element (0, 0, k) of the block at block index (r, 0, 0) is element (r, 0, k) of the array. -/
theorem emb_unit_row {n : ℕ} (idx : Fin 3 → ℕ) (r : Fin n) (h : idx = ![r.val, 0, 0])
    (inb : ∀ d, idx d * S1x1x64.size d + S1x1x64.size d ≤ (⟨3, ![n, 1, 64]⟩ : Shape).size d) (k : Fin 64) :
    (Rect.unit (s := ⟨3, ![n, 1, 64]⟩) (fun d => idx d * S1x1x64.size d) S1x1x64.size inb).emb
        (ValueIdx.ix3 (n0 := 1) (n1 := 1) (n2 := 64) 0 0 k)
      = ValueIdx.ix3 (n0 := n) (n1 := 1) (n2 := 64) r 0 k := by
  subst h
  funext d
  apply Fin.ext
  match d with
  | ⟨0, _⟩ => show r.val * 1 + 1 * 0 = r.val; omega
  | ⟨1, _⟩ => show 0 * 1 + 1 * 0 = 0; omega
  | ⟨2, _⟩ => show 0 * 64 + 1 * k.val = k.val; omega

/-- An index of the output array is in point t's block iff its row is the point's row. -/
theorem mem_blk (t : Fin (cfg1 a).N) (i : S1048576x1x64.Idx) :
    i ∈ (((cfg1 a).win 1).blk t).view.set ↔ (i 0 : ℕ) = row a t :=
  (Finset.ext_iff.mp (View.set_slice_whole main_v40 (((cfg1 a).win 1).rect t)) i).trans
    (mem_unit_row (((cfg1 a).win 1).index t) (row a t) (index_out a t) _ i)

/-! ## Which points write back -/

/-- Point t is the LAST point writing row r. -/
def Last (t : Fin (cfg1 a).N) (r : ℕ) : Prop := row a t = r ∧ ∀ t' : Fin (cfg1 a).N, t < t' → row a t' ≠ r

/-- The last point writing a row writes its block back: it is the last point of all, or the next point's row differs. -/
theorem flush_of_last (t : Fin (cfg1 a).N) (r : ℕ) (h : Last a t r) : ((cfg1 a).win 1).flush t = true := by
  have htN : t.val < (cfg1 a).grid.N := t.isLt
  unfold Window.flush
  show (true && (decide (t.val + 1 = (cfg1 a).grid.N)
    || decide (∃ h' : t.val + 1 < (cfg1 a).grid.N, ((cfg1 a).win 1).index ⟨t.val + 1, h'⟩ ≠ ((cfg1 a).win 1).index t))) = true
  rw [Bool.true_and, Bool.or_eq_true, decide_eq_true_eq, decide_eq_true_eq]
  by_cases hN : t.val + 1 = (cfg1 a).grid.N
  · exact Or.inl hN
  · have hlt : t.val + 1 < (cfg1 a).grid.N := by omega
    refine Or.inr ⟨hlt, fun e => ?_⟩
    rw [index_out, index_out] at e
    have e0 : row a ⟨t.val + 1, hlt⟩ = row a t := congrFun e 0
    exact h.2 ⟨t.val + 1, hlt⟩ (Fin.lt_def.mpr (Nat.lt_succ_self _)) (e0.trans h.1)

/-! ## What a point writes back -/

theorem hz3 : (![0, 0, 0] : Fin 3 → ℕ) = fun _ => 0 := funext fun d => by fin_cases d <;> rfl

/-- The body leaves in the output's staging block exactly the input's staged row. -/
theorem outRow_eq (x0 : Vec F S1x1x64 .f32) : Scatter1.outRow x0 = x0 := by
  unfold Scatter1.outRow Scatter1.r64
  rw [View.canon_unit_zero hz3]
  unfold k1_pay1
  dsimp only
  rw [View.ld_unit_zero hz3, shapeCast_self]

/-- The input's block index at point t is the point. -/
theorem index_in (t : Fin (cfg1 a).N) : ((cfg1 a).win 0).index t = ![t.val, 0, 0] := by
  have ht : t.val < 19660 := lt_N a t
  show cc1_transform_0 ((cfg1 a).grid.coords t) = _
  unfold cc1_transform_0
  dsimp only
  rw [coords0, BitVec.toNat_ofNat, Nat.mod_eq_of_lt (by omega)]
  rfl

/-- The input's staged block at point t is row t of the input array. -/
theorem iblk0_apply (t : Fin (cfg1 a).N) (k : Fin 64) :
    Scatter1.iblk a V c 0 t (ValueIdx.ix3 (n0 := 1) (n1 := 1) (n2 := 64) 0 0 k)
      = V c main_v39 (ValueIdx.ix3 (n0 := 19660) (n1 := 1) (n2 := 64) ⟨t.val, lt_N a t⟩ 0 k) := by
  show V c main_v39 ((((cfg1 a).win 0).rect t).emb (ValueIdx.ix3 (n0 := 1) (n1 := 1) (n2 := 64) 0 0 k)) = _
  refine congrArg (V c main_v39) ?_
  exact emb_unit_row (((cfg1 a).win 0).index t) ⟨t.val, lt_N a t⟩ (index_in a t) _ k

/-! ## The output array after the call -/

/-- Row r of the output, when some point writes it, holds the input's row at the LAST such point. -/
theorem row_of_last (t : Fin (cfg1 a).N) (r : Fin 1048576) (k : Fin 64) (h : Last a t r.val) :
    (Scatter1.dat a V c).arrAt 1 (cfg1 a).N (ValueIdx.ix3 (n0 := 1048576) (n1 := 1) (n2 := 64) r 0 k)
      = V c main_v39 (ValueIdx.ix3 (n0 := 19660) (n1 := 1) (n2 := 64) ⟨t.val, lt_N a t⟩ 0 k) := by
  -- element (0, 0, k) of point t's block is element (r, 0, k) of the array
  have hemb : (((cfg1 a).win 1).rect t).emb (ValueIdx.ix3 (n0 := 1) (n1 := 1) (n2 := 64) 0 0 k)
      = ValueIdx.ix3 (n0 := 1048576) (n1 := 1) (n2 := 64) r 0 k :=
    emb_unit_row (((cfg1 a).win 1).index t) r ((index_out a t).trans (by rw [h.1])) _ k
  -- no later point's block holds it: a later point writes another row
  have key := (Scatter1.dat a V c).arrAt_apply_of_last 1 (cfg1 a).N t
    (ValueIdx.ix3 (n0 := 1) (n1 := 1) (n2 := 64) 0 0 k) t.isLt (flush_of_last a t r.val h)
    (fun t' hlt _ _ hmem => by
      have hm := (mem_blk a t' _).mp hmem
      have e0 : (fun i : S1048576x1x64.Idx => (i 0 : ℕ))
          ((((cfg1 a).win 1).rect t).emb (ValueIdx.ix3 (n0 := 1) (n1 := 1) (n2 := 64) 0 0 k)) = r.val :=
        congrArg (fun i : S1048576x1x64.Idx => (i 0 : ℕ)) hemb
      exact h.2 t' hlt (hm.symm.trans e0))
  refine (congrArg ((Scatter1.dat a V c).arrAt 1 (cfg1 a).N) hemb.symm).trans (key.trans ?_)
  -- what point t wrote back: the body's output block, which is the input's staged row
  show (Scatter1.dat a V c).after 1 t (ValueIdx.ix3 (n0 := 1) (n1 := 1) (n2 := 64) 0 0 k) = _
  rw [Scatter1.after_1]
  exact (congrFun (outRow_eq (F := F) (Scatter1.iblk a V c 0 t)) _).trans (iblk0_apply a V c t k)

/-- A row no point writes keeps the contents the call found. -/
theorem row_of_none (r : Fin 1048576) (k : Fin 64) (h : ∀ t : Fin (cfg1 a).N, row a t ≠ r.val) :
    (Scatter1.dat a V c).arrAt 1 (cfg1 a).N (ValueIdx.ix3 (n0 := 1048576) (n1 := 1) (n2 := 64) r 0 k)
      = V c main_v40 (ValueIdx.ix3 (n0 := 1048576) (n1 := 1) (n2 := 64) r 0 k) := by
  have key := (Scatter1.dat a V c).arrAt_apply_of_forall_not_mem 1 (cfg1 a).N
    (ValueIdx.ix3 (n0 := 1048576) (n1 := 1) (n2 := 64) r 0 k)
    (fun t _ _ hmem => h t ((mem_blk a t _).mp hmem).symm)
  exact key.trans (congrFun (Scatter1.A_eq a V c 1) _)

end
end Cert.KernelIdeal.Final1
end
-- ==== Proof.BridgeRows.lean ====
/-
  The second scatter call of the kernel program and the reference's row scatter build the same array.

  Kernel side: a zero-filled array of 1048576 rows of 64 in which, for t = 0, …, 19659 in order, row sel[t] is
  overwritten by the 64-wide row feat[t]. Reference side: a scatter of the 19660 · 64 update ELEMENTS in row-major
  order (t major, column minor), element (t, k) landing at (sel[t], k) once sel[t] has been normalised, later ones
  winning. Every sel[t], read unsigned, is below 1048576 (it is an entry of the flat cell numbers), so the
  normalisation leaves it alone and its signed and unsigned readings agree.

  At a cell (r, k) both sides then hold: zero when no t has sel[t] = r; otherwise feat[t][k] for the LAST t with
  sel[t] = r. On the reference side: the only update elements landing on (r, k) are the (t', k) with sel[t'] = r, and
  (t, k) precedes (t', k) in row-major order exactly when t < t'. Both sides finally view their 1048576 rows as a
  4 × 262144 grid of rows, row-major, so cell (b, n, k) of the result is row b · 262144 + n, column k, on both sides.
-/
import proofs.«414779_j32066225832083_1_alg».proof.Proof.RefIdx
import proofs.«414779_j32066225832083_1_alg».proof.Proof.LibLastWrite
import proofs.«414779_j32066225832083_1_alg».proof.Proof.KHost
import proofs.«414779_j32066225832083_1_alg».proof.Proof.KFinal1
import proofs.«414779_j32066225832083_1_alg».proof.Proof.Gen.ReferenceIdeal.Read
import Idealize.ShloMosaic.Lib.ValueIdx
import Idealize.ShloMosaic.Lib.Pipeline.Value

noncomputable section

namespace Cert.BridgeRows

open Idealize.ShloMosaic

variable {F : FTy → Type} [FloatOps F]

/-! ## The two programs compute the same looked-up arrays -/

/-- The sampled flat cell numbers: the same composition of array functions in both programs. -/
theorem flatSelK_eq (x1 : IVec Cert.KernelIdeal.S65536x4 32) (x3 : IVec Cert.KernelIdeal.S19660 32) :
    Cert.KernelIdeal.HostVal.flatSelK x1 x3 = Cert.ReferenceIdeal.Read.val_main_v52 (F := F) x1 x3 := rfl

/-- The sampled feature rows: the same gather in both programs. -/
theorem featSelK_eq (x0 : FVec F Cert.KernelIdeal.S65536x64 .f32) (x3 : IVec Cert.KernelIdeal.S19660 32) :
    Cert.KernelIdeal.HostVal.featSelK (F := F) x0 x3 = Cert.ReferenceIdeal.Read.val_main_v59 (F := F) x0 x3 := rfl

/-- A sampled flat cell number is an entry of the flat cell numbers, so it inherits their bound. -/
theorem sel_lt (x1 : IVec Cert.KernelIdeal.S65536x4 32) (x3 : IVec Cert.KernelIdeal.S19660 32)
    (hrange : ∀ i, (Cert.KernelIdeal.HostVal.flatK x1 i).toNat < 1048576) (t : Cert.KernelIdeal.S19660.Idx) :
    (Cert.KernelIdeal.HostVal.flatSelK x1 x3 t).toNat < 1048576 :=
  hrange _

/-! ## The reference's row scatter, read at one element -/

section Ref
open Cert.ReferenceIdeal Cert.ReferenceIdeal.Gen Cert.ReferenceIdeal.Read Cert.ReferenceIdeal.RefIdx

variable (x0 : FVec F S65536x64 .f32) (x1 : IVec S65536x4 32) (x3 : IVec S19660 32)
variable (hsel : ∀ t, (val_main_v52 (F := F) x1 x3 t).toNat < 1048576)

include hsel in
/-- Update element (t, k) lands on cell i exactly when sel[t], read unsigned, is i's row and k is i's column: below
    2^20 the normalisation is the identity and the signed reading is the unsigned one. -/
theorem lands_iff (j : S19660x64.Idx) (i : S1048576x64.Idx) :
    scatter_S1048576x64_S19660x1_S19660x64_1_0_0_1.resultIdx? j (val_main_v66 (F := F) x1 x3) = some i
      ↔ (val_main_v52 (F := F) x1 x3 (ValueIdx.ix1 (n := 19660) (j 0))).toNat = (i 0 : ℕ) ∧ (i 1 : ℕ) = (j 1 : ℕ) := by
  have hn := norm_apply_S19660 (val_main_v52 (F := F) x1 x3) (ValueIdx.ix1 (n := 19660) (j 0)) (hsel _)
  have ht := toInt_of_lt _ (hsel (ValueIdx.ix1 (n := 19660) (j 0)))
  have hr := resultIdx2 (val_main_v65 (F := F) x1 x3) j i
  have e : val_main_v65 (F := F) x1 x3 (ValueIdx.ix1 (n := 19660) (j 0)) = val_main_v52 (F := F) x1 x3 (ValueIdx.ix1 (n := 19660) (j 0)) := hn
  rw [e, ht] at hr
  refine Iff.trans hr ?_
  constructor
  · rintro ⟨h0, h1⟩; exact ⟨by exact_mod_cast h0, h1⟩
  · rintro ⟨h0, h1⟩; exact ⟨by exact_mod_cast h0, h1⟩

include hsel in
/-- A row no update row is sent to keeps the zero-filled operand's element. -/
theorem ref_none (i : S1048576x64.Idx)
    (h : ∀ t : Fin 19660, (val_main_v52 (F := F) x1 x3 (ValueIdx.ix1 t)).toNat ≠ (i 0 : ℕ)) :
    val_main_v67 (F := F) x0 x1 x3 i = val_main_v60 (F := F) i := by
  unfold val_main_v67
  apply Host.scatter_set_apply_of_none
  intro j hj
  exact h (j 0) ((lands_iff x1 x3 hsel j i).mp hj).1

include hsel in
/-- A row that update row t is sent to, and no later update row, holds update row t. -/
theorem ref_last (i : S1048576x64.Idx) (t : Fin 19660)
    (ht : (val_main_v52 (F := F) x1 x3 (ValueIdx.ix1 t)).toNat = (i 0 : ℕ))
    (h : ∀ t' : Fin 19660, t < t' → (val_main_v52 (F := F) x1 x3 (ValueIdx.ix1 t')).toNat ≠ (i 0 : ℕ)) :
    val_main_v67 (F := F) x0 x1 x3 i = val_main_v59 (F := F) x0 x3 (ValueIdx.ix2 t (i 1)) := by
  unfold val_main_v67
  apply Host.scatter_set_apply_of_last
  · exact (lands_iff x1 x3 hsel _ i).mpr ⟨ht, rfl⟩
  · intro j' hlt hj'
    obtain ⟨h0, h1⟩ := (lands_iff x1 x3 hsel j' i).mp hj'
    rw [rowMajor2, rowMajor2] at hlt
    have e1 : ((ValueIdx.ix2 t (i 1) : S19660x64.Idx) 1 : ℕ) = (i 1 : ℕ) := rfl
    have e0 : ((ValueIdx.ix2 t (i 1) : S19660x64.Idx) 0 : ℕ) = (t : ℕ) := rfl
    rw [e0, e1] at hlt
    refine h (j' 0) (Fin.lt_def.mpr ?_) h0
    omega

end Ref

/-! ## Reading the reshapes and the zero fill at an index -/

/-- The row number of a cell of the 4 × 262144 grid. -/
def rowOf (j0 : Fin 4) (j1 : Fin 262144) : Fin 1048576 := ⟨(j0 : ℕ) * 262144 + (j1 : ℕ), by omega⟩

/-- 1048576 rows of 1 × 64, viewed as 4 × 262144 × 64: cell (b, n, k) is row b·262144 + n, column k. -/
theorem read_rows3 {α : Type} (A : Cert.KernelIdeal.S1048576x1x64.Idx → α)
    (h : Cert.KernelIdeal.S1048576x1x64.ShapeCasts Cert.KernelIdeal.S4x262144x64) (j : Cert.KernelIdeal.S4x262144x64.Idx) :
    shapeCast _ A h j = A (ValueIdx.ix3 (rowOf (j 0) (j 1)) (0 : Fin 1) (j 2)) := by
  apply shapeCast_apply
  rewrite [Shape.rowMajor_val_three, Shape.rowMajor_val_three]
  show (((j 0 : ℕ) * 262144 + (j 1 : ℕ)) * 1 + 0) * 64 + (j 2 : ℕ) = ((j 0 : ℕ) * 262144 + (j 1 : ℕ)) * 64 + (j 2 : ℕ)
  omega

/-- 1048576 rows of 64, viewed as 4 × 262144 × 64: the same cell. -/
theorem read_rows2 {α : Type} (B : Cert.ReferenceIdeal.S1048576x64.Idx → α)
    (h : Cert.ReferenceIdeal.S1048576x64.ShapeCasts Cert.ReferenceIdeal.S4x262144x64) (j : Cert.ReferenceIdeal.S4x262144x64.Idx) :
    shapeCast _ B h j = B (ValueIdx.ix2 (rowOf (j 0) (j 1)) (j 2)) := by
  apply shapeCast_apply
  rewrite [Shape.rowMajor_val_two, Shape.rowMajor_val_three]
  show ((j 0 : ℕ) * 262144 + (j 1 : ℕ)) * 64 + (j 2 : ℕ) = ((j 0 : ℕ) * 262144 + (j 1 : ℕ)) * 64 + (j 2 : ℕ)
  rfl

/-- 19660 rows of 64 with a unit middle axis added: element (t, 0, k) is element (t, k). -/
theorem read_feat {α : Type} (B : Cert.KernelIdeal.S19660x64.Idx → α)
    (h : Cert.KernelIdeal.S19660x64.ShapeCasts Cert.KernelIdeal.S19660x1x64) (t : Fin 19660) (k : Fin 64) :
    shapeCast _ B h (ValueIdx.ix3 t (0 : Fin 1) k) = B (ValueIdx.ix2 t k) := by
  apply shapeCast_apply
  rewrite [Shape.rowMajor_val_two, Shape.rowMajor_val_three]
  show (t : ℕ) * 64 + (k : ℕ) = ((t : ℕ) * 1 + 0) * 64 + (k : ℕ)
  omega

/-- The zero fill, read anywhere. -/
theorem read_zero3 (h : Cert.KernelIdeal.S_.BroadcastsInDim Cert.KernelIdeal.S1048576x1x64 (![] : Fin 0 → Fin Cert.KernelIdeal.S1048576x1x64.rank))
    (i : Cert.KernelIdeal.S1048576x1x64.Idx) :
    broadcastInDim Cert.KernelIdeal.S1048576x1x64 ![] h (constant (F := F) Cert.KernelIdeal.S_ .f32 0x00000000#32) i
      = FloatOps.ofBits .f32 0x00000000#32 :=
  broadcastInDim_apply _ h _ i ValueIdx.ix0 (fun a => a.elim0)

/-- The reference's zero-filled operand, read anywhere. -/
theorem read_zero2 (i : Cert.ReferenceIdeal.S1048576x64.Idx) :
    Cert.ReferenceIdeal.Read.val_main_v60 (F := F) i = FloatOps.ofBits .f32 0x00000000#32 := by
  rw [Cert.ReferenceIdeal.Read.val_main_v60_apply, Cert.ReferenceIdeal.Read.val_main_cst_15_apply]

/-! ## The two arrays agree -/

section Main
open Idealize.SL.Sem Idealize.ShloMosaic.TcCoe

variable (a : (Cert.KernelIdeal.pcfg1 (F := F)).Adm)
variable (V : (c : Dev Cert.KernelIdeal.nD) → (b : Ref Cert.KernelIdeal.sig .tc) → Buf (Elt F) ((c : Thread Cert.KernelIdeal.nD Cert.KernelIdeal.τ).loc b))
variable (c : Dev Cert.KernelIdeal.nD)
variable (x0 : FVec F Cert.KernelIdeal.S65536x64 .f32) (x1 : IVec Cert.KernelIdeal.S65536x4 32) (x3 : IVec Cert.KernelIdeal.S19660 32)

/-- The kernel's output array after its last grid point, viewed as 4 × 262144 × 64, is the reference's scattered
    array viewed the same way: cell by cell, zero where no sample is sent, else the last such sample's feature row. -/
theorem rows_eq
    (htbl : a.1 0 = Cert.KernelIdeal.HostVal.flatSelK x1 x3)
    (hrange : ∀ i, (Cert.KernelIdeal.HostVal.flatK x1 i).toNat < 1048576)
    (hin : V c Cert.KernelIdeal.main_v39 = shapeCast _ (Cert.KernelIdeal.HostVal.featSelK (F := F) x0 x3) Cert.KernelIdeal.Facts₀.shapeCasts_S19660x64_S19660x1x64)
    (hz : V c Cert.KernelIdeal.main_v40 = broadcastInDim Cert.KernelIdeal.S1048576x1x64 ![] Cert.KernelIdeal.Facts₀.bcast_S_S1048576x1x64 (constant Cert.KernelIdeal.S_ .f32 0x00000000#32)) :
    shapeCast _ ((Cert.KernelIdeal.Scatter1.dat a V c).arrAt 1 (Cert.KernelIdeal.cfg1 a).N) Cert.KernelIdeal.Facts₀.shapeCasts_S1048576x1x64_S4x262144x64
      = Cert.ReferenceIdeal.Read.val_main_v68 (F := F) x0 x1 x3 := by
  funext j
  -- both reshapes read the cell of row r = (j 0)·262144 + (j 1), column j 2
  refine (read_rows3 ((Cert.KernelIdeal.Scatter1.dat a V c).arrAt 1 (Cert.KernelIdeal.cfg1 a).N)
    Cert.KernelIdeal.Facts₀.shapeCasts_S1048576x1x64_S4x262144x64 j).trans ?_
  refine Eq.trans ?_ (read_rows2 (Cert.ReferenceIdeal.Read.val_main_v67 (F := F) x0 x1 x3)
    Cert.ReferenceIdeal.Facts₀.shapeCasts_S1048576x64_S4x262144x64 j).symm
  -- every selected row number is below 2^20, and the table's words are the reference's gathered indices
  have hsel : ∀ t, (Cert.ReferenceIdeal.Read.val_main_v52 (F := F) x1 x3 t).toNat < 1048576 :=
    fun t => sel_lt x1 x3 hrange t
  have hrow : ∀ t : Fin (Cert.KernelIdeal.cfg1 a).N, Cert.KernelIdeal.Final1.row a t
      = (Cert.ReferenceIdeal.Read.val_main_v52 (F := F) x1 x3
          (ValueIdx.ix1 (n := 19660) ⟨t.val, Cert.KernelIdeal.Final1.lt_N a t⟩)).toNat := by
    intro t
    unfold Cert.KernelIdeal.Final1.row
    rw [htbl]
    rfl
  rcases Fin.none_or_last (fun t : Fin (Cert.KernelIdeal.cfg1 a).N =>
      Cert.KernelIdeal.Final1.row a t = (rowOf (j 0) (j 1)).val) with hn | ⟨t, ht, hl⟩
  · -- no sample is sent to row r: zero on both sides
    rw [Cert.KernelIdeal.Final1.row_of_none a V c (rowOf (j 0) (j 1)) (j 2) hn, hz, read_zero3,
      ref_none x0 x1 x3 hsel _ (fun t => by
        have h := hn ⟨t.val, (Cert.KernelIdeal.Final1.N_eq a).symm ▸ t.isLt⟩
        rw [hrow] at h
        exact h), read_zero2]
  · -- sample t is the last one sent to row r: its feature row on both sides
    refine (Cert.KernelIdeal.Final1.row_of_last a V c t (rowOf (j 0) (j 1)) (j 2) ⟨ht, hl⟩).trans ?_
    rw [hin]
    refine (read_feat (Cert.KernelIdeal.HostVal.featSelK (F := F) x0 x3)
      Cert.KernelIdeal.Facts₀.shapeCasts_S19660x64_S19660x1x64 ⟨t.val, Cert.KernelIdeal.Final1.lt_N a t⟩ (j 2)).trans ?_
    refine Eq.trans ?_ (ref_last x0 x1 x3 hsel (ValueIdx.ix2 (rowOf (j 0) (j 1)) (j 2))
      ⟨t.val, Cert.KernelIdeal.Final1.lt_N a t⟩ (by rw [← hrow]; exact ht) (fun t' hlt => by
        have h := hl ⟨t'.val, (Cert.KernelIdeal.Final1.N_eq a).symm ▸ t'.isLt⟩ (Fin.lt_def.mpr (Fin.lt_def.mp hlt))
        rw [hrow] at h
        exact h)).symm
    rfl

end Main

end Cert.BridgeRows

end
-- ==== Proof.lean ====
/-
  The certificate of the pillar-scatter kernel against its jnp reference, over the extended reals.

  Both programs compute the flat row number flat[i] = b·262144 + z + y·512 + x of every pillar (32-bit wrapping
  arithmetic), the same two gathers by the selection indices, and the same density value count/32. The reference then
  writes, with `zeros.at[flat].set(·)`, the constant 1, the point count and the density into three arrays of 1048576
  cells, and the selected feature rows into an array of 1048576 rows by the gathered row numbers: a fold over the
  updates in order, a later update to the same cell replacing an earlier one. The kernel does the same writes with two
  scatter calls whose output block index is read from a table of row numbers, one grid point per update, in order; the
  write-backs it issues leave in each cell what the LAST point addressing that cell wrote, and zero where none did. So
  the results agree cell by cell, duplicates included, and no algebraic law of the extended reals is involved: every
  value is copied. What the kernel needs that the reference does not is that every row number lies in [0, 1048576):
  outside it the kernel's block would leave its array, while the reference wraps a negative index and drops one past
  the end. That range is the precondition's second conjunct.
-/
import proofs.«414779_j32066225832083_1_alg».proof.Defs
import proofs.«414779_j32066225832083_1_alg».proof.Proof.Gen.Kernel
import proofs.«414779_j32066225832083_1_alg».proof.Proof.Gen.KernelIdeal
import proofs.«414779_j32066225832083_1_alg».proof.Proof.Gen.ReferenceIdeal
import proofs.«414779_j32066225832083_1_alg».proof.Proof.Gen.Pre_finite_inputs
import proofs.«414779_j32066225832083_1_alg».proof.Proof.Gen.ReferenceIdeal.Run
import proofs.«414779_j32066225832083_1_alg».proof.Proof.Gen.ReferenceIdeal.Read
import proofs.«414779_j32066225832083_1_alg».proof.Proof.KEnds
import proofs.«414779_j32066225832083_1_alg».proof.Proof.KOk
import proofs.«414779_j32066225832083_1_alg».proof.Proof.Bits.KEnds
import proofs.«414779_j32066225832083_1_alg».proof.Proof.Bits.KOk
import proofs.«414779_j32066225832083_1_alg».proof.Proof.BridgeCells
import proofs.«414779_j32066225832083_1_alg».proof.Proof.BridgeRows
import proofs.«414779_j32066225832083_1_alg».proof.Proof.PreRange
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged: the precondition puts
    every row number in range, so every table-indexed block lies inside its array. -/
theorem frame_k : Cert.frame_Kernel := fun m ρ hpre =>
  Cert.Kernel.Ends.frame (F := Bits) m (Cert.Kernel.OkOfPre.ok_of_pre m fun c => hpre c) ρ

/-- The same for the idealized kernel. -/
theorem frame_ki : Cert.frame_KernelIdeal := fun m ρ hpre =>
  Cert.KernelIdeal.Ends.frame (F := Ideal) m (Cert.KernelIdeal.OkOfPre.ok_of_pre m fun c => hpre c) ρ

/-- The reference is host operations only: its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

set_option maxRecDepth 8192 in
/-- From memories agreeing on the arguments both programs run, and their four results are equal cell by cell: the
    kernel's results are reshapes of what its two scatter calls leave, the reference's are reshapes of its scatters,
    and those arrays agree (the last writer of a cell is the same update on both sides). -/
theorem algebraic : Cert.algebraic_KernelIdeal_ReferenceIdeal := by
  intro m ρ m' ρ' hpre hagree
  have hO := Cert.KernelIdeal.OkOfPre.ok_of_pre (F := Ideal) m fun c => hpre c
  refine ⟨fun c => Cert.KernelIdeal.Run.W5 m hO c (Proc.devRef .tc Cert.KernelIdeal.main_v46),
    fun c => Cert.KernelIdeal.Run.W5 m hO c (Proc.devRef .tc Cert.KernelIdeal.main_v41),
    fun c => Cert.KernelIdeal.Run.W5 m hO c (Proc.devRef .tc Cert.KernelIdeal.main_v42),
    fun c => Cert.KernelIdeal.Run.W5 m hO c (Proc.devRef .tc Cert.KernelIdeal.main_v43),
    Cert.KernelIdeal.Ends.run_results m hO ρ, ?_⟩
  refine (θ_run Cert.ReferenceIdeal.defs _ _).mono (fun r h c => ?_) (Cert.ReferenceIdeal.Value.run (F := Ideal) m' ρ')
  obtain ⟨h70, h24, h45, h33, ha0, ha1, ha2, ha3⟩ := h c
  obtain ⟨e0, e1, e2, e3⟩ := hagree c
  refine ⟨h70.trans ?_, h24.trans ?_, h45.trans ?_, h33.trans ?_, ha0, ha1, ha2, ha3⟩
  all_goals clear h h70 h24 h45 h33 ha0 ha1 ha2 ha3
  all_goals obtain rfl : c = (0 : Dev Cert.KernelIdeal.nD) := Subsingleton.elim _ _
  all_goals have hrange : ∀ i, (Cert.KernelIdeal.HostVal.flatK (m (((0 : Dev Cert.KernelIdeal.nD).tc : Thread Cert.KernelIdeal.nD Cert.KernelIdeal.τ).loc Cert.KernelIdeal.main_arg1)) i).toNat < 1048576 :=
    fun i => by rw [Cert.KernelIdeal.OkOfPre.flatK_eq]; exact Cert.PreRange.flat_lt _ _ _ _ (hpre 0) i
  · show _ = Cert.KernelIdeal.Run.W5 m hO 0 (Proc.devRef .tc Cert.KernelIdeal.main_v46)
    rw [Cert.ReferenceIdeal.Read.val_main_v70_eq, e0, e1, e3, Cert.KernelIdeal.Ends.W5_v46]
    have hb := Cert.BridgeRows.rows_eq (F := Ideal) (Cert.KernelIdeal.Run.a1 m hO) (Cert.KernelIdeal.Run.Vin1 m hO) 0 _ _ _
      (Cert.KernelIdeal.OkOfPre.tbl1_eq m) hrange (Cert.KernelIdeal.Ends.Vin1_v39 m hO 0) (Cert.KernelIdeal.Ends.Vin1_v40 m hO 0)
    exact (congrArg (fun x => shapeCast Cert.KernelIdeal.S4x64x512x512
      (transpose Cert.KernelIdeal.S4x64x262144 [0, 2, 1] x Cert.KernelIdeal.Facts₀.transposes_S4x262144x64_S4x64x262144_0_2_1)
      Cert.KernelIdeal.Facts₀.shapeCasts_S4x64x262144_S4x64x512x512) hb).symm
  · show _ = Cert.KernelIdeal.Run.W5 m hO 0 (Proc.devRef .tc Cert.KernelIdeal.main_v41)
    refine (Cert.ReferenceIdeal.Read.val_main_v24_eq _).trans ?_
    rw [e1, Cert.KernelIdeal.Ends.W5_v41]
    exact (Cert.BridgeCells.occ_eq (F := Ideal) (Cert.KernelIdeal.Run.a0 m hO) (Cert.KernelIdeal.Run.Vin0 m) 0 _
      (Cert.KernelIdeal.OkOfPre.tbl0_eq m) hrange (Cert.KernelIdeal.Ends.Vin0_v37_0 m 0)).symm
  · show _ = Cert.KernelIdeal.Run.W5 m hO 0 (Proc.devRef .tc Cert.KernelIdeal.main_v42)
    refine (Cert.ReferenceIdeal.Read.val_main_v45_eq _ _).trans ?_
    rw [e1, e2, Cert.KernelIdeal.Ends.W5_v42]
    exact (Cert.BridgeCells.den_eq (F := Ideal) (Cert.KernelIdeal.Run.a0 m hO) (Cert.KernelIdeal.Run.Vin0 m) 0 _ _
      (Cert.KernelIdeal.OkOfPre.tbl0_eq m) hrange (Cert.KernelIdeal.Ends.Vin0_v35 m 0) (Cert.KernelIdeal.Ends.Vin0_v37_1 m 0)).symm
  · show _ = Cert.KernelIdeal.Run.W5 m hO 0 (Proc.devRef .tc Cert.KernelIdeal.main_v43)
    refine (Cert.ReferenceIdeal.Read.val_main_v33_eq _ _).trans ?_
    rw [e1, e2, Cert.KernelIdeal.Ends.W5_v43]
    exact (Cert.BridgeCells.pts_eq (F := Ideal) (Cert.KernelIdeal.Run.a0 m hO) (Cert.KernelIdeal.Run.Vin0 m) 0 _ _
      (Cert.KernelIdeal.OkOfPre.tbl0_eq m) hrange (Cert.KernelIdeal.Ends.Vin0_v36 m 0) (Cert.KernelIdeal.Ends.Vin0_v37_2 m 0)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
